-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x256 .f32) (main_arg13 : FVec F S256 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_v48 main_v49 main_v50

def fn_part1 {F : FTy → Type} [FloatOps F] (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x256 .f32) (main_arg1 : FVec F S4096x4096 .f32) (main_arg2 : FVec F S256x128 .f32) (main_arg3 : FVec F S128 .f32) (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S1x128 : Shape := ⟨2, ![1, 128]⟩
abbrev S1x64 : Shape := ⟨2, ![1, 64]⟩
abbrev S1x32 : Shape := ⟨2, ![1, 32]⟩
abbrev S4096x32 : Shape := ⟨2, ![4096, 32]⟩
abbrev S32x256 : Shape := ⟨2, ![32, 256]⟩
abbrev S1x256 : Shape := ⟨2, ![1, 256]⟩
abbrev S512x2048 : Shape := ⟨2, ![512, 2048]⟩
abbrev S512x32 : Shape := ⟨2, ![512, 32]⟩
abbrev S4096x128 : Shape := ⟨2, ![4096, 128]⟩
abbrev S2048x128 : Shape := ⟨2, ![2048, 128]⟩
abbrev S512x128 : Shape := ⟨2, ![512, 128]⟩
abbrev S512x64 : Shape := ⟨2, ![512, 64]⟩
abbrev S512x256 : Shape := ⟨2, ![512, 256]⟩
abbrev S32x512 : Shape := ⟨2, ![32, 512]⟩

abbrev nBuf : Space → Nat
  | .hbm => 23
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S1x128, .f32⟩
  | .hbm, ⟨15, _⟩ => ⟨S1x64, .f32⟩
  | .hbm, ⟨16, _⟩ => ⟨S1x32, .f32⟩
  | .hbm, ⟨17, _⟩ => ⟨S1x64, .f32⟩
  | .hbm, ⟨18, _⟩ => ⟨S1x128, .f32⟩
  | .hbm, ⟨19, _⟩ => ⟨S4096x32, .f32⟩
  | .hbm, ⟨20, _⟩ => ⟨S32x256, .f32⟩
  | .hbm, ⟨21, _⟩ => ⟨S1x256, .f32⟩
  | .hbm, ⟨22, _⟩ => ⟨S4096x256, .f32⟩
  | .local _ .vmem, ⟨0, _⟩ => ⟨S4096x256, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S256x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x32, .f32⟩
  | .local _ .vmem, ⟨10, _⟩ => ⟨S1x32, .f32⟩
  | .local _ .vmem, ⟨11, _⟩ => ⟨S32x64, .f32⟩
  | .local _ .vmem, ⟨12, _⟩ => ⟨S1x64, .f32⟩
  | .local _ .vmem, ⟨13, _⟩ => ⟨S64x128, .f32⟩
  | .local _ .vmem, ⟨14, _⟩ => ⟨S1x128, .f32⟩
  | .local _ .vmem, ⟨15, _⟩ => ⟨S128x256, .f32⟩
  | .local _ .vmem, ⟨16, _⟩ => ⟨S512x32, .f32⟩
  | .local _ .vmem, ⟨17, _⟩ => ⟨S512x32, .f32⟩
  | .local _ .vmem, ⟨18, _⟩ => ⟨S32x256, .f32⟩
  | .local _ .vmem, ⟨19, _⟩ => ⟨S4096x128, .bf16⟩
  | .local _ .vmem, ⟨20, _⟩ => ⟨S4096x32, .f32⟩
  | .local _ .vmem, ⟨21, _⟩ => ⟨S32x256, .f32⟩
  | .local _ .vmem, ⟨22, _⟩ => ⟨S1x256, .f32⟩
  | .local _ .vmem, ⟨23, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0_1 : Ref sig .tc := ⟨.hbm, 19, rfl⟩
abbrev main_call0_v5_1 : Ref sig .tc := ⟨.hbm, 20, rfl⟩
abbrev main_call0_v6 : Ref sig .tc := ⟨.hbm, 21, rfl⟩
abbrev main_v0_0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc1_sem0_0 : DmaSem sig := 19
abbrev cc1_sem1_0 : DmaSem sig := 20
abbrev cc1_sem2_0 : DmaSem sig := 21
abbrev cc1_sem3_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := .none

abbrev stage1_0 : Fin 1 → Memref sig .tc .vmem S4096x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  shapeCasts_S128_S1x128 : S128.ShapeCasts S1x128
  shapeCasts_S64_S1x64 : S64.ShapeCasts S1x64
  shapeCasts_S32_S1x32 : S32.ShapeCasts S1x32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S32x256_S32x256_0_0 : ∀ a, (![0, 0] : Fin 2 → Nat) a + S32x256.size a ≤ S32x256.size a
  h_S32x256 : 0 < S32x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x2048_S512x2048_0_0 : ∀ a, (![0, 0] : Fin 2 → Nat) a + S512x2048.size a ≤ S512x2048.size a
  h_S512x2048 : 0 < S512x2048.numel
  inb_S4096x128_S2048x128_0_0 : ∀ a, (![0, 0] : Fin 2 → Nat) a + S2048x128.size a ≤ S4096x128.size a
  h_S2048x128 : 0 < S2048x128.numel
  broadcasts_S1x128_S512x128 : S1x128.Broadcasts S512x128
  inb_S4096x128_S2048x128_2048_0 : ∀ a, (![2048, 0] : Fin 2 → Nat) a + S2048x128.size a ≤ S4096x128.size a
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  shapeCasts_S32x256_S32x256 : S32x256.ShapeCasts S32x256
  transposes_S512x32_p1_0_S32x512 : S512x32.Transposes [1, 0] S32x512
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S4096x256_S256x128_S4096x128_1_0_0_1_n_n_wf : DotDims.WF S4096x256 S256x128 S4096x128 [1] [0] [0] [1] [] []
  dot_S512x2048_S2048x128_S512x128_1_0_0_1_n_n_wf : DotDims.WF S512x2048 S2048x128 S512x128 [1] [0] [0] [1] [] []
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x64_S512x64_1_0_0_1_n_n_wf : DotDims.WF S512x32 S32x64 S512x64 [1] [0] [0] [1] [] []
  dot_S512x64_S64x128_S512x128_1_0_0_1_n_n_wf : DotDims.WF S512x64 S64x128 S512x128 [1] [0] [0] [1] [] []
  dot_S512x128_S128x256_S512x256_1_0_0_1_n_n_wf : DotDims.WF S512x128 S128x256 S512x256 [1] [0] [0] [1] [] []
  dot_S32x512_S512x256_S32x256_1_0_0_1_n_n_wf : DotDims.WF S32x512 S512x256 S32x256 [1] [0] [0] [1] [] []
  dot_S4096x32_S32x256_S4096x256_1_0_0_1_n_n_wf : DotDims.WF S4096x32 S32x256 S4096x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .f32 = 32 ∨ (Rect.block (s := S128x256) S128x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x32.size a ≤ S4096x32.size a
  hwx0_14 : ∀ i : grid0.Coords, EltTy.bits .f32 = 32 ∨ (Rect.block (s := S4096x32) S512x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x256.size a ≤ S32x256.size a
  hwx0_15 : ∀ i : grid0.Coords, EltTy.bits .f32 = 32 ∨ (Rect.block (s := S32x256) S32x256.size (cc0_transform_15 i) (hinb0_15 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v4) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S512x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_call0_v5_1) S32x256.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.whole (Memref.whole main_v0_1) false false (stage1_0 0) (sem1_0 0) (Memref.isWhole_whole _) (hstage1_0 0)

abbrev win1_1 : Pipeline.Window sig grid1 :=
  Pipeline.Window.whole (Memref.whole main_call0_v5_1) false false (stage1_1 0) (sem1_1 0) (Memref.isWhole_whole _) (hstage1_1 0)

abbrev win1_2 : Pipeline.Window sig grid1 :=
  Pipeline.Window.whole (Memref.whole main_call0_v6) false false (stage1_2 0) (sem1_2 0) (Memref.isWhole_whole _) (hstage1_2 0)

abbrev win1_3 : Pipeline.Window sig grid1 :=
  Pipeline.Window.whole (Memref.whole main_v0_0) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S4096x128 : Shape := ⟨2, ![4096, 128]⟩
abbrev S1x128 : Shape := ⟨2, ![1, 128]⟩
abbrev S_ : Shape := ⟨0, ![]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S32x4096 : Shape := ⟨2, ![32, 4096]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S4096x128, .f32⟩
  | .hbm, ⟨15, _⟩ => ⟨S4096x128, .f32⟩
  | .hbm, ⟨16, _⟩ => ⟨S1x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .i1⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .i1⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x32, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S32x4096, .f32⟩
  | .hbm, ⟨42, _⟩ => ⟨S4096x4096, .f32⟩
  | .hbm, ⟨43, _⟩ => ⟨S4096x64, .f32⟩
  | .hbm, ⟨44, _⟩ => ⟨S1x64, .f32⟩
  | .hbm, ⟨45, _⟩ => ⟨S4096x64, .f32⟩
  | .hbm, ⟨46, _⟩ => ⟨S4096x64, .f32⟩
  | .hbm, ⟨47, _⟩ => ⟨S_, .f32⟩
  | .hbm, ⟨48, _⟩ => ⟨S4096x64, .f32⟩
  | .hbm, ⟨49, _⟩ => ⟨S4096x64, .i1⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x128, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .i1⟩
  | .hbm, ⟨61, _⟩ => ⟨S_, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x256, .f32⟩
  | .hbm, ⟨66, _⟩ => ⟨S4096x256, .f32⟩
  | .hbm, ⟨67, _⟩ => ⟨S1x256, .f32⟩
  | .hbm, ⟨68, _⟩ => ⟨S4096x256, .f32⟩
  | .hbm, ⟨69, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  transposes_S4096x32_S32x4096_1_0 : S4096x32.Transposes [1, 0] S32x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x64_S4096x64_1_0_0_1_n_n_wf : DotDims.WF S4096x128 S128x64 S4096x64 [1] [0] [0] [1] [] []
  dot_S4096x64_S64x32_S4096x32_1_0_0_1_n_n_wf : DotDims.WF S4096x64 S64x32 S4096x32 [1] [0] [0] [1] [] []
  dot_S4096x32_S32x4096_S4096x4096_1_0_0_1_n_n_wf : DotDims.WF S4096x32 S32x4096 S4096x4096 [1] [0] [0] [1] [] []
  dot_S4096x32_S32x64_S4096x64_1_0_0_1_n_n_wf : DotDims.WF S4096x32 S32x64 S4096x64 [1] [0] [0] [1] [] []
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Hand.Data.lean ====
/-
  What the two kernels' windows hold, point by point.

  The first kernel walks the adjacency's eight row blocks of 512 rows.  At the first block it forms
  the support matrix X W₀ once and keeps it in a scratch buffer for all later blocks, and it sets the
  32 × 256 accumulator to zero.  At every block it forms that block's rows of Z (from the block's two
  column halves of the adjacency against the two row halves of the support matrix), writes them out,
  forms the block's rows of G, and adds (block of Z)ᵀ (block of G) to the accumulator.  The
  accumulator's block index never moves, so it is written out once, after the last block.

  The second kernel has one point: it reads Z, the accumulator and the last bias whole, and writes
  Z · accumulator + bias.

  Both are stated here over the contents `V` of the core's buffers when the kernel is entered.
-/
import proofs.«158643_g48112223650413_cont_sun_m_1297_5_alg».proof.Proof.Gen.KernelIdeal.Launch
import proofs.«158643_g48112223650413_cont_sun_m_1297_5_alg».proof.Proof.Gen.KernelIdeal.Skeleton
import proofs.«158643_g48112223650413_cont_sun_m_1297_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a kernel is entered
variable (V : (c : Dev nD) → (b : Ref sig .tc) → Buf (Elt F) ((c : Thread nD τ).loc b))

/-! # The first kernel (eight points) -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks by name, at their literal shapes: the features, the adjacency block's left and right
    column halves, and the six layers' weights and biases. -/
abbrev bX (c : Dev nD) (t : Fin cfg0.N) : Vec F S4096x256 .f32 := iblk0 V c 0 t
abbrev bAL (c : Dev nD) (t : Fin cfg0.N) : Vec F S512x2048 .f32 := iblk0 V c 1 t
abbrev bAR (c : Dev nD) (t : Fin cfg0.N) : Vec F S512x2048 .f32 := iblk0 V c 2 t
abbrev bW0 (c : Dev nD) (t : Fin cfg0.N) : Vec F S256x128 .f32 := iblk0 V c 3 t
abbrev bB0 (c : Dev nD) (t : Fin cfg0.N) : Vec F S1x128 .f32 := iblk0 V c 4 t
abbrev bW1 (c : Dev nD) (t : Fin cfg0.N) : Vec F S128x64 .f32 := iblk0 V c 5 t
abbrev bB1 (c : Dev nD) (t : Fin cfg0.N) : Vec F S1x64 .f32 := iblk0 V c 6 t
abbrev bW2 (c : Dev nD) (t : Fin cfg0.N) : Vec F S64x32 .f32 := iblk0 V c 7 t
abbrev bB2 (c : Dev nD) (t : Fin cfg0.N) : Vec F S1x32 .f32 := iblk0 V c 8 t
abbrev bW3 (c : Dev nD) (t : Fin cfg0.N) : Vec F S32x64 .f32 := iblk0 V c 9 t
abbrev bB3 (c : Dev nD) (t : Fin cfg0.N) : Vec F S1x64 .f32 := iblk0 V c 10 t
abbrev bW4 (c : Dev nD) (t : Fin cfg0.N) : Vec F S64x128 .f32 := iblk0 V c 11 t
abbrev bB4 (c : Dev nD) (t : Fin cfg0.N) : Vec F S1x128 .f32 := iblk0 V c 12 t
abbrev bW5 (c : Dev nD) (t : Fin cfg0.N) : Vec F S128x256 .f32 := iblk0 V c 13 t

/-- The scratch buffer that keeps the support matrix between points. -/
abbrev scM : Memref sig .tc .vmem S4096x128 .bf16 := Memref.whole cc0_scratch0
/-- Its first 2048 rows and its last 2048 rows. -/
abbrev rLo : Rect S4096x128 := Rect.unit (s := S4096x128) ![0, 0] S2048x128.size Facts₀.inb_S4096x128_S2048x128_0_0
abbrev rHi : Rect S4096x128 := Rect.unit (s := S4096x128) ![2048, 0] S2048x128.size Facts₀.inb_S4096x128_S2048x128_2048_0

/-- The support matrix X W₀, formed at the first point from the features and the first weight. -/
def supp (c : Dev nD) : FVec F S4096x128 .bf16 := k0_pay2 (bX V c t0_0) (bW0 V c t0_0)

/-- H₂'s rows of the block at point `t`. -/
def hBlk (c : Dev nD) (t : Fin cfg0.N) : FVec F S512x64 .f32 :=
  k0_pay4 (bB0 V c t) (bAL V c t) (View.ld (supp V c) rLo) (bAR V c t) (View.ld (supp V c) rHi) (bW1 V c t) (bB1 V c t)

/-- Z's rows of the block at point `t`: what the kernel writes out there. -/
def zBlk (c : Dev nD) (t : Fin cfg0.N) : FVec F S512x32 .f32 := k0_pay5 (hBlk V c t) (bW2 V c t) (bB2 V c t)

/-- (block of Z)ᵀ (block of G) at point `t`. -/
def zgBlk (c : Dev nD) (t : Fin cfg0.N) : FVec F S32x256 .f32 :=
  k0_pay7 (hBlk V c t) (bW2 V c t) (bB2 V c t) (bW3 V c t) (bB3 V c t) (bW4 V c t) (bB4 V c t) (bW5 V c t)

/-- The accumulator after point `n`: zero plus the first block's term, then one more term a point. -/
def mAcc (c : Dev nD) : (n : ℕ) → n < cfg0.N → FVec F S32x256 .f32
  | 0, h => k0_pay1 (k0_pay6 k0_pay3) (zgBlk V c ⟨0, h⟩)
  | n + 1, h => k0_pay1 (k0_pay6 (mAcc c n (Nat.lt_of_succ_lt h))) (zgBlk V c ⟨n + 1, h⟩)

theorem mAcc_zero (c : Dev nD) (h : 0 < cfg0.N) : mAcc V c 0 h = k0_pay1 (k0_pay6 k0_pay3) (zgBlk V c ⟨0, h⟩) := rfl
theorem mAcc_succ (c : Dev nD) (n : ℕ) (h : n + 1 < cfg0.N) :
    mAcc V c (n + 1) h = k0_pay1 (k0_pay6 (mAcc V c n (Nat.lt_of_succ_lt h))) (zgBlk V c ⟨n + 1, h⟩) := rfl

/-- The second kernel's four staging buffers, which the first kernel never touches: each holds anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The kernel's invariant before point `n`: before the first point the scratch holds anything;
    afterwards it holds the support matrix.  The second kernel's staging buffers and the generator
    register ride along. -/
def PhiS (c : Dev nD) : (n : ℕ) → n ≤ cfg0.N → sProp 𝕄
  | 0, _ => Pipeline.ΦA spec0 c
  | _ + 1, _ => iprop((owns (c : Thread nD τ) scM fullShare (supp V c) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop((owns (c : Thread nD τ) scM fullShare (supp V c) ∗ rest0 c) ∗ (∃ r, prngReg c r)) := by
  cases n with
  | zero => exact absurd rfl hz
  | succ n => rfl

/-- The first kernel's proof data on core `c`.  The adjacency is handed to the kernel twice (its
    left and its right column halves are separate windows on the one array), so those two windows
    each hold half of the array's share; every other input holds its array outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => zBlk V c t
    | ⟨15, _⟩ => mAcc V c t.val t.isLt
    | ⟨_ + 16, h⟩ => absurd h (Nat.not_lt.2 (Nat.le_add_left _ _))
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS V c t.val (Nat.le_of_lt t.isLt) := by
  dsimp only [dat0]; simp only [Fin.coe_castSucc]

theorem after0_14 (c : Dev nD) (t : Fin cfg0.N) : (dat0 V c).after 14 t = zBlk V c t := by dsimp only [dat0]
theorem after0_15 (c : Dev nD) (t : Fin cfg0.N) : (dat0 V c).after 15 t = mAcc V c t.val t.isLt := by dsimp only [dat0]

/-! # The second kernel (one point) -/

/-- Window `w`'s block at the one point, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Z · accumulator + bias, from the three arrays read whole. -/
def xoutBlk (c : Dev nD) (t : Fin cfg1.N) : FVec F S4096x256 .f32 :=
  k1_pay1 (iblk1 V c 0 t : Vec F S4096x32 .f32) (iblk1 V c 1 t : Vec F S32x256 .f32) (iblk1 V c 2 t : Vec F S1x256 .f32)

/-- The second kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => xoutBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = xoutBlk V c t := by dsimp only [dat1]

end Cert.KernelIdeal.Hand

end
-- ==== Proof.Hand.RunCond.lean ====
/-
  The whole program's run, with its two results named.

  The program is four items in a row: a stretch of reshapes of the biases, the first kernel, one more
  reshape, the second kernel.  Between two items the core's buffers hold known contents: the launch
  memory, then the reshapes' results, then whatever the first kernel leaves in its two output
  arrays, and so on.  Given each kernel's record of obligations, the items chain, the program
  terminates, and the final memory is read off the last item's contents: the arguments untouched, the
  two results at what the kernels left in them.
-/
import proofs.«158643_g48112223650413_cont_sun_m_1297_5_alg».proof.Proof.Gen.KernelIdeal.Regions

set_option maxRecDepth 2560

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

/-- After the last item the first result's buffer holds what the second kernel left in it. -/
theorem V4_res0 (c : Dev nD) : V4 m outs c main_v0_0 = outs 4 main_v0_0 c := by
  simp only [V4, Function.update_self]

/-- After the last item the second result's buffer holds what the first kernel left in it: neither
    the later reshape nor the second kernel writes it. -/
theorem V4_res1 (c : Dev nD) : V4 m outs c main_v0_1 = outs 2 main_v0_1 c :=
  (V4_of m outs c main_v0_1 (by decide)).trans <| (V3_of m outs c main_v0_1 (by decide)).trans <| by
    simp only [V2, Function.update_of_ne (StableHlo.devRef_ne_of_ne (by decide) : (Proc.devRef .tc main_v0_1 : DevRef τ sig) ≠ Proc.devRef .tc main_call0_v5_1), Function.update_self]

set_option backward.isDefEq.respectTransparency.types false in
/-- THE RUN WITH ITS RESULTS NAMED.  Given, per kernel, a segment record entered from the buffers' contents
    before it and left at the contents after it, every weakly fair execution of the program from memory `m`
    terminates; the first result's buffer ends at what the second kernel leaves in it, the second result's at
    what the first kernel leaves in it, and every argument's buffer ends as it began. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v0_0) = outs 4 main_v0_0 c
      ∧ r.2.mem ((c.tc : Thread nD τ).loc main_v0_1) = outs 2 main_v0_1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v0_0) = outs 4 main_v0_0 c ∧ s.mem ((c.tc : Thread nD τ).loc main_v0_1) = outs 2 main_v0_1 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- at launch every buffer outside a kernel's scope holds the launch memory; what else the launch deals makes
    -- the state that rides beside the buffers, on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the final memory agrees with the contents after the last item: the two results at what the
    -- kernels left, each argument at the launch memory, since no item writes an argument
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v0_0) (Finset.mem_filter.mpr ⟨StableHlo.devRef_mem_tcRefs main_v0_0, by decide⟩)).trans (V4_res0 m outs c),
        (h (Proc.devRef .tc main_v0_1) (Finset.mem_filter.mpr ⟨StableHlo.devRef_mem_tcRefs main_v0_1, by decide⟩)).trans (V4_res1 m outs c),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_arg7) (Finset.mem_filter.mpr ⟨StableHlo.devRef_mem_tcRefs main_arg7, by decide⟩)).trans (V4_main_arg7 m outs c),
        (h (Proc.devRef .tc main_arg8) (Finset.mem_filter.mpr ⟨StableHlo.devRef_mem_tcRefs main_arg8, by decide⟩)).trans (V4_main_arg8 m outs c),
        (h (Proc.devRef .tc main_arg9) (Finset.mem_filter.mpr ⟨StableHlo.devRef_mem_tcRefs main_arg9, by decide⟩)).trans (V4_main_arg9 m outs c),
        (h (Proc.devRef .tc main_arg10) (Finset.mem_filter.mpr ⟨StableHlo.devRef_mem_tcRefs main_arg10, by decide⟩)).trans (V4_main_arg10 m outs c),
        (h (Proc.devRef .tc main_arg11) (Finset.mem_filter.mpr ⟨StableHlo.devRef_mem_tcRefs main_arg11, by decide⟩)).trans (V4_main_arg11 m outs c),
        (h (Proc.devRef .tc main_arg12) (Finset.mem_filter.mpr ⟨StableHlo.devRef_mem_tcRefs main_arg12, by decide⟩)).trans (V4_main_arg12 m outs c),
        (h (Proc.devRef .tc main_arg13) (Finset.mem_filter.mpr ⟨StableHlo.devRef_mem_tcRefs main_arg13, by decide⟩)).trans (V4_main_arg13 m outs c)⟩
    · iexact HSI

end Cert.KernelIdeal.Hand

end
-- ==== Proof.Hand.Regs.lean ====
/-
  The two kernels' proof data, placed in the program.

  The first kernel is entered after the biases' reshapes; what it leaves in its two output arrays
  (Z and the accumulator) is named here, as is what the second kernel, entered after one more
  reshape, leaves in its output array.  These are the contents the program's later items, and its
  end, find in those arrays.
-/
import proofs.«158643_g48112223650413_cont_sun_m_1297_5_alg».proof.Proof.Hand.Data
import proofs.«158643_g48112223650413_cont_sun_m_1297_5_alg».proof.Proof.Hand.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0

/-- The core's buffers when the first kernel is entered: the launch memory after the biases' reshapes. -/
abbrev Vin0 (c : Dev nD) (b : Ref sig .tc) : Buf (Elt F) ((c : Thread nD τ).loc b) := V1 m c b

/-- What the first kernel leaves in Z's array: its eight row blocks written out one by one. -/
def zArr (c : Dev nD) : Buf (Elt F) ((c : Thread nD τ).loc main_v0_1) := (dat0 (Vin0 m) c).arrAt 14 cfg0.N
/-- What it leaves in the accumulator's array: the accumulator after the last point, written out once. -/
def mArr (c : Dev nD) : Buf (Elt F) ((c : Thread nD τ).loc main_call0_v5_1) := (dat0 (Vin0 m) c).arrAt 15 cfg0.N

/-- The arrays the first kernel writes, at what it leaves in them (any other buffer: as launched). -/
def outsA : Outs (F := F) := fun _ r c =>
  if h : r = main_v0_1 then h ▸ zArr m c
  else if h' : r = main_call0_v5_1 then h' ▸ mArr m c
  else m ((c : Thread nD τ).loc r)

/-- The core's buffers when the second kernel is entered: after the first kernel and the last bias's reshape. -/
abbrev Vin1 (c : Dev nD) (b : Ref sig .tc) : Buf (Elt F) ((c : Thread nD τ).loc b) := V3 m (outsA m) c b

/-- What the second kernel leaves in the first result's array. -/
def xArr (c : Dev nD) : Buf (Elt F) ((c : Thread nD τ).loc main_v0_0) := (dat1 (Vin1 m) c).arrAt 3 cfg1.N

/-- Every array a kernel writes, at what the kernel leaves in it. -/
def outs : Outs (F := F) := fun J r c =>
  if h : r = main_v0_0 then h ▸ xArr m c else outsA m J r c

theorem outs_res1 (c : Dev nD) : outs m 2 main_v0_1 c = zArr m c := by
  unfold outs outsA; rw [dif_neg (by decide), dif_pos rfl]
theorem outs_acc (c : Dev nD) : outs m 2 main_call0_v5_1 c = mArr m c := by
  unfold outs outsA; rw [dif_neg (by decide), dif_neg (by decide), dif_pos rfl]
theorem outs_res0 (c : Dev nD) : outs m 4 main_v0_0 c = xArr m c := by
  unfold outs; rw [dif_pos rfl]
theorem outsA_res1 (c : Dev nD) : outsA m 2 main_v0_1 c = zArr m c := by
  unfold outsA; rw [dif_pos rfl]
theorem outsA_acc (c : Dev nD) : outsA m 2 main_call0_v5_1 c = mArr m c := by
  unfold outsA; rw [dif_neg (by decide), dif_pos rfl]

/-- The buffers after the first kernel do not depend on what the second kernel leaves. -/
theorem V2_outs (c : Dev nD) : V2 m (outs m) c = V2 m (outsA m) c := by
  simp only [V2, outs_res1, outs_acc, outsA_res1, outsA_acc]
theorem V3_outs (c : Dev nD) : V3 m (outs m) c = V3 m (outsA m) c :=
  congrArg (StableHlo.after hostOps1) (V2_outs m c)

/-- Each kernel's proof data at the contents it is entered from: a literal match on the kernel. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- What rides beside the buffers through every item: the generator register at some state, and the
    core owing nothing. -/
abbrev E (_ : Fin 3) (c : Dev nD) : sProp 𝕄 :=
  iprop((∃ r, prngReg c r) ∗ ∃ W, owes (c : Thread nD τ) (0 : CellTallies nD τ sig Unit) W)

end Cert.KernelIdeal.Hand

end
-- ==== Proof.Hand.Body0Run.lean ====
/-
  The first kernel's body, run once over whole buffers.

  The body branches once, on whether the grid coordinate is zero.  Where it is, the body first stores
  the support matrix (from the features and the first weight) into the scratch and zero into the
  accumulator's buffer.  In either case it then reads the scratch's two row halves against the
  adjacency block's two column halves, forms the block's rows of H₂ and of Z, stores Z's rows, forms
  (block of Z)ᵀ (block of G), and stores the accumulator plus that term.  Every store goes through a
  buffer's whole rectangle, so what a buffer reads afterwards is the last payload stored into it; every
  load of an input reads the input's block as it stands.  The two statements below say this for the
  first point and for a later one, over arbitrary whole buffers and arbitrary block values.
-/
import proofs.«158643_g48112223650413_cont_sun_m_1297_5_alg».proof.Proof.Hand.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a matrix's whole rectangle are zero. -/
theorem zeroOff0 : (![0, 0] : Fin 2 → ℕ) = fun _ => 0 := funext fun a => by fin_cases a <;> rfl

/-- A whole buffer, after one store through its whole rectangle at zero offsets, reads the stored payload,
    whatever it held before. -/
theorem read_store_whole0 {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-- The condition of the body's one branch, from the grid coordinate: the body's scalar chain. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-- The block's rows of H₂ from the input blocks and the scratch's contents `s`. -/
abbrev hOf (s : Vec F S4096x128 .bf16) (x1 x2 : Vec F S512x2048 .f32) (x4 : Vec F S1x128 .f32) (x5 : Vec F S128x64 .f32) (x6 : Vec F S1x64 .f32) : FVec F S512x64 .f32 :=
  k0_pay4 x4 x1 (View.ld s rLo) x2 (View.ld s rHi) x5 x6

/-- The same after a later store through the whole rectangle, whatever was stored before it. -/
theorem read_store_whole_cons0 {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero h inb y⟩).trans
    (View.canon_cons_unit_zero h inb w L)

/-- A load through any rectangle, after one store through the whole rectangle, reads the stored payload at
    the rectangle's indices. -/
theorem readCov_whole_ld0 {κ : Kind} {sp : Space} {S : Shape} {e : EltTy} {v : View sig κ sp S e}
    {off : Fin S.rank → ℕ} (h : off = fun _ => 0) (inb : ∀ a, off a + S.size a ≤ S.size a)
    (w : S.Idx → Elt F e) (r : Rect S) :
    v.readCov [(⟨Rect.unit off S.size inb, w⟩ : View.Piece (Elt F) S e)] r.toLoadRect = View.ld w r :=
  (View.readCov_eq_canon_ld v _ r fun y => ⟨_, List.mem_singleton_self _, View.mem_set_unit_zero h inb y⟩).trans
    (by rw [View.canon_unit_zero h inb w])

set_option maxHeartbeats 4000000 in
/-- The body at the first point, on whole memrefs: the inputs' at their blocks, Z's buffer, the accumulator's
    and the scratch at anything.  It hands the inputs back as they were, the scratch at the support matrix
    formed from the features and the first weight, Z's buffer at the block's rows of Z formed from that, and
    the accumulator's at zero plus the block's term. -/
theorem run0_first (c : Dev nD) (E : Set ℕ) (i : grid0.Coords) (hc : cond0 i)
    (arg1 : Memref sig .tc .vmem S4096x256 .f32) (harg1 : arg1.IsWhole)
    (arg2 : Memref sig .tc .vmem S512x2048 .f32) (harg2 : arg2.IsWhole)
    (arg3 : Memref sig .tc .vmem S512x2048 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x64 .f32) (harg6 : arg6.IsWhole)
    (arg7 : Memref sig .tc .vmem S1x64 .f32) (harg7 : arg7.IsWhole)
    (arg8 : Memref sig .tc .vmem S64x32 .f32) (harg8 : arg8.IsWhole)
    (arg9 : Memref sig .tc .vmem S1x32 .f32) (harg9 : arg9.IsWhole)
    (arg10 : Memref sig .tc .vmem S32x64 .f32) (harg10 : arg10.IsWhole)
    (arg11 : Memref sig .tc .vmem S1x64 .f32) (harg11 : arg11.IsWhole)
    (arg12 : Memref sig .tc .vmem S64x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S512x32 .f32) (harg15 : arg15.IsWhole)
    (arg16 : Memref sig .tc .vmem S32x256 .f32) (harg16 : arg16.IsWhole)
    (arg17 : Memref sig .tc .vmem S4096x128 .bf16) (harg17 : arg17.IsWhole)
    (x0 : Vec F S4096x256 .f32) (x1 : Vec F S512x2048 .f32) (x2 : Vec F S512x2048 .f32) (x3 : Vec F S256x128 .f32) (x4 : Vec F S1x128 .f32) (x5 : Vec F S128x64 .f32) (x6 : Vec F S1x64 .f32) (x7 : Vec F S64x32 .f32) (x8 : Vec F S1x32 .f32) (x9 : Vec F S32x64 .f32) (x10 : Vec F S1x64 .f32) (x11 : Vec F S64x128 .f32) (x12 : Vec F S1x128 .f32) (x13 : Vec F S128x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (k0_pay5 (hOf (k0_pay2 x0 x3) x1 x2 x4 x5 x6) x7 x8)
            ∗ owns (c : Thread nD τ) arg16 fullShare (k0_pay1 (k0_pay6 k0_pay3) (k0_pay7 (hOf (k0_pay2 x0 x3) x1 x2 x4 x5 x6) x7 x8 x9 x10 x11 x12 x13))
            ∗ owns (c : Thread nD τ) arg17 fullShare (k0_pay2 x0 x3)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  isplitl [H15]
  · iexists _; isplitr
    swap; · iexact H15
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  · iexists _; isplitr
    swap; · iexact H16
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]

set_option maxHeartbeats 4000000 in
/-- The body at a later point, on whole memrefs: the inputs' at their blocks, Z's buffer at anything, the
    accumulator's at `m0`, the scratch at `s`.  It hands the inputs and the scratch back as they were, Z's
    buffer at the block's rows of Z formed from `s`, and the accumulator's at `m0` plus the block's term. -/
theorem run0_later (c : Dev nD) (E : Set ℕ) (i : grid0.Coords) (hc : ¬ cond0 i)
    (arg1 : Memref sig .tc .vmem S4096x256 .f32) (harg1 : arg1.IsWhole)
    (arg2 : Memref sig .tc .vmem S512x2048 .f32) (harg2 : arg2.IsWhole)
    (arg3 : Memref sig .tc .vmem S512x2048 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x64 .f32) (harg6 : arg6.IsWhole)
    (arg7 : Memref sig .tc .vmem S1x64 .f32) (harg7 : arg7.IsWhole)
    (arg8 : Memref sig .tc .vmem S64x32 .f32) (harg8 : arg8.IsWhole)
    (arg9 : Memref sig .tc .vmem S1x32 .f32) (harg9 : arg9.IsWhole)
    (arg10 : Memref sig .tc .vmem S32x64 .f32) (harg10 : arg10.IsWhole)
    (arg11 : Memref sig .tc .vmem S1x64 .f32) (harg11 : arg11.IsWhole)
    (arg12 : Memref sig .tc .vmem S64x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S512x32 .f32) (harg15 : arg15.IsWhole)
    (arg16 : Memref sig .tc .vmem S32x256 .f32) (harg16 : arg16.IsWhole)
    (arg17 : Memref sig .tc .vmem S4096x128 .bf16) (harg17 : arg17.IsWhole)
    (x0 : Vec F S4096x256 .f32) (x1 : Vec F S512x2048 .f32) (x2 : Vec F S512x2048 .f32) (x3 : Vec F S256x128 .f32) (x4 : Vec F S1x128 .f32) (x5 : Vec F S128x64 .f32) (x6 : Vec F S1x64 .f32) (x7 : Vec F S64x32 .f32) (x8 : Vec F S1x32 .f32) (x9 : Vec F S32x64 .f32) (x10 : Vec F S1x64 .f32) (x11 : Vec F S64x128 .f32) (x12 : Vec F S1x128 .f32) (x13 : Vec F S128x256 .f32)
    (m0 : Vec F S32x256 .f32) (s : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ owns (c : Thread nD τ) arg16 fullShare m0 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (k0_pay5 (hOf s x1 x2 x4 x5 x6) x7 x8)
            ∗ owns (c : Thread nD τ) arg16 fullShare (k0_pay1 (k0_pay6 m0) (k0_pay7 (hOf s x1 x2 x4 x5 x6) x7 x8 x9 x10 x11 x12 x13))
            ∗ owns (c : Thread nD τ) arg17 fullShare s) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (read_store_whole0 _ _ zeroOff0 _ _).trans ?_
    sl_unfold_run_names
    simp only [View.readAt_eq_ld, hf0, hf1, hf2, hf3, hf4, hf5, hf6, hf7, hf8, hf9, hf10, hf11, hf12, hf13, hf15, hf16, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  isplitl [H15]
  · iexists _; isplitr
    swap; · iexact H15
    ipureintro
    refine (read_store_whole0 _ _ zeroOff0 _ _).trans ?_
    sl_unfold_run_names
    simp only [View.readAt_eq_ld, hf0, hf1, hf2, hf3, hf4, hf5, hf6, hf7, hf8, hf9, hf10, hf11, hf12, hf13, hf15, hf16, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  iexists _; isplitr; · ipureintro; exact hf16
  iexact H16

end Cert.KernelIdeal.Hand

end
-- ==== Proof.Hand.Body0.lean ====
/-
  The first kernel's body, run at each of its eight points.

  At the first point the body finds anything in the scratch and in the accumulator's buffer: it
  stores the support matrix into the scratch and zero into the accumulator before it reads either.
  At a later point it finds the support matrix in the scratch and, in the accumulator's buffer, what
  the point before left there (that buffer is not written out between points).  At every point it
  leaves the block's rows of Z in Z's buffer, the accumulator plus the block's term in the
  accumulator's buffer, the support matrix in the scratch, and every input buffer as it found it.
-/
import proofs.«158643_g48112223650413_cont_sun_m_1297_5_alg».proof.Proof.Hand.Body0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each buffer -/

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem after0_6 (c : Dev nD) (t : Fin cfg0.N) : (dat0 V c).after 6 t = iblk0 V c 6 t := by dsimp only [dat0]
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem after0_7 (c : Dev nD) (t : Fin cfg0.N) : (dat0 V c).after 7 t = iblk0 V c 7 t := by dsimp only [dat0]
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)
theorem after0_8 (c : Dev nD) (t : Fin cfg0.N) : (dat0 V c).after 8 t = iblk0 V c 8 t := by dsimp only [dat0]
theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)
theorem after0_9 (c : Dev nD) (t : Fin cfg0.N) : (dat0 V c).after 9 t = iblk0 V c 9 t := by dsimp only [dat0]
theorem before0_9 (c : Dev nD) (t : Fin cfg0.N) (d) : (dat0 V c).before 9 t d = iblk0 V c 9 t :=
  ((dat0 V c).before_in_eq_fetched 9 rfl (fun _ => rfl) (fun _ _ _ => rfl)
      (fun t => by rw [after0_9]; unfold Dat.blockOf iblk0; rw [A_eq0]; try rfl) t d).trans
    (by unfold Dat.fetched Dat.blockOf iblk0; rw [A_eq0]; try rfl)
theorem after0_10 (c : Dev nD) (t : Fin cfg0.N) : (dat0 V c).after 10 t = iblk0 V c 10 t := by dsimp only [dat0]
theorem before0_10 (c : Dev nD) (t : Fin cfg0.N) (d) : (dat0 V c).before 10 t d = iblk0 V c 10 t :=
  ((dat0 V c).before_in_eq_fetched 10 rfl (fun _ => rfl) (fun _ _ _ => rfl)
      (fun t => by rw [after0_10]; unfold Dat.blockOf iblk0; rw [A_eq0]; try rfl) t d).trans
    (by unfold Dat.fetched Dat.blockOf iblk0; rw [A_eq0]; try rfl)
theorem after0_11 (c : Dev nD) (t : Fin cfg0.N) : (dat0 V c).after 11 t = iblk0 V c 11 t := by dsimp only [dat0]
theorem before0_11 (c : Dev nD) (t : Fin cfg0.N) (d) : (dat0 V c).before 11 t d = iblk0 V c 11 t :=
  ((dat0 V c).before_in_eq_fetched 11 rfl (fun _ => rfl) (fun _ _ _ => rfl)
      (fun t => by rw [after0_11]; unfold Dat.blockOf iblk0; rw [A_eq0]; try rfl) t d).trans
    (by unfold Dat.fetched Dat.blockOf iblk0; rw [A_eq0]; try rfl)
theorem after0_12 (c : Dev nD) (t : Fin cfg0.N) : (dat0 V c).after 12 t = iblk0 V c 12 t := by dsimp only [dat0]
theorem before0_12 (c : Dev nD) (t : Fin cfg0.N) (d) : (dat0 V c).before 12 t d = iblk0 V c 12 t :=
  ((dat0 V c).before_in_eq_fetched 12 rfl (fun _ => rfl) (fun _ _ _ => rfl)
      (fun t => by rw [after0_12]; unfold Dat.blockOf iblk0; rw [A_eq0]; try rfl) t d).trans
    (by unfold Dat.fetched Dat.blockOf iblk0; rw [A_eq0]; try rfl)
theorem after0_13 (c : Dev nD) (t : Fin cfg0.N) : (dat0 V c).after 13 t = iblk0 V c 13 t := by dsimp only [dat0]
theorem before0_13 (c : Dev nD) (t : Fin cfg0.N) (d) : (dat0 V c).before 13 t d = iblk0 V c 13 t :=
  ((dat0 V c).before_in_eq_fetched 13 rfl (fun _ => rfl) (fun _ _ _ => rfl)
      (fun t => by rw [after0_13]; unfold Dat.blockOf iblk0; rw [A_eq0]; try rfl) t d).trans
    (by unfold Dat.fetched Dat.blockOf iblk0; rw [A_eq0]; try rfl)

/-- The accumulator's window is not written out at any point before the last. -/
theorem noFlush0_15 (t : Fin cfg0.N) (hz : t.val ≠ 0) :
    (cfg0.win 15).flush ⟨t.val - 1, Nat.lt_of_le_of_lt (Nat.sub_le _ _) t.isLt⟩ = false := by
  have hN : t.val < 8 := lt_of_lt_of_eq t.isLt (show cfg0.N = 8 from N_0)
  have h := flush0_15 ⟨t.val - 1, Nat.lt_of_le_of_lt (Nat.sub_le _ _) t.isLt⟩
  rw [Bool.eq_false_iff]
  intro hf
  have h7 := h.mp hf
  dsimp only at h7
  omega

/-- So at a later point its buffer holds what the point before left there: the accumulator so far. -/
theorem before0_15_later (c : Dev nD) (t : Fin cfg0.N) (hz : t.val ≠ 0) (d) :
    (dat0 V c).before 15 t d = mAcc V c (t.val - 1) (Nat.lt_of_le_of_lt (Nat.sub_le _ _) t.isLt) := by
  rw [(dat0 V c).before_out_kept 15 rfl t hz (noFlush0_15 t hz) (fun _ => rfl) (fun _ _ => rfl) d, after0_15]

/-! ## The proof data's blocks in the run's spelling -/

theorem zBlk_eq (c : Dev nD) (t : Fin cfg0.N) :
    zBlk V c t = k0_pay5 (hOf (supp V c) (bAL V c t) (bAR V c t) (bB0 V c t) (bW1 V c t) (bB1 V c t)) (bW2 V c t) (bB2 V c t) := rfl

theorem zgBlk_eq (c : Dev nD) (t : Fin cfg0.N) :
    zgBlk V c t = k0_pay7 (hOf (supp V c) (bAL V c t) (bAR V c t) (bB0 V c t) (bW1 V c t) (bB1 V c t)) (bW2 V c t) (bB2 V c t)
      (bW3 V c t) (bB3 V c t) (bW4 V c t) (bB4 V c t) (bW5 V c t) := rfl

/-- At the first point the support matrix is formed from that point's blocks. -/
theorem supp_first (c : Dev nD) (t : Fin cfg0.N) (hz : t.val = 0) : supp V c = k0_pay2 (bX V c t) (bW0 V c t) := by
  have ht : t = t0_0 := Fin.ext hz
  subst ht; rfl

/-- The accumulator after the first point: zero plus the first block's term. -/
theorem mAcc_first (c : Dev nD) (t : Fin cfg0.N) (hz : t.val = 0) :
    mAcc V c t.val t.isLt = k0_pay1 (k0_pay6 k0_pay3) (zgBlk V c t) := by
  obtain ⟨n, hn⟩ := t
  cases n with
  | zero => rfl
  | succ n => exact absurd hz (Nat.succ_ne_zero n)

/-- The accumulator after a later point: what the point before left plus the block's term. -/
theorem mAcc_later (c : Dev nD) (t : Fin cfg0.N) (hz : t.val ≠ 0) :
    mAcc V c t.val t.isLt
      = k0_pay1 (k0_pay6 (mAcc V c (t.val - 1) (Nat.lt_of_le_of_lt (Nat.sub_le _ _) t.isLt))) (zgBlk V c t) := by
  obtain ⟨n, hn⟩ := t
  cases n with
  | zero => exact absurd rfl hz
  | succ n => rfl

/-- Before the first point the invariant is the scratch at anything, the second kernel's staging buffers at
    anything and the generator register. -/
theorem PhiA0_eq (c : Dev nD) :
    (Pipeline.ΦA spec0 c : sProp 𝕄)
      = iprop(((∃ d, owns (c : Thread nD τ) scM fullShare d) ∗ rest0 c) ∗ (∃ r, prngReg c r)) := by
  unfold Pipeline.ΦA rest0; rw [scopedRest0_eq]; simp only [scM, owns_whole]; try rfl

/-! ## The body obligation at a point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point.  Each input's buffer holds its block.  At the first point the scratch and the two
    outputs' buffers hold anything, and the body leaves the support matrix, the block's rows of Z and zero plus
    the block's term.  At a later point the scratch holds the support matrix and the accumulator's buffer what
    the point before left, and the body leaves the scratch as it was, the block's rows of Z and the accumulator
    plus the block's term.  Nothing is owed before or after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).owesAt () t.succ = (dat0 V c).owesAt () t.castSucc from rfl]
  rw [after0_0, after0_1, after0_2, after0_3, after0_4, after0_5, after0_6, after0_7, after0_8, after0_9, after0_10, after0_11, after0_12, after0_13, after0_14, after0_15]
  rw [Phi0_castSucc V c t, show (dat0 V c).Φ t.succ = PhiS V c (t.val + 1) t.isLt from rfl,
    PhiS_pos V c (t.val + 1) _ (Nat.succ_ne_zero _)]
  by_cases hz : t.val = 0
  · rw [PhiS_zero V c _ _ hz, PhiA0_eq, mAcc_first V c t hz, zBlk_eq V c t, zgBlk_eq V c t, supp_first V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run0_first c Set.univ (grid0.coords t) ((hcond0 t).mpr hz) _ _ _ _ _ _ _ _ _ _ _ _ _ _ _ _ _ _ _ _ _ _ _ _ _ _ _ _ _ _ _ _ _ _
      (bX V c t) (bAL V c t) (bAR V c t) (bW0 V c t) (bB0 V c t) (bW1 V c t) (bB1 V c t) (bW2 V c t) (bB2 V c t) (bW3 V c t) (bB3 V c t) (bW4 V c t) (bB4 V c t) (bW5 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [PhiS_pos V c _ _ hz, mAcc_later V c t hz, zBlk_eq V c t, zgBlk_eq V c t]
    simp only [before0_15_later V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run0_later c Set.univ (grid0.coords t) (fun h => hz ((hcond0 t).mp h)) _ _ _ _ _ _ _ _ _ _ _ _ _ _ _ _ _ _ _ _ _ _ _ _ _ _ _ _ _ _ _ _ _ _
      (bX V c t) (bAL V c t) (bAR V c t) (bW0 V c t) (bB0 V c t) (bW1 V c t) (bB1 V c t) (bW2 V c t) (bB2 V c t) (bW3 V c t) (bB3 V c t) (bW4 V c t) (bB4 V c t) (bW5 V c t) (mAcc V c (t.val - 1) (Nat.lt_of_le_of_lt (Nat.sub_le _ _) t.isLt)) (supp V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body obligation of the first kernel, at every point: from the invariant before the point and
    every window's current buffer at what it holds then, the body runs to the invariant after the
    point and every buffer at what the proof data say it holds after the body. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Hand.Reg0.lean ====
/-
  The first kernel as an item of the program.

  It is entered holding every buffer outside a kernel's scope at the contents after the biases'
  reshapes.  Its windows' arrays are taken out of those buffers: the adjacency's buffer, which two
  windows read, is split into two halves of its share, one for each; every other array goes whole to
  its one window.  The generator register goes into the kernel's invariant and comes back.  At the
  exit the arrays are put back: the two halves of the adjacency's share rejoin (both windows end
  holding the contents they began with), the inputs are as they were, and the two output arrays hold
  what the kernel's write-backs left.
-/
import proofs.«158643_g48112223650413_cont_sun_m_1297_5_alg».proof.Proof.Hand.Regs
import proofs.«158643_g48112223650413_cont_sun_m_1297_5_alg».proof.Proof.Hand.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The windows' arrays and the buffers behind them -/

section Arrays

-- the contents of a core's buffers when the kernel is entered
variable (V : (c : Dev nD) → (b : Ref sig .tc) → Buf (Elt F) ((c : Thread nD τ).loc b))

/-- The fifteen distinct buffers behind the first kernel's sixteen windows, in window order. -/
abbrev arrL0 : List (Ref sig .tc) :=
  [main_arg0, main_arg1, main_arg2, main_call0_v0, main_arg4, main_call0_v1, main_arg6, main_call0_v2, main_arg8,
   main_call0_v3, main_arg10, main_call0_v4, main_arg12, main_v0_1, main_call0_v5_1]

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = Idealize.SL.BI.bigSepL arrL0 fun b => (((c : Thread nD τ).loc b) ↦{fullShare} W b : sProp 𝕄) := by
  unfold Pipeline.arrBufs
  exact bigSep_eq_bigSepL_of_eq arrL0 (by decide) (by decide) _

/-- A window's array is a whole buffer: held over all its elements. -/
theorem win_pt0 (c : Dev nD) (w : Fin cfg0.W) (q : PosShare TreeShare)
    (f : Buf (Elt F) ((cfg0.win w).arr.view.loc (c : Thread nD τ)))
    (g : Buf (Elt F) ((c : Thread nD τ).loc (Pipeline.arrRef spec0 w))) (h : f = g) :
    ((cfg0.win w).arr.view.loc (c : Thread nD τ) ↦[(cfg0.win w).arr.view.set]{q} f : sProp 𝕄)
      = (((c : Thread nD τ).loc (Pipeline.arrRef spec0 w)) ↦{q} g) := by
  subst h
  rw [show (cfg0.win w).arr.view.set = Finset.univ from (arr_whole0 w).set_eq_univ]

/-- The sixteen windows' arrays, at contents read off one valuation of the buffers, are the fifteen buffers behind
    them whole at that valuation: the adjacency's buffer is its two windows' halves of the share put together
    (both at the same contents), every other buffer is its one window's. -/
theorem arrays_eq0 (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat0 V c).arrays G = (Pipeline.arrBufs (Ix := Unit) (Name := ℕ) (U := UR sig nD τ) (Lvl := ℕ) spec0 c W : sProp 𝕄) := by
  have hs : (((c : Thread nD τ).loc main_arg1) ↦{fullShare} W main_arg1 : sProp 𝕄)
      ⊣⊢ iprop((((c : Thread nD τ).loc main_arg1) ↦{fullShare.left} W main_arg1) ∗ ((c : Thread nD τ).loc main_arg1) ↦{fullShare.right} W main_arg1) :=
    pointsTo_share (PosShare.mem_left_op_right fullShare)
  have h1 : (((c : Thread nD τ).loc main_arg1) ↦{fullShare} W main_arg1 : sProp 𝕄)
      = iprop((((c : Thread nD τ).loc main_arg1) ↦{fullShare.left} W main_arg1) ∗ ((c : Thread nD τ).loc main_arg1) ↦{fullShare.right} W main_arg1) :=
    BI.equiv_iff.mp ⟨hs.1, hs.2⟩
  have hassoc : ∀ a b d : sProp 𝕄, iprop((a ∗ b) ∗ d) = iprop(a ∗ b ∗ d) := fun a b d =>
    (Idealize.SL.BI.sep_assoc (P := a) (Q := b) (R := d)).antisymm Idealize.SL.BI.sep_assoc'
  let Φ : Ref sig .tc → sProp 𝕄 := fun b => (((c : Thread nD τ).loc b) ↦{fullShare} W b : sProp 𝕄)
  let tl : List (Ref sig .tc) := [main_arg2, main_call0_v0, main_arg4, main_call0_v1, main_arg6, main_call0_v2, main_arg8,
    main_call0_v3, main_arg10, main_call0_v4, main_arg12, main_v0_1, main_call0_v5_1]
  have e : iprop(Φ main_arg0 ∗ Φ main_arg1 ∗ Idealize.SL.BI.bigSepL tl Φ)
      = iprop(Φ main_arg0 ∗ (((c : Thread nD τ).loc main_arg1) ↦{fullShare.left} W main_arg1)
          ∗ (((c : Thread nD τ).loc main_arg1) ↦{fullShare.right} W main_arg1) ∗ Idealize.SL.BI.bigSepL tl Φ) :=
    congrArg (fun x => iprop(Φ main_arg0 ∗ x)) ((congrArg (fun x => iprop(x ∗ Idealize.SL.BI.bigSepL tl Φ)) h1).trans (hassoc _ _ _))
  unfold Dat.arrays
  refine (bigSep_congr fun w _ => win_pt0 c w _ _ _ (hG w)).trans ?_
  refine (bigSep_W0 _).trans ?_
  refine Eq.trans ?_ (arrBufs0_eq c W).symm
  exact Eq.trans rfl e.symm

end Arrays

/-- A core's unscoped buffers are the buffers behind the first kernel's windows and the rest. -/
theorem held_split0 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W]
  exact Pipeline.unscopedBufs_split₀ cfgs 0 winFacts₀0.arr_unscoped c _

/-! ## The buffers after the first kernel -/
/-- An input window's array ends as it began, and the first kernel changes no input's buffer. -/
theorem arrAt_in0 (c : Dev nD) (w : Fin cfg0.W) (hin : (cfg0.win w).isOut = false)
    (hw : Pipeline.arrRef spec0 w ∉ ([main_v0_1, main_call0_v5_1] : List (Ref sig .tc))) :
    (dat0 (Vin0 m) c).arrAt w cfg0.N = V2 m (outs m) c (Pipeline.arrRef spec0 w) :=
  (Pipeline.Dat.arrAt_in (dat0 (Vin0 m) c) w hin _).trans (V2_of m (outs m) c _ hw).symm

/-- Every window's array at the exit holds what the buffers hold after the first kernel. -/
theorem arrAt_exit0 (c : Dev nD) : ∀ w : Fin cfg0.W, (dat0 (Vin0 m) c).arrAt w cfg0.N = V2 m (outs m) c (Pipeline.arrRef spec0 w)
  | 0 => arrAt_in0 m c 0 rfl (by decide)
  | 1 => arrAt_in0 m c 1 rfl (by decide)
  | 2 => arrAt_in0 m c 2 rfl (by decide)
  | 3 => arrAt_in0 m c 3 rfl (by decide)
  | 4 => arrAt_in0 m c 4 rfl (by decide)
  | 5 => arrAt_in0 m c 5 rfl (by decide)
  | 6 => arrAt_in0 m c 6 rfl (by decide)
  | 7 => arrAt_in0 m c 7 rfl (by decide)
  | 8 => arrAt_in0 m c 8 rfl (by decide)
  | 9 => arrAt_in0 m c 9 rfl (by decide)
  | 10 => arrAt_in0 m c 10 rfl (by decide)
  | 11 => arrAt_in0 m c 11 rfl (by decide)
  | 12 => arrAt_in0 m c 12 rfl (by decide)
  | 13 => arrAt_in0 m c 13 rfl (by decide)
  | 14 => by
    show zArr m c = V2 m (outs m) c main_v0_1
    rw [← outs_res1]
    simp only [V2]
    rw [Function.update_of_ne (by decide), Function.update_self]
  | 15 => by
    show mArr m c = V2 m (outs m) c main_call0_v5_1
    rw [← outs_acc]
    simp only [V2]
    rw [Function.update_self]
  | ⟨_ + 16, h⟩ => absurd h (Nat.not_lt.2 (Nat.le_add_left _ _))

theorem img14 : main_v0_1 ∈ Finset.univ.image (Pipeline.arrRef spec0) :=
  Finset.mem_image.mpr ⟨14, Finset.mem_univ _, rfl⟩
theorem img15 : main_call0_v5_1 ∈ Finset.univ.image (Pipeline.arrRef spec0) :=
  Finset.mem_image.mpr ⟨15, Finset.mem_univ _, rfl⟩

/-- A buffer that is no window's array is neither of the two the first kernel writes. -/
theorem V2_rest0 (c : Dev nD) (b : Ref sig .tc) (hb : b ∉ Finset.univ.image (Pipeline.arrRef spec0)) :
    V2 m (outs m) c b = V1 m c b :=
  V2_of m (outs m) c b fun h => hb (by
    rcases List.mem_cons.mp h with rfl | h
    · exact img14
    · rcases List.mem_cons.mp h with rfl | h
      · exact img15
      · exact absurd h List.not_mem_nil)

/-- The first kernel changes no buffer outside its windows' arrays. -/
theorem unscopedRest_exit0 (c : Dev nD) :
    (Pipeline.unscopedRest (Ix := Unit) (Name := ℕ) (U := UR sig nD τ) (Lvl := ℕ) spec0 c (Vin0 m c) : sProp 𝕄)
      = Pipeline.unscopedRest (Ix := Unit) (Name := ℕ) (U := UR sig nD τ) (Lvl := ℕ) spec0 c (fun b => V2 m (outs m) c b) := by
  unfold Pipeline.unscopedRest
  exact bigSep_congr fun b hb =>
    congrArg (fun f => (((c : Thread nD τ).loc b) ↦{fullShare} f : sProp 𝕄)) (V2_rest0 m c b (Finset.mem_sdiff.mp hb).2).symm

set_option backward.isDefEq.respectTransparency.types false in
/-- The first kernel's segment record. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none, held_split0,
      show (pdats m 0 c).arrays ((pdats m 0 c).arrAt · 0) = _ from
        arrays_eq0 (Vin0 m) c (fun b => V1 m c b) ((dat0 (Vin0 m) c).arrAt · 0) fun _ => rfl]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m 0 c).Φ (Fin.last _) = PhiS (Vin0 m) c (Fin.last cfg0.N).val (Nat.le_of_lt_succ (Fin.last cfg0.N).isLt) from rfl,
      PhiS_pos (Vin0 m) c _ _ (by rw [Fin.val_last, show cfg0.N = 8 from N_0]; decide),
      show Pipeline.scopedRest (Pipeline.pin pcfgs adm 0).spec c = _ from scopedRest0_eq c]
    unfold rest0
    rw [owns_whole]
    iintro ⟨⟨Hs, H0, H1, H2, H3⟩, Hp⟩
    isplitl [Hp]; · iexact Hp
    isplitr; · iempintro
    isplitl [Hs]; · iexists _; iexact Hs
    isplitl [H0]; · iexact H0
    isplitl [H1]; · iexact H1
    isplitl [H2]; · iexact H2
    iexact H3
  hexit c := by
    rw [held_split0, unscopedRest_exit0,
      show (pdats m 0 c).arrays ((pdats m 0 c).arrAt · (Pipeline.pin pcfgs adm 0).N) = _ from
        arrays_eq0 (Vin0 m) c (fun b => V2 m (outs m) c b) ((dat0 (Vin0 m) c).arrAt · cfg0.N) (arrAt_exit0 m c)]
    iintro ⟨Ha, HO, HY, Hrest⟩
    imodintro
    isplitl [Ha Hrest]
    · isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.Hand.Body1.lean ====
/-
  The second kernel's body at its one point: it reads Z, the accumulator and the bias whole and
  leaves Z · accumulator + bias in the output's buffer, the three inputs' buffers as it found them.
-/
import proofs.«158643_g48112223650413_cont_sun_m_1297_5_alg».proof.Proof.Hand.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The run of the body over whole memrefs -/

/-- The offsets of a whole rectangle of a matrix are zero. -/
theorem zeroOff1 : (![0, 0] : Fin 2 → ℕ) = fun _ => 0 := funext fun a => by fin_cases a <;> rfl

/-- The output's whole rectangle, as the one store of the body spells it. -/
abbrev rOut1 : Rect S4096x256 := Rect.unit (s := S4096x256) ![0, 0] S4096x256.size Facts₀.inb_S4096x256_S4096x256_0_0

/-- The one store covers the output's buffer. -/
theorem coverOut1 (p : Vec F S4096x256 .f32) (y : S4096x256.Idx) :
    ∃ pc ∈ ([⟨rOut1, p⟩] : List (View.Piece (Elt F) S4096x256 .f32)), y ∈ pc.1.set :=
  ⟨_, List.mem_singleton_self _, View.mem_set_unit_zero (S := S4096x256) zeroOff1 Facts₀.inb_S4096x256_S4096x256_0_0 y⟩

set_option maxHeartbeats 1000000 in
/-- On whole memrefs holding `x0`, `x1`, `x2` and anything in the fourth, the body hands the first three
    back as they were and the fourth at `k1_pay1 x0 x1 x2`. -/
theorem sound_kernel1 (c : Dev nD) (E : Set ℕ)
    (arg0 : Memref sig .tc .vmem S4096x32 .f32) (harg0 : arg0.IsWhole)
    (arg1 : Memref sig .tc .vmem S32x256 .f32) (harg1 : arg1.IsWhole)
    (arg2 : Memref sig .tc .vmem S1x256 .f32) (harg2 : arg2.IsWhole)
    (arg3 : Memref sig .tc .vmem S4096x256 .f32) (harg3 : arg3.IsWhole)
    (x0 : Vec F S4096x32 .f32) (x1 : Vec F S32x256 .f32) (x2 : Vec F S1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (k1_pay1 x0 x1 x2)) -∗ K ⟨⟩))
      ⊢ wp frame (wpE (defs₀ (F := F)) Variants.none c none) E (cc1__decode_kernel arg0 harg0 arg1 harg1 arg2 harg2 arg3 harg3) K := by
  simp only [cc1__decode_kernel_eq_skeleton]; unfold cc1__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store's one piece covers, so the buffer reads the payload; each whole load read its buffer
  rw [View.read_writes_eq_canon _ _ _ (coverOut1 _), View.canon_unit_zero (S := S4096x256) zeroOff1]
  simp only [View.readAt_eq_ld, View.ld_unit_zero (S := S4096x32) zeroOff1, View.ld_unit_zero (S := S32x256) zeroOff1,
    View.ld_unit_zero (S := S1x256) zeroOff1]

/-! ## What the body finds in the inputs' buffers -/

/-- The first input's buffer holds Z whole: the window is fetched at the one point and never idle. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]
  · unfold Dat.fetched Dat.blockOf iblk1; rw [A_eq1]; rfl

/-- The second's holds the accumulator whole. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]
  · unfold Dat.fetched Dat.blockOf iblk1; rw [A_eq1]; rfl

/-- The third's holds the bias whole. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]
  · unfold Dat.fetched Dat.blockOf iblk1; rw [A_eq1]; rfl

/-! ## The body obligation -/

/-- What the body is called with at the point: the invariant, what the core owes, and the four windows' buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at the point: the inputs' buffers hold their blocks, so the run lemma applies at those blocks; the
    invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second kernel. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.Hand.Reg1.lean ====
/-
  The second kernel as an item of the program.

  It is entered holding every buffer outside a kernel's scope at the contents after the first kernel
  and the last bias's reshape.  Its four windows' arrays are four different buffers, each taken whole;
  the generator register goes into the kernel's invariant and comes back.  At the exit the three
  inputs are as they were and the output array holds what the one write-back left.
-/
import proofs.«158643_g48112223650413_cont_sun_m_1297_5_alg».proof.Proof.Hand.Regs
import proofs.«158643_g48112223650413_cont_sun_m_1297_5_alg».proof.Proof.Hand.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the second kernel's exit, array by array -/

/-- An input's array ends as it was entered, and the buffers after the kernel agree there with those before
    it: the kernel writes the first result's buffer only. -/
theorem arr1_in (c : Dev nD) (w : Fin cfg1.W) (hw : (cfg1.win w).isOut = false)
    (hne : Pipeline.arrRef spec1 w ∉ ([main_v0_0] : List (Ref sig .tc))) :
    (dat1 (Vin1 m) c).arrAt w cfg1.N = V4 m (outs m) c (Pipeline.arrRef spec1 w) :=
  ((dat1 (Vin1 m) c).arrAt_in w hw _).trans <| (A_eq1 (Vin1 m) c w).trans <|
    ((V4_of m (outs m) c _ hne).trans (congrFun (V3_outs m c) _)).symm

/-- The output's array ends at what the one write-back left: the first result's buffer after the kernel. -/
theorem arr1_out (c : Dev nD) : (dat1 (Vin1 m) c).arrAt 3 cfg1.N = V4 m (outs m) c (Pipeline.arrRef spec1 3) :=
  ((V4_res0 m (outs m) c).trans (outs_res0 m c)).symm

/-- Every array of the second kernel ends at the buffers' contents after it. -/
theorem hF1 (c : Dev nD) : ∀ w : Fin cfg1.W, (dat1 (Vin1 m) c).arrAt w cfg1.N = V4 m (outs m) c (Pipeline.arrRef spec1 w)
  | ⟨0, _⟩ => arr1_in m c 0 rfl (by decide)
  | ⟨1, _⟩ => arr1_in m c 1 rfl (by decide)
  | ⟨2, _⟩ => arr1_in m c 2 rfl (by decide)
  | ⟨3, _⟩ => arr1_out m c

/-- A buffer that is no array of the second kernel is not the first result's, so the kernel leaves it alone. -/
theorem hrest1 (c : Dev nD) (b : Ref sig .tc) (hb : b ∉ Finset.univ.image (Pipeline.arrRef spec1)) :
    V4 m (outs m) c b = Vin1 m c b := by
  have hne : b ∉ ([main_v0_0] : List (Ref sig .tc)) := fun h =>
    hb (Finset.mem_image.mpr ⟨3, Finset.mem_univ _, (List.mem_singleton.mp h).symm⟩)
  exact (V4_of m (outs m) c b hne).trans (congrFun (V3_outs m c) _)

/-! ## The buffers at the kernel's two ends -/

/-- ENTRY.  The buffers outside a kernel's scope, at the contents the second kernel is entered from, are
    its four arrays at those contents beside the remaining such buffers. -/
theorem bufs_entry1 (c : Dev nD) :
    (StableHlo.held (c : Thread nD τ) (Pipeline.ucRefs τ sig) (V3 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (Vin1 m c)) := by
  rw [V3_outs, ← Pipeline.unscopedBufs_held]
  exact Pipeline.arrays_of_unscopedBufs (p := 1) (pcfgs (F := F)) adm (pdats m) launch1.win launch1.arr_whole c
    ((pdats m 1 c).share_full fun _ => rfl) (Vin1 m c) fun _ => rfl

/-- EXIT.  The four arrays at what the kernel leaves in them, beside the remaining buffers as entered, are
    the buffers outside a kernel's scope at the contents after the kernel. -/
theorem bufs_exit1 (c : Dev nD) :
    iprop((pdats m 1 c).arrays ((pdats m 1 c).arrAt · cfg1.N)
        ∗ Pipeline.unscopedRest (Ix := Unit) (Name := ℕ) (U := UR sig nD τ) (Lvl := ℕ) spec1 c (Vin1 m c))
      ⊢ (StableHlo.held (c : Thread nD τ) (Pipeline.ucRefs τ sig) (V4 m (outs m) c) : sProp 𝕄) := by
  rw [← Pipeline.unscopedBufs_held]
  exact Pipeline.unscopedBufs_of_arrays (p := 1) (pcfgs (F := F)) adm launch1.win launch1.arr_whole c (pdats m)
    ((pdats m 1 c).share_full fun _ => rfl) (Vin1 m c) (fun b => V4 m (outs m) c b) ((pdats m 1 c).arrAt · cfg1.N)
    (hF1 m c) (hrest1 m c)

/-- A core that owes nothing owes nothing within the kernel's first bound, -/
theorem owes_entry1 (c : Dev nD) :
    (iprop(∃ W, owes (c : Thread nD τ) (0 : CellTallies nD τ sig Unit) W) : sProp 𝕄) ⊢ (pdats m 1 c).owesAt () 0 := by
  unfold Pipeline.Dat.owesAt Pipeline.owesWithin
  iintro ⟨%W, HO⟩
  iexists W; isplitr
  · ipureintro; exact fun _ _ => Or.inl trivial
  iexact HO

/-- and after the last point it still owes nothing. -/
theorem owes_exit1 (c : Dev nD) :
    (pdats m 1 c).owesAt () (Fin.last cfg1.N) ⊢ (iprop(∃ W, owes (c : Thread nD τ) (0 : CellTallies nD τ sig Unit) W) : sProp 𝕄) := by
  unfold Pipeline.Dat.owesAt Pipeline.owesWithin
  iintro ⟨%W, -, HO⟩
  iexists W; iexact HO

/-- The second kernel has no prefetched table: holding its tables is holding nothing. -/
theorem pref1 (c : Dev nD) :
    (Pipeline.prefHeld (Ix := Unit) (Name := ℕ) (U := UR sig nD τ) (Lvl := ℕ) (pcfgs (F := F) 1).pre c (fun _ => fullShare) (adm (F := F) 1).1 : sProp 𝕄) = BI.emp := by
  unfold Pipeline.prefHeld; rw [show (Finset.univ : Finset (Fin 0)) = ∅ from rfl, BI.bigSep_empty]

set_option backward.isDefEq.respectTransparency.types false in
/-- The second kernel's segment record. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, pref1]
    iintro ⟨⟨Hb, Hg, Hw⟩, -, -⟩
    ihave Hb := bufs_entry1 m c $$ Hb
    icases Hb with ⟨Ha, Hz⟩
    ihave Hw := owes_entry1 m c $$ Hw
    imodintro
    isplitl [Ha]; · iexact Ha
    isplitr; · iempintro
    isplitl [Hw]; · iexact Hw
    isplitl [Hg]; · iexact Hg
    iexact Hz
  hin c := by
    rw [pref1, show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    iintro ⟨Ha, Hw, Hg, Hz⟩
    ihave Hb := bufs_exit1 m c $$ [Ha Hz]
    · isplitl [Ha]; · iexact Ha
      iexact Hz
    ihave Hw := owes_exit1 m c $$ Hw
    imodintro
    isplitl [Hb]; · iexact Hb
    isplitl [Hg]; · iexact Hg
    iexact Hw

end Cert.KernelIdeal.Hand

end
-- ==== Proof.Hand.Main.lean ====
/-
  The kernel program's run: it terminates; its first result is what the second kernel
  leaves in its output array, its second result what the first kernel leaves in Z's array; its
  arguments end as they began.

  The program's four items chain: each is entered from exactly the buffer contents the one before
  it leaves.  Nothing is owed between cores at launch or at the end, and no kernel has a semaphore of
  its own.
-/
import proofs.«158643_g48112223650413_cont_sun_m_1297_5_alg».proof.Proof.Hand.Reg0
import proofs.«158643_g48112223650413_cont_sun_m_1297_5_alg».proof.Proof.Hand.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- Every weakly fair execution of the program from memory `m` terminates, with the two results at
    what the kernels leave in their arrays and every argument unchanged. -/
theorem run_all : θ_run defs (onTc (τ := τ) (main (F := F))) ⟨m, fun _ => 0, ρ⟩ (fun r => ∀ c : Dev nD,
      r.2.mem ((c.tc : Thread nD τ).loc main_v0_0) = xArr m c
      ∧ r.2.mem ((c.tc : Thread nD τ).loc main_v0_1) = zArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have h := run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)
  simpa only [outs_res0, outs_res1] using h

end Cert.KernelIdeal.Hand

end
-- ==== Proof.Hand.HostVals.lean ====
/-
  What the buffers hold when each kernel is entered.

  Before the first kernel the program reshapes five bias vectors into one-row matrices: the row's
  entry j is the vector's entry j.  No argument array is written.  Before the second kernel it
  reshapes the last bias the same way; Z's array and the accumulator's array hold what the first
  kernel left in them.
-/
import proofs.«158643_g48112223650413_cont_sun_m_1297_5_alg».proof.Proof.Hand.Regs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen Idealize.ShloMosaic.StableHlo Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## Entering the first kernel -/

/-- A buffer no reshape writes holds its launch contents. -/
theorem Vin0_of (c : Dev nD) (b : Ref sig .tc) (hb : b ∉ hostOps0_W) : Vin0 m c b = m ((c : Thread nD τ).loc b) :=
  V1_of m c b hb

theorem Vin0_v0 (c : Dev nD) :
    (Vin0 m c main_call0_v0 : S1x128.Idx → Elt F .f32)
      = shapeCast S1x128 (m ((c : Thread nD τ).loc main_arg3) : S128.Idx → Elt F .f32) Facts₀.shapeCasts_S128_S1x128 := by
  show StableHlo.after hostOps0 _ (Proc.devRef .tc main_call0_v0) = _
  after_results; rfl
theorem Vin0_v0_apply (c : Dev nD) (j : Fin 128) :
    Vin0 m c main_call0_v0 (ix2 0 j) = m ((c : Thread nD τ).loc main_arg3) (ix1 j) := by
  rw [Vin0_v0]; exact shapeCast_a_1a_apply _ _ 0 j

theorem Vin0_v1 (c : Dev nD) :
    (Vin0 m c main_call0_v1 : S1x64.Idx → Elt F .f32)
      = shapeCast S1x64 (m ((c : Thread nD τ).loc main_arg5) : S64.Idx → Elt F .f32) Facts₀.shapeCasts_S64_S1x64 := by
  show StableHlo.after hostOps0 _ (Proc.devRef .tc main_call0_v1) = _
  after_results; rfl
theorem Vin0_v1_apply (c : Dev nD) (j : Fin 64) :
    Vin0 m c main_call0_v1 (ix2 0 j) = m ((c : Thread nD τ).loc main_arg5) (ix1 j) := by
  rw [Vin0_v1]; exact shapeCast_a_1a_apply _ _ 0 j

theorem Vin0_v2 (c : Dev nD) :
    (Vin0 m c main_call0_v2 : S1x32.Idx → Elt F .f32)
      = shapeCast S1x32 (m ((c : Thread nD τ).loc main_arg7) : S32.Idx → Elt F .f32) Facts₀.shapeCasts_S32_S1x32 := by
  show StableHlo.after hostOps0 _ (Proc.devRef .tc main_call0_v2) = _
  after_results; rfl
theorem Vin0_v2_apply (c : Dev nD) (j : Fin 32) :
    Vin0 m c main_call0_v2 (ix2 0 j) = m ((c : Thread nD τ).loc main_arg7) (ix1 j) := by
  rw [Vin0_v2]; exact shapeCast_a_1a_apply _ _ 0 j

theorem Vin0_v3 (c : Dev nD) :
    (Vin0 m c main_call0_v3 : S1x64.Idx → Elt F .f32)
      = shapeCast S1x64 (m ((c : Thread nD τ).loc main_arg9) : S64.Idx → Elt F .f32) Facts₀.shapeCasts_S64_S1x64 := by
  show StableHlo.after hostOps0 _ (Proc.devRef .tc main_call0_v3) = _
  after_results; rfl
theorem Vin0_v3_apply (c : Dev nD) (j : Fin 64) :
    Vin0 m c main_call0_v3 (ix2 0 j) = m ((c : Thread nD τ).loc main_arg9) (ix1 j) := by
  rw [Vin0_v3]; exact shapeCast_a_1a_apply _ _ 0 j

theorem Vin0_v4 (c : Dev nD) :
    (Vin0 m c main_call0_v4 : S1x128.Idx → Elt F .f32)
      = shapeCast S1x128 (m ((c : Thread nD τ).loc main_arg11) : S128.Idx → Elt F .f32) Facts₀.shapeCasts_S128_S1x128 := by
  show StableHlo.after hostOps0 _ (Proc.devRef .tc main_call0_v4) = _
  after_results; rfl
theorem Vin0_v4_apply (c : Dev nD) (j : Fin 128) :
    Vin0 m c main_call0_v4 (ix2 0 j) = m ((c : Thread nD τ).loc main_arg11) (ix1 j) := by
  rw [Vin0_v4]; exact shapeCast_a_1a_apply _ _ 0 j

/-! ## Entering the second kernel -/

/-- Z's array holds what the first kernel left in it. -/
theorem Vin1_res1 (c : Dev nD) : Vin1 m c main_v0_1 = zArr m c :=
  (V3_of m (outsA m) c main_v0_1 (by decide)).trans <| by
    simp only [V2, Function.update_of_ne (StableHlo.devRef_ne_of_ne (by decide) : (Proc.devRef .tc main_v0_1 : DevRef τ sig) ≠ Proc.devRef .tc main_call0_v5_1), Function.update_self, outsA_res1]

/-- The accumulator's array holds what the first kernel left in it. -/
theorem Vin1_acc (c : Dev nD) : Vin1 m c main_call0_v5_1 = mArr m c :=
  (V3_of m (outsA m) c main_call0_v5_1 (by decide)).trans <| by
    simp only [V2, Function.update_self, outsA_acc]

/-- The last bias's launch contents reach the second kernel's entry: neither the reshapes nor the first kernel write it. -/
theorem V2_arg13 (c : Dev nD) : V2 m (outsA m) c main_arg13 = m ((c : Thread nD τ).loc main_arg13) :=
  (V2_of m (outsA m) c main_arg13 (by decide)).trans (V1_of m c main_arg13 (by decide))

theorem Vin1_v6 (c : Dev nD) :
    (Vin1 m c main_call0_v6 : S1x256.Idx → Elt F .f32)
      = shapeCast S1x256 (V2 m (outsA m) c main_arg13 : S256.Idx → Elt F .f32) Facts₀.shapeCasts_S256_S1x256 := by
  show StableHlo.after hostOps1 _ (Proc.devRef .tc main_call0_v6) = _
  after_results; rfl
theorem Vin1_v6_apply (c : Dev nD) (j : Fin 256) :
    Vin1 m c main_call0_v6 (ix2 0 j) = m ((c : Thread nD τ).loc main_arg13) (ix1 j) := by
  rw [Vin1_v6, V2_arg13]; exact shapeCast_a_1a_apply _ _ 0 j

end Cert.KernelIdeal.Hand

end
-- ==== Proof.Spec.lean ====
/-
  The mathematics of the two programs, as matrices over the extended reals.

  A graph autoencoder's forward pass.  With `A` the dense adjacency (4096 × 4096), `X` the node
  features (4096 × 256) and `leaky v = v` for `0 ≤ v`, `c · v` otherwise (`c` the binary32 value
  nearest 1/100, the same word in both programs):

    H₁ = leaky (A (X W₀) + b₀)          H₂ = leaky (H₁ W₁ + b₁)          Z = H₂ W₂ + b₂
    D₁ = leaky (Z W₃ + b₃)              D₂ = leaky (D₁ W₄ + b₄)          G = D₂ W₅
    X' = (Z Zᵀ) G + b₅                  the results are (X', Z).

  One program forms the 4096 × 4096 product Z Zᵀ; the other never does: it accumulates the
  32 × 256 matrix M = Zᵀ G over row blocks and returns Z M + b₅.  The two agree by associativity of
  the matrix product, which on the extended reals needs every entry of Z and G to be a real number
  (distributivity fails at the infinities); that holds when the inputs are finite, every entry being
  built from them by sums, products and the choice in `leaky`.
-/
import Idealize.ShloMosaic.PureOps.Ideal
import Idealize.ShloMosaic.PureOps.Ideal.Laws
import Idealize.ShloMosaic.Lib.ValueIdx

noncomputable section

namespace Cert.Spec

open Idealize.ShloMosaic

/-- An r × c matrix of extended reals. -/
abbrev Mat (r c : ℕ) := Fin r → Fin c → EReal

/-- The slope of the leaky rectifier: the binary32 number nearest 1/100. -/
def slope : EReal := Ideal.ofBits .f32 0x3C23D70A#32

/-- The leaky rectifier on one extended real. -/
def leaky (v : EReal) : EReal := if (0 : EReal) ≤ v then v else slope * v

/-- The matrix product. -/
def mm {r k c : ℕ} (A : Mat r k) (B : Mat k c) : Mat r c := fun i j => ∑ a : Fin k, A i a * B a j

/-- A matrix product, a bias added to every row, the rectifier entry by entry. -/
def layer {r k c : ℕ} (A : Mat r k) (W : Mat k c) (b : Fin c → EReal) : Mat r c :=
  fun i j => leaky (mm A W i j + b j)

/-- A matrix product and a bias added to every row. -/
def affine {r k c : ℕ} (A : Mat r k) (W : Mat k c) (b : Fin c → EReal) : Mat r c :=
  fun i j => mm A W i j + b j

/-- The inputs of the two programs, as matrices and vectors, in the programs' argument order. -/
structure Inputs where
  x : Mat 4096 256
  adj : Mat 4096 4096
  w0 : Mat 256 128
  b0 : Fin 128 → EReal
  w1 : Mat 128 64
  b1 : Fin 64 → EReal
  w2 : Mat 64 32
  b2 : Fin 32 → EReal
  w3 : Mat 32 64
  b3 : Fin 64 → EReal
  w4 : Mat 64 128
  b4 : Fin 128 → EReal
  w5 : Mat 128 256
  b5 : Fin 256 → EReal

/-- Every entry of every input is a real number. -/
def Inputs.Real (I : Inputs) : Prop :=
  (∀ i j, ∃ r : ℝ, I.x i j = r) ∧ (∀ i j, ∃ r : ℝ, I.adj i j = r) ∧
  (∀ i j, ∃ r : ℝ, I.w0 i j = r) ∧ (∀ j, ∃ r : ℝ, I.b0 j = r) ∧
  (∀ i j, ∃ r : ℝ, I.w1 i j = r) ∧ (∀ j, ∃ r : ℝ, I.b1 j = r) ∧
  (∀ i j, ∃ r : ℝ, I.w2 i j = r) ∧ (∀ j, ∃ r : ℝ, I.b2 j = r) ∧
  (∀ i j, ∃ r : ℝ, I.w3 i j = r) ∧ (∀ j, ∃ r : ℝ, I.b3 j = r) ∧
  (∀ i j, ∃ r : ℝ, I.w4 i j = r) ∧ (∀ j, ∃ r : ℝ, I.b4 j = r) ∧
  (∀ i j, ∃ r : ℝ, I.w5 i j = r) ∧ (∀ j, ∃ r : ℝ, I.b5 j = r)

variable (I : Inputs)

/-- X W₀. -/
def support : Mat 4096 128 := mm I.x I.w0
/-- H₁ = leaky (A (X W₀) + b₀). -/
def hid1 : Mat 4096 128 := layer I.adj (support I) I.b0
/-- H₂ = leaky (H₁ W₁ + b₁). -/
def hid2 : Mat 4096 64 := layer (hid1 I) I.w1 I.b1
/-- Z = H₂ W₂ + b₂: the second result. -/
def code : Mat 4096 32 := affine (hid2 I) I.w2 I.b2
/-- D₁ = leaky (Z W₃ + b₃). -/
def dec1 : Mat 4096 64 := layer (code I) I.w3 I.b3
/-- D₂ = leaky (D₁ W₄ + b₄). -/
def dec2 : Mat 4096 128 := layer (dec1 I) I.w4 I.b4
/-- G = D₂ W₅. -/
def proj : Mat 4096 256 := mm (dec2 I) I.w5

/-- Zᵀ G, the 32 × 256 matrix one program accumulates over row blocks. -/
def gram : Mat 32 256 := fun k c => ∑ a : Fin 4096, code I a k * proj I a c

/-- The first result as the program that accumulates Zᵀ G computes it: Z (Zᵀ G) + b₅. -/
def outAccum : Mat 4096 256 := fun i c => (∑ k : Fin 32, code I i k * gram I k c) + I.b5 c

/-- The first result as the program that forms Z Zᵀ computes it: (Z Zᵀ) G + b₅. -/
def outDense : Mat 4096 256 :=
  fun i c => (∑ a : Fin 4096, (∑ k : Fin 32, code I i k * code I a k) * proj I a c) + I.b5 c

end Cert.Spec

end
-- ==== Proof.Interp.lean ====
/-
  Arrays as the specification's matrices, and back.

  An array of shape [r, c] over the extended reals is the matrix whose (i, j) entry is the array's
  entry at the index with coordinates (i, j); a rank-1 array is the vector of its entries.
-/
import proofs.«158643_g48112223650413_cont_sun_m_1297_5_alg».proof.Proof.Spec

noncomputable section

namespace Cert.Spec

open Idealize.ShloMosaic Idealize.ShloMosaic.ValueIdx

/-- The matrix an array of shape [r, c] holds. -/
def matOf {r c : ℕ} (a : (⟨2, ![r, c]⟩ : Shape).Idx → EReal) : Mat r c := fun i j => a (ix2 i j)

/-- The vector a rank-1 array holds. -/
def vecOf {n : ℕ} (a : (⟨1, ![n]⟩ : Shape).Idx → EReal) : Fin n → EReal := fun j => a (ix1 j)

/-- The array of shape [r, c] that holds a matrix. -/
def arrOf {r c : ℕ} (M : Mat r c) : (⟨2, ![r, c]⟩ : Shape).Idx → EReal := fun i => M (i 0) (i 1)

theorem arrOf_ix2 {r c : ℕ} (M : Mat r c) (i : Fin r) (j : Fin c) : arrOf M (ix2 i j) = M i j := rfl

theorem matOf_arrOf {r c : ℕ} (M : Mat r c) : matOf (arrOf M) = M := rfl

theorem arrOf_matOf {r c : ℕ} (a : (⟨2, ![r, c]⟩ : Shape).Idx → EReal) : arrOf (matOf a) = a := by
  funext i; exact congrArg a (eq_ix2 i).symm

/-- The fourteen argument arrays, in the programs' argument order, as the specification's inputs. -/
def inputsOf
    (a0 : (⟨2, ![4096, 256]⟩ : Shape).Idx → EReal) (a1 : (⟨2, ![4096, 4096]⟩ : Shape).Idx → EReal)
    (a2 : (⟨2, ![256, 128]⟩ : Shape).Idx → EReal) (a3 : (⟨1, ![128]⟩ : Shape).Idx → EReal)
    (a4 : (⟨2, ![128, 64]⟩ : Shape).Idx → EReal) (a5 : (⟨1, ![64]⟩ : Shape).Idx → EReal)
    (a6 : (⟨2, ![64, 32]⟩ : Shape).Idx → EReal) (a7 : (⟨1, ![32]⟩ : Shape).Idx → EReal)
    (a8 : (⟨2, ![32, 64]⟩ : Shape).Idx → EReal) (a9 : (⟨1, ![64]⟩ : Shape).Idx → EReal)
    (a10 : (⟨2, ![64, 128]⟩ : Shape).Idx → EReal) (a11 : (⟨1, ![128]⟩ : Shape).Idx → EReal)
    (a12 : (⟨2, ![128, 256]⟩ : Shape).Idx → EReal) (a13 : (⟨1, ![256]⟩ : Shape).Idx → EReal) : Inputs where
  x := matOf a0
  adj := matOf a1
  w0 := matOf a2
  b0 := vecOf a3
  w1 := matOf a4
  b1 := vecOf a5
  w2 := matOf a6
  b2 := vecOf a7
  w3 := matOf a8
  b3 := vecOf a9
  w4 := matOf a10
  b4 := vecOf a11
  w5 := matOf a12
  b5 := vecOf a13

end Cert.Spec

end
-- ==== Proof.Hand.Value0z.lean ====
/-
  From Z's row blocks to Z's array.

  The first kernel writes Z's array one row block a point: point t writes rows 512 t … 512 t + 511.
  The eight blocks tile the 4096 rows, so if each block's row r holds a matrix's row 512 t + r, the
  array ends holding that matrix.
-/
import proofs.«158643_g48112223650413_cont_sun_m_1297_5_alg».proof.Proof.Hand.Data
import proofs.«158643_g48112223650413_cont_sun_m_1297_5_alg».proof.Proof.Interp
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

/-- Where the row blocks sit: point t's block is block (t, 0) of the array. -/
theorem zidx_facts : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- What point t writes back is block t of the matrix's array. -/
theorem zflushed_eq (c : Dev nD) (Zm : Mat 4096 32)
    (hZ : ∀ (t : Fin cfg0.N) (r : Fin 512) (q : Fin 32),
      zBlk (F := Ideal) V c t (ix2 r q) = Zm ⟨512 * t.val + r.val, by have := t.isLt; have : cfg0.N = 8 := N_0; omega⟩ q)
    (t : Fin cfg0.N) :
    (dat0 (F := Ideal) V c).flushed 14 t = ((cfg0.win 14).blk t).view.read (Elt Ideal) (arrOf Zm) := by
  show (cfg0.win 14).cut (grid0.coords t) ((dat0 (F := Ideal) V c).after 14 t) = _
  rw [after0_14]
  obtain ⟨e0, e1⟩ := zidx_facts t
  funext y
  obtain ⟨r, q, rfl⟩ : ∃ (r : Fin 512) (q : Fin 32), y = ix2 r q := ⟨y 0, y 1, eq_ix2 y⟩
  show zBlk (F := Ideal) V c t (ix2 r q) = arrOf Zm (((cfg0.win 14).blk t).view.emb (ix2 r q))
  refine (hZ t r q).trans ?_
  show Zm _ _ = Zm ((((cfg0.win 14).blk t).view.emb (ix2 r q)) 0) ((((cfg0.win 14).blk t).view.emb (ix2 r q)) 1)
  have h0 : (⟨512 * t.val + r.val, by have := t.isLt; have : cfg0.N = 8 := N_0; omega⟩ : Fin 4096) = (((cfg0.win 14).blk t).view.emb (ix2 r q)) 0 := by
    apply Fin.ext
    show 512 * t.val + r.val = win0_14.index t (0 : Fin 2) * 512 + 1 * r.val
    omega
  have h1 : q = (((cfg0.win 14).blk t).view.emb (ix2 r q)) 1 := by
    apply Fin.ext
    show q.val = win0_14.index t (1 : Fin 2) * 32 + 1 * q.val
    omega
  rw [← h0, ← h1]

/-- An index of the array is in point t's block iff each coordinate is in the block's range on its axis. -/
theorem zmem_blk (t : Fin cfg0.N) (i : S4096x32.Idx) :
    i ∈ ((cfg0.win 14).blk t).view.set ↔ ∀ a : Fin 2, win0_14.index t a * S512x32.size a ≤ (i a).val ∧ (i a).val < win0_14.index t a * S512x32.size a + S512x32.size a := by
  show i ∈ ((View.whole main_v0_1).slice (win0_14.rect t)).set ↔ _
  rw [View.set_slice_whole, Rect.mem_set_unit]
  exact Iff.rfl

/-- The eight blocks tile the rows: row i is in the block of point i / 512. -/
theorem zcover (i : S4096x32.Idx) :
    ∃ t : Fin cfg0.N, (cfg0.win 14).flush t = true ∧ i ∈ ((cfg0.win 14).blk t).view.set := by
  have hi0 : (i 0).val < 4096 := (i 0).isLt
  have hi1 : (i 1).val < 32 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨e0, e1⟩ := zidx_facts t
  refine ⟨t, flush0_14 t, ?_⟩
  rw [zmem_blk]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 32 ≤ (i 1).val ∧ (i 1).val < win0_14.index t (1 : Fin 2) * 32 + 32; omega

/-- Z's array after the first kernel holds the matrix whose row 512 t + r is the block's row r at point t. -/
theorem zArr_of_blocks (c : Dev nD) (Zm : Mat 4096 32)
    (hZ : ∀ (t : Fin cfg0.N) (r : Fin 512) (q : Fin 32),
      zBlk (F := Ideal) V c t (ix2 r q) = Zm ⟨512 * t.val + r.val, by have := t.isLt; have : cfg0.N = 8 := N_0; omega⟩ q) :
    (dat0 (F := Ideal) V c).arrAt 14 cfg0.N = arrOf Zm :=
  (dat0 (F := Ideal) V c).arrAt_eq_of_cover 14 (arrOf Zm) (fun t _ => zflushed_eq V c Zm hZ t) zcover

end Cert.KernelIdeal.Hand

end
-- ==== Proof.Hand.Value0m.lean ====
/-
  From the eight points' terms to the accumulator's array.

  The accumulator's buffer starts at zero at the first point and gains one term a point; its block is
  the whole 32 × 256 array and is written out once, after the last point.  So the array ends holding
  the sum of the eight terms.
-/
import proofs.«158643_g48112223650413_cont_sun_m_1297_5_alg».proof.Proof.Hand.Data
import proofs.«158643_g48112223650413_cont_sun_m_1297_5_alg».proof.Proof.Interp
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

/-! # The accumulator point by point -/

/-- The accumulator's starting value is zero at every entry. -/
theorem pay3_apply (k : Fin 32) (cc : Fin 256) : k0_pay3 (F := Ideal) (ix2 k cc) = 0 := by
  unfold k0_pay3
  exact Ideal.ofBits_zero_f32

/-- A point adds its term to the accumulator it finds, entry by entry. -/
theorem pay16_apply (a : Vec Ideal S32x256 .f32) (b : FVec Ideal S32x256 .f32) (k : Fin 32) (cc : Fin 256) :
    k0_pay1 (k0_pay6 a) b (ix2 k cc) = a (ix2 k cc) + b (ix2 k cc) := by
  unfold k0_pay1 k0_pay6
  simp only [shapeCast_self]
  rw [addf_apply]

/-- The terms listed over all naturals: nothing past the eighth. -/
def termAt (T : Fin 8 → Mat 32 256) (t : ℕ) : Mat 32 256 := if h : t < 8 then T ⟨t, h⟩ else fun _ _ => 0

theorem termAt_fin (T : Fin 8 → Mat 32 256) (t : Fin 8) : termAt T t.val = T t := by
  unfold termAt; rw [dif_pos t.isLt]

/-- After point `n` the accumulator holds the sum of the terms of the points up to `n`. -/
theorem mAcc_apply (c : Dev nD) (T : Fin 8 → Mat 32 256)
    (hT : ∀ (t : Fin cfg0.N) (k : Fin 32) (cc : Fin 256),
      zgBlk (F := Ideal) V c t (ix2 k cc) = T ⟨t.val, by have := t.isLt; have : cfg0.N = 8 := N_0; omega⟩ k cc)
    (k : Fin 32) (cc : Fin 256) :
    ∀ (n : ℕ) (h : n < cfg0.N), mAcc (F := Ideal) V c n h (ix2 k cc) = ∑ t ∈ Finset.range (n + 1), termAt T t k cc
  | 0, h => by
    rw [mAcc_zero, pay16_apply, pay3_apply, zero_add, hT, Finset.sum_range_one]
    exact (congrFun (congrFun (termAt_fin T ⟨0, by decide⟩) k) cc).symm
  | n + 1, h => by
    have h8 : n + 1 < 8 := by have : cfg0.N = 8 := N_0; omega
    rw [mAcc_succ, pay16_apply, mAcc_apply c T hT k cc n (Nat.lt_of_succ_lt h), hT, Finset.sum_range_succ _ (n + 1)]
    exact congrArg (_ + ·) (congrFun (congrFun (termAt_fin T ⟨n + 1, h8⟩) k) cc).symm

/-- The accumulator's window sits at block (0, 0) at every point: its block is the whole array. -/
theorem idx15 (t : Fin cfg0.N) (a : Fin 2) : win0_15.index t a = 0 := by
  match a with
  | ⟨0, _⟩ => rfl
  | ⟨1, _⟩ => rfl

/-- The accumulator's array after the first kernel holds the sum over the eight points of the points' terms. -/
theorem mArr_of_terms (c : Dev nD) (T : Fin 8 → Mat 32 256)
    (hT : ∀ (t : Fin cfg0.N) (k : Fin 32) (cc : Fin 256),
      zgBlk (F := Ideal) V c t (ix2 k cc) = T ⟨t.val, by have := t.isLt; have : cfg0.N = 8 := N_0; omega⟩ k cc) :
    (dat0 (F := Ideal) V c).arrAt 15 cfg0.N = arrOf (fun k cc => ∑ t : Fin 8, T t k cc) := by
  refine (dat0 (F := Ideal) V c).arrAt_eq_of_cover 15 (arrOf (fun k cc => ∑ t : Fin 8, T t k cc)) (fun t hf => ?_) fun i => ?_
  · -- the only point that writes back is the last; it writes the accumulator after all eight points
    have h7 : t.val = 7 := by
      have h := (flush0_15 t).mp hf; have := t.isLt; have : cfg0.N = 8 := N_0; omega
    show (cfg0.win 15).cut (grid0.coords t) ((dat0 (F := Ideal) V c).after 15 t) = _
    rw [after0_15]
    refine Eq.trans ?_ (Memref.read_access_unit_zero (Elt Ideal) main_call0_v5_1 (off := fun a => win0_15.index t a * main_call0_v5_1.ty.shape.size a)
      (funext fun a => by rw [idx15 t a, Nat.zero_mul]) (fun a => by rw [idx15 t a, Nat.zero_mul, Nat.zero_add])
      (arrOf (fun k cc => ∑ t : Fin 8, T t k cc))).symm
    funext y
    obtain ⟨k, cc, rfl⟩ : ∃ (k : Fin 32) (cc : Fin 256), y = ix2 k cc := ⟨y 0, y 1, eq_ix2 y⟩
    refine (mAcc_apply V c T hT k cc t.val t.isLt).trans ?_
    rw [h7, arrOf_ix2, ← Fin.sum_univ_eq_sum_range (fun t => termAt T t k cc) 8]
    exact Finset.sum_congr rfl fun t _ => congrFun (congrFun (termAt_fin T t) k) cc
  · refine ⟨t0_7, (flush0_15 t0_7).mpr rfl, ?_⟩
    show i ∈ ((View.whole main_call0_v5_1).slice (win0_15.rect t0_7)).set
    rw [View.set_slice_whole, Rect.mem_set_unit]
    intro a
    have hi : (i a : ℕ) < main_call0_v5_1.ty.shape.size a := (i a).isLt
    rw [idx15 t0_7 a, Nat.zero_mul, Nat.zero_add]
    refine ⟨Nat.zero_le _, ?_⟩
    exact hi

end Cert.KernelIdeal.Hand

end
-- ==== Proof.SpecLaws.lean ====
/-
  Laws of the specification's matrices on the extended reals.

  Sums and products of real numbers are real numbers, and the rectifier chooses between two of them,
  so from finite inputs every intermediate matrix has real entries.  For real entries the matrix
  product is associative, which is what joins the two forms of the first result; and a sum over
  4096 indices may be cut into two halves, or into eight blocks of 512, by associativity and
  commutativity of addition alone.
-/
import proofs.«158643_g48112223650413_cont_sun_m_1297_5_alg».proof.Proof.Spec
import Mathlib.Data.EReal.Operations
import Mathlib.Algebra.BigOperators.Fin
import Mathlib.Data.Fintype.BigOperators
import Mathlib.Logic.Equiv.Fin.Basic

noncomputable section

namespace Cert.Spec

open Idealize.ShloMosaic

/-! ### Real entries -/

/-- An extended real that is (the image of) a real number. -/
def IsReal (v : EReal) : Prop := ∃ r : ℝ, v = r

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The image of a finite sum of real numbers is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The rectifier's slope is a real number: its exponent field is not all ones. -/
theorem slope_isReal : IsReal slope := by
  unfold IsReal slope
  simp [Ideal.ofBits, Ideal.ieee, -EReal.coe_mul]

/-- The rectifier returns its argument or the slope times its argument. -/
theorem IsReal.leaky {v : EReal} (hv : IsReal v) : IsReal (leaky v) := by
  unfold Cert.Spec.leaky
  split
  · exact hv
  · exact slope_isReal.mul hv

/-- A product of matrices with real entries has real entries. -/
theorem mm_isReal {r k c : ℕ} {A : Mat r k} {B : Mat k c} (hA : ∀ i a, IsReal (A i a))
    (hB : ∀ a j, IsReal (B a j)) : ∀ i j, IsReal (mm A B i j) :=
  fun i j => IsReal.sum _ _ fun a _ => (hA i a).mul (hB a j)

theorem affine_isReal {r k c : ℕ} {A : Mat r k} {W : Mat k c} {b : Fin c → EReal}
    (hA : ∀ i a, IsReal (A i a)) (hW : ∀ a j, IsReal (W a j)) (hb : ∀ j, IsReal (b j)) :
    ∀ i j, IsReal (affine A W b i j) :=
  fun i j => (mm_isReal hA hW i j).add (hb j)

theorem layer_isReal {r k c : ℕ} {A : Mat r k} {W : Mat k c} {b : Fin c → EReal}
    (hA : ∀ i a, IsReal (A i a)) (hW : ∀ a j, IsReal (W a j)) (hb : ∀ j, IsReal (b j)) :
    ∀ i j, IsReal (layer A W b i j) :=
  fun i j => (affine_isReal hA hW hb i j).leaky

/-! ### The stages, one by one -/

theorem support_isReal (I : Inputs) (h : I.Real) : ∀ i j, IsReal (support I i j) :=
  mm_isReal h.1 h.2.2.1

theorem hid1_isReal (I : Inputs) (h : I.Real) : ∀ i j, IsReal (hid1 I i j) :=
  layer_isReal h.2.1 (support_isReal I h) h.2.2.2.1

theorem hid2_isReal (I : Inputs) (h : I.Real) : ∀ i j, IsReal (hid2 I i j) :=
  layer_isReal (hid1_isReal I h) h.2.2.2.2.1 h.2.2.2.2.2.1

theorem code_isReal (I : Inputs) (h : I.Real) : ∀ i j, IsReal (code I i j) :=
  affine_isReal (hid2_isReal I h) h.2.2.2.2.2.2.1 h.2.2.2.2.2.2.2.1

theorem dec1_isReal (I : Inputs) (h : I.Real) : ∀ i j, IsReal (dec1 I i j) :=
  layer_isReal (code_isReal I h) h.2.2.2.2.2.2.2.2.1 h.2.2.2.2.2.2.2.2.2.1

theorem dec2_isReal (I : Inputs) (h : I.Real) : ∀ i j, IsReal (dec2 I i j) :=
  layer_isReal (dec1_isReal I h) h.2.2.2.2.2.2.2.2.2.2.1 h.2.2.2.2.2.2.2.2.2.2.2.1

theorem proj_isReal (I : Inputs) (h : I.Real) : ∀ i j, IsReal (proj I i j) :=
  mm_isReal (dec2_isReal I h) h.2.2.2.2.2.2.2.2.2.2.2.2.1

/-- With finite inputs every entry of Z is a real number. -/
theorem code_real (I : Inputs) (h : I.Real) : ∀ i k, ∃ r : ℝ, code I i k = r :=
  code_isReal I h

/-- With finite inputs every entry of G is a real number. -/
theorem proj_real (I : Inputs) (h : I.Real) : ∀ i c, ∃ r : ℝ, proj I i c = r :=
  proj_isReal I h

/-- Z (Zᵀ G) + b₅ = (Z Zᵀ) G + b₅ when the inputs are finite: associativity of the matrix product on
    real entries. -/
theorem outAccum_eq_outDense (I : Inputs) (h : I.Real) : outAccum I = outDense I := by
  choose z hz using code_real I h
  choose g hg using proj_real I h
  funext i c
  unfold outAccum outDense gram
  congr 1
  -- both sums are images of real double sums
  simp only [hz, hg, ← EReal.coe_mul, ← coe_sum]
  congr 1
  -- in ℝ: Σ_k z i k · (Σ_a z a k · g a c) = Σ_a (Σ_k z i k · z a k) · g a c
  simp only [Finset.mul_sum, Finset.sum_mul]
  rw [Finset.sum_comm]
  exact Finset.sum_congr rfl fun a _ => Finset.sum_congr rfl fun k _ => (mul_assoc _ _ _).symm

/-- A sum over 4096 indices is the sum over the first 2048 plus the sum over the last 2048. -/
theorem sum_halves (f : Fin 4096 → EReal) :
    ∑ a : Fin 4096, f a
      = (∑ a : Fin 2048, f ⟨a.val, by omega⟩) + ∑ a : Fin 2048, f ⟨2048 + a.val, by omega⟩ :=
  Fin.sum_univ_add (a := 2048) (b := 2048) f

/-- A sum over 4096 indices is the sum over eight blocks of the sums over each block's 512 indices. -/
theorem sum_blocks (f : Fin 4096 → EReal) :
    ∑ a : Fin 4096, f a = ∑ t : Fin 8, ∑ r : Fin 512, f ⟨512 * t.val + r.val, by omega⟩ := by
  -- the pair (t, r) names the index 512 t + r; this is a bijection of Fin 8 × Fin 512 with Fin 4096
  rw [← Fintype.sum_prod_type' (f := fun (t : Fin 8) (r : Fin 512) => f ⟨512 * t.val + r.val, by omega⟩)]
  refine (Fintype.sum_equiv (finProdFinEquiv (m := 8) (n := 512)) _ f fun x => ?_).symm
  exact congrArg f (Fin.ext (by simp [finProdFinEquiv]; omega))

end Cert.Spec

end
-- ==== Proof.Hand.Value0.lean ====
/-
  What the first kernel leaves in its two output arrays, on the extended reals.

  Z's array is written block by block: point t writes rows 512 t … 512 t + 511, so the array ends
  holding, at row 512 t + r, the block's row r.  A block's row is the specification's row: the block's
  adjacency rows against the support matrix, the sum over the 4096 columns cut into its two halves
  of 2048, through the two rectified layers and the affine layer.  The accumulator's array is written
  once, after the last point, with zero plus the eight blocks' terms added left to right: the sum over
  all 4096 rows of Z's entry times G's entry, block by block.
-/
import proofs.«158643_g48112223650413_cont_sun_m_1297_5_alg».proof.Proof.Hand.Data
import proofs.«158643_g48112223650413_cont_sun_m_1297_5_alg».proof.Proof.Hand.Value0z
import proofs.«158643_g48112223650413_cont_sun_m_1297_5_alg».proof.Proof.Hand.Value0m
import proofs.«158643_g48112223650413_cont_sun_m_1297_5_alg».proof.Proof.Interp
import proofs.«158643_g48112223650413_cont_sun_m_1297_5_alg».proof.Proof.SpecLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

namespace V0

/-! ### One operation read at an index -/

/-- Two rank-2 indices with the same coordinates are equal. -/
theorem idx2_ext {n0 n1 : ℕ} (u v : (⟨2, ![n0, n1]⟩ : Shape).Idx) (h0 : u 0 = v 0) (h1 : u 1 = v 1) : u = v := by
  funext a; match a with | ⟨0, _⟩ => exact h0 | ⟨1, _⟩ => exact h1

section Dot
variable {m k n : ℕ} (D : DotDims ⟨2, ![m, k]⟩ ⟨2, ![k, n]⟩ ⟨2, ![m, n]⟩)

/-- With no batch axis and the left operand's rows its one free axis, the left operand is read on its
    row axis at the result's row. -/
theorem lhs_axis0 (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : ℕ) (ha : a < 2) (hb : b < 2), a = b → (j ⟨a, ha⟩).val = (j ⟨b, hb⟩).val :=
    fun a b ha hb h => by subst h; rfl
  exact key _ _ _ _ (by simp [hlb, hln])

/-- And the right operand is read on its column axis at the result's column. -/
theorem rhs_axis1 (hlb : D.lhsBatch = []) (hln : D.lhsNonContracting = [0]) (hrb : D.rhsBatch = [])
    (hrn : D.rhsNonContracting = [1])
    (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : ℕ) (ha : a < 2) (hb : b < 2), a = b → (j ⟨a, ha⟩).val = (j ⟨b, hb⟩).val :=
    fun a b ha hb h => by subst h; rfl
  exact key _ _ _ _ (by simp [hlb, hln, hrn])

/-- A matrix product into the zero block, read at (p, q): the sum over the contracted index of the
    left operand at (p, a) times the right operand at (a, q). -/
theorem matmul_read {φ₁ φ₂ : FTy}
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = k)
    (A : FVec Ideal ⟨2, ![m, k]⟩ φ₁) (B : FVec Ideal ⟨2, ![k, n]⟩ φ₂) (p : Fin m) (q : Fin n) :
    matmul D none A B (constant ⟨2, ![m, n]⟩ .f32 0x00000000#32) (ix2 p q)
      = ∑ a : Fin k, A (ix2 p a) * B (ix2 a q) := by
  refine (Ideal.matmul_constant_zero_apply D none A B (ix2 p q)).trans ?_
  rw [← Equiv.sum_comp (contrEquiv1 D k hr hs).symm]
  refine Finset.sum_congr rfl fun a _ => ?_
  have hk := contrEquiv1_symm_val D k hr hs a
  have el : D.lhsIdx (ix2 p q) ((contrEquiv1 D k hr hs).symm a) = ix2 p a :=
    idx2_ext _ _ (Fin.ext (lhs_axis0 D hlb hln _ _)) (Fin.ext ((D.lhsIdx_val_of_single hlc _ _).trans hk))
  have er : D.rhsIdx (ix2 p q) ((contrEquiv1 D k hr hs).symm a) = ix2 a q :=
    idx2_ext _ _ (Fin.ext ((D.rhsIdx_val_of_single hrc _ _).trans hk)) (Fin.ext (rhs_axis1 D hlb hln hrb hrn _ _))
  rw [el, er]

end Dot

/-- A one-row matrix broadcast along the rows, read at (p, q), is its entry (0, q). -/
theorem bcastRow_read {m n : ℕ} {α : Type} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The comparison with zero and the choice between v and slope · v is the rectifier. -/
theorem leaky_read (v : Ideal .f32) :
    Scalar.select (FloatOps.cmpf .oge v (FloatOps.ofBits .f32 0x00000000#32)) v
      (FloatOps.mulf (FloatOps.ofBits .f32 0x3C23D70A#32) v) = leaky v := by
  show (if Ideal.cmp .oge v (Ideal.ofBits .f32 0x00000000#32) = 1 then v else Ideal.ofBits .f32 0x3C23D70A#32 * v)
      = if (0 : EReal) ≤ v then v else Cert.Spec.slope * v
  rw [Ideal.ofBits_zero_f32]
  unfold Ideal.cmp Cert.Spec.slope
  by_cases h : (0 : EReal) ≤ v <;> simp [h]

/-! ### The payloads at an index -/

/-- The support block: the product of the feature block and the first weight. -/
theorem pay2_read (x : Vec Ideal S4096x256 .f32) (w : Vec Ideal S256x128 .f32) (r : Fin 4096) (k : Fin 128) :
    k0_pay2 x w (ix2 r k) = ∑ a : Fin 256, x (ix2 r a) * w (ix2 a k) := by
  unfold k0_pay2
  show shapeCast _ (truncf .bf16 (matmul (F := Ideal) _ none x w _) _) _ (ix2 r k) = _
  rw [shapeCast_self]
  exact matmul_read (φ₁ := .f32) (φ₂ := .f32) _ rfl rfl rfl rfl rfl rfl rfl rfl x w r k

/-- The two rectified layers of a row block: the adjacency block's two column halves against the two
    row halves of the support matrix, the bias first; then the second weight and bias. -/
theorem pay4_read (b0 : Vec Ideal S1x128 .f32) (aL : Vec Ideal S512x2048 .f32) (sLo : Vec Ideal S2048x128 .bf16)
    (aR : Vec Ideal S512x2048 .f32) (sHi : Vec Ideal S2048x128 .bf16) (w1 : Vec Ideal S128x64 .f32)
    (b1 : Vec Ideal S1x64 .f32) (r : Fin 512) (j : Fin 64) :
    k0_pay4 b0 aL sLo aR sHi w1 b1 (ix2 r j)
      = leaky ((∑ k : Fin 128,
            leaky ((b0 (ix2 0 k) + ∑ a : Fin 2048, aL (ix2 r a) * sLo (ix2 a k))
                + ∑ a : Fin 2048, aR (ix2 r a) * sHi (ix2 a k)) * w1 (ix2 k j)) + b1 (ix2 0 j)) := by
  unfold k0_pay4
  refine (leaky_read _).trans (congrArg leaky ?_)
  show matmul (F := Ideal) _ none _ w1 _ (ix2 r j) + broadcastTo _ (shapeCast _ b1 _) _ (ix2 r j) = _
  rw [matmul_read _ rfl rfl rfl rfl rfl rfl rfl rfl, shapeCast_self b1, bcastRow_read b1]
  refine congrArg (· + b1 (ix2 0 j)) (Finset.sum_congr rfl fun k _ => congrArg (· * w1 (ix2 k j)) ?_)
  refine (leaky_read _).trans (congrArg leaky ?_)
  show (broadcastTo _ (shapeCast _ b0 _) _ (ix2 r k) + matmul (F := Ideal) _ none (truncf .bf16 aL _) sLo _ (ix2 r k))
      + matmul (F := Ideal) _ none (truncf .bf16 aR _) sHi _ (ix2 r k) = _
  rw [shapeCast_self b0, bcastRow_read b0, matmul_read _ rfl rfl rfl rfl rfl rfl rfl rfl,
    matmul_read _ rfl rfl rfl rfl rfl rfl rfl rfl]
  rfl

/-- The affine layer of a row block. -/
theorem pay5_read (h : FVec Ideal S512x64 .f32) (w2 : Vec Ideal S64x32 .f32) (b2 : Vec Ideal S1x32 .f32)
    (r : Fin 512) (q : Fin 32) :
    k0_pay5 h w2 b2 (ix2 r q) = (∑ a : Fin 64, h (ix2 r a) * w2 (ix2 a q)) + b2 (ix2 0 q) := by
  unfold k0_pay5
  show matmul (F := Ideal) _ none h w2 _ (ix2 r q) + broadcastTo _ (shapeCast _ b2 _) _ (ix2 r q) = _
  rw [matmul_read _ rfl rfl rfl rfl rfl rfl rfl rfl, shapeCast_self b2, bcastRow_read b2]

/-- The block's term of the accumulator: the block of Z transposed against the block's three decoder
    layers. -/
theorem pay7_read (h : FVec Ideal S512x64 .f32) (w2 : Vec Ideal S64x32 .f32) (b2 : Vec Ideal S1x32 .f32)
    (w3 : Vec Ideal S32x64 .f32) (b3 : Vec Ideal S1x64 .f32) (w4 : Vec Ideal S64x128 .f32)
    (b4 : Vec Ideal S1x128 .f32) (w5 : Vec Ideal S128x256 .f32) (k : Fin 32) (cc : Fin 256) :
    k0_pay7 h w2 b2 w3 b3 w4 b4 w5 (ix2 k cc)
      = ∑ r : Fin 512, k0_pay5 h w2 b2 (ix2 r k) *
          ∑ a : Fin 128,
            leaky ((∑ b : Fin 64,
                leaky ((∑ q : Fin 32, k0_pay5 h w2 b2 (ix2 r q) * w3 (ix2 q b)) + b3 (ix2 0 b)) * w4 (ix2 b a))
              + b4 (ix2 0 a)) * w5 (ix2 a cc) := by
  unfold k0_pay7
  show matmul (F := Ideal) _ none (transpose _ [1, 0] (k0_pay5 h w2 b2) _) _ _ (ix2 k cc) = _
  rw [matmul_read _ rfl rfl rfl rfl rfl rfl rfl rfl]
  refine Finset.sum_congr rfl fun r _ => ?_
  rw [transpose_ix2_apply]
  refine congrArg (k0_pay5 h w2 b2 (ix2 r k) * ·) ?_
  show matmul (F := Ideal) _ none _ w5 _ (ix2 r cc) = _
  rw [matmul_read _ rfl rfl rfl rfl rfl rfl rfl rfl]
  refine Finset.sum_congr rfl fun a _ => congrArg (· * w5 (ix2 a cc)) ?_
  refine (leaky_read _).trans (congrArg leaky ?_)
  show matmul (F := Ideal) _ none _ w4 _ (ix2 r a) + broadcastTo _ (shapeCast _ b4 _) _ (ix2 r a) = _
  rw [matmul_read _ rfl rfl rfl rfl rfl rfl rfl rfl, shapeCast_self b4, bcastRow_read b4]
  refine congrArg (· + b4 (ix2 0 a)) (Finset.sum_congr rfl fun b _ => congrArg (· * w4 (ix2 b a)) ?_)
  refine (leaky_read _).trans (congrArg leaky ?_)
  show matmul (F := Ideal) _ none (k0_pay5 h w2 b2) w3 _ (ix2 r b) + broadcastTo _ (shapeCast _ b3 _) _ (ix2 r b) = _
  rw [matmul_read _ rfl rfl rfl rfl rfl rfl rfl rfl, shapeCast_self b3, bcastRow_read b3]

/-- One more term onto the accumulator. -/
theorem pay1_read (x y : FVec Ideal S32x256 .f32) (i : S32x256.Idx) : k0_pay1 x y i = x i + y i := rfl

/-- The accumulator as loaded. -/
theorem pay6_eq (x : Vec Ideal S32x256 .f32) : k0_pay6 x = x := by
  unfold k0_pay6
  exact shapeCast_self _ _

/-- The accumulator's first contents: zero. -/
theorem pay3_read (i : S32x256.Idx) : k0_pay3 (F := Ideal) i = 0 := by
  unfold k0_pay3
  exact Ideal.ofBits_zero_f32

/-! ### The blocks, read off the arrays -/

/-- The array row that row r of the block at point t is. -/
abbrev rowOf (t : Fin cfg0.N) (r : Fin 512) : Fin 4096 :=
  ⟨512 * t.val + r.val, by have := t.isLt; have h8 : cfg0.N = 8 := N_0; have := r.isLt; omega⟩

theorem bAL_read (c : Dev nD) (t : Fin cfg0.N) (r : Fin 512) (a : Fin 2048) :
    bAL V c t (ix2 r a) = (V c main_arg1 : Vec Ideal S4096x4096 .f32) (ix2 (rowOf t r) ⟨a.val, by have := a.isLt; omega⟩) := by
  have hi : win0_1.index t 0 = t.val ∧ win0_1.index t 1 = 0 :=
    (by decide +kernel : ∀ t : Fin grid0.N, win0_1.index t 0 = t.val ∧ win0_1.index t 1 = 0) t
  show iblk0 V c 1 t (ix2 r a) = _
  unfold iblk0
  rw [View.read_apply]
  show V c main_arg1 _ = V c main_arg1 _
  congr 1
  funext d
  apply Fin.ext
  match d with
  | ⟨0, _⟩ => show win0_1.index t 0 * 512 + 1 * r.val = 512 * t.val + r.val; rw [hi.1]; omega
  | ⟨1, _⟩ => show win0_1.index t 1 * 2048 + 1 * a.val = a.val; rw [hi.2]; omega

theorem bX_eq (c : Dev nD) (t : Fin cfg0.N) : bX V c t = (V c main_arg0 : Vec Ideal S4096x256 .f32) := by
  have hi : win0_0.index t 0 = 0 ∧ win0_0.index t 1 = 0 :=
    (by decide +kernel : ∀ t : Fin grid0.N, win0_0.index t 0 = 0 ∧ win0_0.index t 1 = 0) t
  funext j
  show iblk0 V c 0 t j = _
  unfold iblk0
  rw [View.read_apply]
  show V c main_arg0 _ = V c main_arg0 _
  congr 1
  funext d
  apply Fin.ext
  match d with
  | ⟨0, _⟩ => show win0_0.index t 0 * 4096 + 1 * (j 0).val = (j 0).val; rw [hi.1]; omega
  | ⟨1, _⟩ => show win0_0.index t 1 * 256 + 1 * (j 1).val = (j 1).val; rw [hi.2]; omega

theorem bAR_read (c : Dev nD) (t : Fin cfg0.N) (r : Fin 512) (a : Fin 2048) :
    bAR V c t (ix2 r a) = (V c main_arg1 : Vec Ideal S4096x4096 .f32) (ix2 (rowOf t r) ⟨2048 + a.val, by have := a.isLt; omega⟩) := by
  have hi : win0_2.index t 0 = t.val ∧ win0_2.index t 1 = 1 :=
    (by decide +kernel : ∀ t : Fin grid0.N, win0_2.index t 0 = t.val ∧ win0_2.index t 1 = 1) t
  show iblk0 V c 2 t (ix2 r a) = _
  unfold iblk0
  rw [View.read_apply]
  show V c main_arg1 _ = V c main_arg1 _
  congr 1
  funext d
  apply Fin.ext
  match d with
  | ⟨0, _⟩ => show win0_2.index t 0 * 512 + 1 * r.val = 512 * t.val + r.val; rw [hi.1]; omega
  | ⟨1, _⟩ => show win0_2.index t 1 * 2048 + 1 * a.val = 2048 + a.val; rw [hi.2]; omega

theorem bW0_eq (c : Dev nD) (t : Fin cfg0.N) : bW0 V c t = (V c main_arg2 : Vec Ideal S256x128 .f32) := by
  have hi : win0_3.index t 0 = 0 ∧ win0_3.index t 1 = 0 :=
    (by decide +kernel : ∀ t : Fin grid0.N, win0_3.index t 0 = 0 ∧ win0_3.index t 1 = 0) t
  funext j
  show iblk0 V c 3 t j = _
  unfold iblk0
  rw [View.read_apply]
  show V c main_arg2 _ = V c main_arg2 _
  congr 1
  funext d
  apply Fin.ext
  match d with
  | ⟨0, _⟩ => show win0_3.index t 0 * 256 + 1 * (j 0).val = (j 0).val; rw [hi.1]; omega
  | ⟨1, _⟩ => show win0_3.index t 1 * 128 + 1 * (j 1).val = (j 1).val; rw [hi.2]; omega

theorem bB0_eq (c : Dev nD) (t : Fin cfg0.N) : bB0 V c t = (V c main_call0_v0 : Vec Ideal S1x128 .f32) := by
  have hi : win0_4.index t 0 = 0 ∧ win0_4.index t 1 = 0 :=
    (by decide +kernel : ∀ t : Fin grid0.N, win0_4.index t 0 = 0 ∧ win0_4.index t 1 = 0) t
  funext j
  show iblk0 V c 4 t j = _
  unfold iblk0
  rw [View.read_apply]
  show V c main_call0_v0 _ = V c main_call0_v0 _
  congr 1
  funext d
  apply Fin.ext
  match d with
  | ⟨0, _⟩ => show win0_4.index t 0 * 1 + 1 * (j 0).val = (j 0).val; rw [hi.1]; omega
  | ⟨1, _⟩ => show win0_4.index t 1 * 128 + 1 * (j 1).val = (j 1).val; rw [hi.2]; omega

theorem bW1_eq (c : Dev nD) (t : Fin cfg0.N) : bW1 V c t = (V c main_arg4 : Vec Ideal S128x64 .f32) := by
  have hi : win0_5.index t 0 = 0 ∧ win0_5.index t 1 = 0 :=
    (by decide +kernel : ∀ t : Fin grid0.N, win0_5.index t 0 = 0 ∧ win0_5.index t 1 = 0) t
  funext j
  show iblk0 V c 5 t j = _
  unfold iblk0
  rw [View.read_apply]
  show V c main_arg4 _ = V c main_arg4 _
  congr 1
  funext d
  apply Fin.ext
  match d with
  | ⟨0, _⟩ => show win0_5.index t 0 * 128 + 1 * (j 0).val = (j 0).val; rw [hi.1]; omega
  | ⟨1, _⟩ => show win0_5.index t 1 * 64 + 1 * (j 1).val = (j 1).val; rw [hi.2]; omega

theorem bB1_eq (c : Dev nD) (t : Fin cfg0.N) : bB1 V c t = (V c main_call0_v1 : Vec Ideal S1x64 .f32) := by
  have hi : win0_6.index t 0 = 0 ∧ win0_6.index t 1 = 0 :=
    (by decide +kernel : ∀ t : Fin grid0.N, win0_6.index t 0 = 0 ∧ win0_6.index t 1 = 0) t
  funext j
  show iblk0 V c 6 t j = _
  unfold iblk0
  rw [View.read_apply]
  show V c main_call0_v1 _ = V c main_call0_v1 _
  congr 1
  funext d
  apply Fin.ext
  match d with
  | ⟨0, _⟩ => show win0_6.index t 0 * 1 + 1 * (j 0).val = (j 0).val; rw [hi.1]; omega
  | ⟨1, _⟩ => show win0_6.index t 1 * 64 + 1 * (j 1).val = (j 1).val; rw [hi.2]; omega

theorem bW2_eq (c : Dev nD) (t : Fin cfg0.N) : bW2 V c t = (V c main_arg6 : Vec Ideal S64x32 .f32) := by
  have hi : win0_7.index t 0 = 0 ∧ win0_7.index t 1 = 0 :=
    (by decide +kernel : ∀ t : Fin grid0.N, win0_7.index t 0 = 0 ∧ win0_7.index t 1 = 0) t
  funext j
  show iblk0 V c 7 t j = _
  unfold iblk0
  rw [View.read_apply]
  show V c main_arg6 _ = V c main_arg6 _
  congr 1
  funext d
  apply Fin.ext
  match d with
  | ⟨0, _⟩ => show win0_7.index t 0 * 64 + 1 * (j 0).val = (j 0).val; rw [hi.1]; omega
  | ⟨1, _⟩ => show win0_7.index t 1 * 32 + 1 * (j 1).val = (j 1).val; rw [hi.2]; omega

theorem bB2_eq (c : Dev nD) (t : Fin cfg0.N) : bB2 V c t = (V c main_call0_v2 : Vec Ideal S1x32 .f32) := by
  have hi : win0_8.index t 0 = 0 ∧ win0_8.index t 1 = 0 :=
    (by decide +kernel : ∀ t : Fin grid0.N, win0_8.index t 0 = 0 ∧ win0_8.index t 1 = 0) t
  funext j
  show iblk0 V c 8 t j = _
  unfold iblk0
  rw [View.read_apply]
  show V c main_call0_v2 _ = V c main_call0_v2 _
  congr 1
  funext d
  apply Fin.ext
  match d with
  | ⟨0, _⟩ => show win0_8.index t 0 * 1 + 1 * (j 0).val = (j 0).val; rw [hi.1]; omega
  | ⟨1, _⟩ => show win0_8.index t 1 * 32 + 1 * (j 1).val = (j 1).val; rw [hi.2]; omega

theorem bW3_eq (c : Dev nD) (t : Fin cfg0.N) : bW3 V c t = (V c main_arg8 : Vec Ideal S32x64 .f32) := by
  have hi : win0_9.index t 0 = 0 ∧ win0_9.index t 1 = 0 :=
    (by decide +kernel : ∀ t : Fin grid0.N, win0_9.index t 0 = 0 ∧ win0_9.index t 1 = 0) t
  funext j
  show iblk0 V c 9 t j = _
  unfold iblk0
  rw [View.read_apply]
  show V c main_arg8 _ = V c main_arg8 _
  congr 1
  funext d
  apply Fin.ext
  match d with
  | ⟨0, _⟩ => show win0_9.index t 0 * 32 + 1 * (j 0).val = (j 0).val; rw [hi.1]; omega
  | ⟨1, _⟩ => show win0_9.index t 1 * 64 + 1 * (j 1).val = (j 1).val; rw [hi.2]; omega

theorem bB3_eq (c : Dev nD) (t : Fin cfg0.N) : bB3 V c t = (V c main_call0_v3 : Vec Ideal S1x64 .f32) := by
  have hi : win0_10.index t 0 = 0 ∧ win0_10.index t 1 = 0 :=
    (by decide +kernel : ∀ t : Fin grid0.N, win0_10.index t 0 = 0 ∧ win0_10.index t 1 = 0) t
  funext j
  show iblk0 V c 10 t j = _
  unfold iblk0
  rw [View.read_apply]
  show V c main_call0_v3 _ = V c main_call0_v3 _
  congr 1
  funext d
  apply Fin.ext
  match d with
  | ⟨0, _⟩ => show win0_10.index t 0 * 1 + 1 * (j 0).val = (j 0).val; rw [hi.1]; omega
  | ⟨1, _⟩ => show win0_10.index t 1 * 64 + 1 * (j 1).val = (j 1).val; rw [hi.2]; omega

theorem bW4_eq (c : Dev nD) (t : Fin cfg0.N) : bW4 V c t = (V c main_arg10 : Vec Ideal S64x128 .f32) := by
  have hi : win0_11.index t 0 = 0 ∧ win0_11.index t 1 = 0 :=
    (by decide +kernel : ∀ t : Fin grid0.N, win0_11.index t 0 = 0 ∧ win0_11.index t 1 = 0) t
  funext j
  show iblk0 V c 11 t j = _
  unfold iblk0
  rw [View.read_apply]
  show V c main_arg10 _ = V c main_arg10 _
  congr 1
  funext d
  apply Fin.ext
  match d with
  | ⟨0, _⟩ => show win0_11.index t 0 * 64 + 1 * (j 0).val = (j 0).val; rw [hi.1]; omega
  | ⟨1, _⟩ => show win0_11.index t 1 * 128 + 1 * (j 1).val = (j 1).val; rw [hi.2]; omega

theorem bB4_eq (c : Dev nD) (t : Fin cfg0.N) : bB4 V c t = (V c main_call0_v4 : Vec Ideal S1x128 .f32) := by
  have hi : win0_12.index t 0 = 0 ∧ win0_12.index t 1 = 0 :=
    (by decide +kernel : ∀ t : Fin grid0.N, win0_12.index t 0 = 0 ∧ win0_12.index t 1 = 0) t
  funext j
  show iblk0 V c 12 t j = _
  unfold iblk0
  rw [View.read_apply]
  show V c main_call0_v4 _ = V c main_call0_v4 _
  congr 1
  funext d
  apply Fin.ext
  match d with
  | ⟨0, _⟩ => show win0_12.index t 0 * 1 + 1 * (j 0).val = (j 0).val; rw [hi.1]; omega
  | ⟨1, _⟩ => show win0_12.index t 1 * 128 + 1 * (j 1).val = (j 1).val; rw [hi.2]; omega

theorem bW5_eq (c : Dev nD) (t : Fin cfg0.N) : bW5 V c t = (V c main_arg12 : Vec Ideal S128x256 .f32) := by
  have hi : win0_13.index t 0 = 0 ∧ win0_13.index t 1 = 0 :=
    (by decide +kernel : ∀ t : Fin grid0.N, win0_13.index t 0 = 0 ∧ win0_13.index t 1 = 0) t
  funext j
  show iblk0 V c 13 t j = _
  unfold iblk0
  rw [View.read_apply]
  show V c main_arg12 _ = V c main_arg12 _
  congr 1
  funext d
  apply Fin.ext
  match d with
  | ⟨0, _⟩ => show win0_13.index t 0 * 128 + 1 * (j 0).val = (j 0).val; rw [hi.1]; omega
  | ⟨1, _⟩ => show win0_13.index t 1 * 256 + 1 * (j 1).val = (j 1).val; rw [hi.2]; omega

/-- The scratch's first 2048 rows, read at (a, k), are the scratch at (a, k). -/
theorem ld_lo (X : FVec Ideal S4096x128 .bf16) (a : Fin 2048) (k : Fin 128) :
    (View.ld X rLo : Vec Ideal S2048x128 .bf16) (ix2 a k) = X (ix2 ⟨a.val, by have := a.isLt; omega⟩ k) := by
  refine congrArg X (idx2_ext _ _ (Fin.ext ?_) (Fin.ext ?_))
  · show 0 + 1 * a.val = a.val; omega
  · show 0 + 1 * k.val = k.val; omega

/-- Its last 2048 rows, read at (a, k), are the scratch at (2048 + a, k). -/
theorem ld_hi (X : FVec Ideal S4096x128 .bf16) (a : Fin 2048) (k : Fin 128) :
    (View.ld X rHi : Vec Ideal S2048x128 .bf16) (ix2 a k) = X (ix2 ⟨2048 + a.val, by have := a.isLt; omega⟩ k) := by
  refine congrArg X (idx2_ext _ _ (Fin.ext ?_) (Fin.ext ?_))
  · show 2048 + 1 * a.val = 2048 + a.val; omega
  · show 0 + 1 * k.val = k.val; omega

/-! ### The blocks' values -/

section Values
variable (c : Dev nD) (I : Inputs)

/-- The support matrix the first point forms is the specification's. -/
theorem supp_val (hx : matOf (V c main_arg0) = I.x) (hw0 : matOf (V c main_arg2) = I.w0) (r : Fin 4096) (k : Fin 128) :
    supp V c (ix2 r k) = support I r k := by
  unfold supp
  refine (pay2_read (bX V c t0_0) (bW0 V c t0_0) r k).trans ?_
  rw [bX_eq, bW0_eq]
  show _ = ∑ a : Fin 256, I.x r a * I.w0 a k
  rw [← hx, ← hw0]
  rfl

/-- The first rectified layer's argument at row 512 t + r: the sum over the 4096 columns is cut into
    its halves, and the bias comes first. -/
theorem pre1_val (hx : matOf (V c main_arg0) = I.x) (hadj : matOf (V c main_arg1) = I.adj)
    (hw0 : matOf (V c main_arg2) = I.w0) (hb0 : ∀ j, V c main_call0_v0 (ix2 0 j) = I.b0 j)
    (t : Fin cfg0.N) (r : Fin 512) (k : Fin 128) :
    (bB0 V c t (ix2 0 k) + ∑ a : Fin 2048, bAL V c t (ix2 r a) * (View.ld (supp V c) rLo : Vec Ideal S2048x128 .bf16) (ix2 a k))
        + ∑ a : Fin 2048, bAR V c t (ix2 r a) * (View.ld (supp V c) rHi : Vec Ideal S2048x128 .bf16) (ix2 a k)
      = mm I.adj (support I) (rowOf t r) k + I.b0 k := by
  have eL : ∑ a : Fin 2048, bAL V c t (ix2 r a) * (View.ld (supp V c) rLo : Vec Ideal S2048x128 .bf16) (ix2 a k)
      = ∑ a : Fin 2048, I.adj (rowOf t r) ⟨a.val, by have := a.isLt; omega⟩ * support I ⟨a.val, by have := a.isLt; omega⟩ k :=
    Finset.sum_congr rfl fun a _ => by
      rw [bAL_read, ld_lo, supp_val V c I hx hw0, ← hadj]; rfl
  have eR : ∑ a : Fin 2048, bAR V c t (ix2 r a) * (View.ld (supp V c) rHi : Vec Ideal S2048x128 .bf16) (ix2 a k)
      = ∑ a : Fin 2048, I.adj (rowOf t r) ⟨2048 + a.val, by have := a.isLt; omega⟩ * support I ⟨2048 + a.val, by have := a.isLt; omega⟩ k :=
    Finset.sum_congr rfl fun a _ => by
      rw [bAR_read, ld_hi, supp_val V c I hx hw0, ← hadj]; rfl
  have eB : bB0 V c t (ix2 0 k) = I.b0 k := by rw [bB0_eq]; exact hb0 k
  rw [eL, eR, eB]
  unfold mm
  rw [sum_halves (fun a => I.adj (rowOf t r) a * support I a k), add_assoc, add_comm]

/-- H₂'s rows of the block at point t are the specification's rows 512 t + r. -/
theorem hBlk_val (hx : matOf (V c main_arg0) = I.x) (hadj : matOf (V c main_arg1) = I.adj)
    (hw0 : matOf (V c main_arg2) = I.w0) (hb0 : ∀ j, V c main_call0_v0 (ix2 0 j) = I.b0 j)
    (hw1 : matOf (V c main_arg4) = I.w1) (hb1 : ∀ j, V c main_call0_v1 (ix2 0 j) = I.b1 j)
    (t : Fin cfg0.N) (r : Fin 512) (j : Fin 64) :
    hBlk V c t (ix2 r j) = hid2 I (rowOf t r) j := by
  unfold hBlk
  have e := pay4_read (bB0 V c t) (bAL V c t) (View.ld (supp V c) rLo : Vec Ideal S2048x128 .bf16) (bAR V c t)
    (View.ld (supp V c) rHi : Vec Ideal S2048x128 .bf16) (bW1 V c t) (bB1 V c t) r j
  refine e.trans ?_
  show _ = leaky ((∑ k : Fin 128, leaky (mm I.adj (support I) (rowOf t r) k + I.b0 k) * I.w1 k j) + I.b1 j)
  refine congrArg leaky (congrArg₂ (· + ·) (Finset.sum_congr rfl fun k _ => congrArg₂ (· * ·) (congrArg leaky ?_) ?_) ?_)
  · exact pre1_val V c I hx hadj hw0 hb0 t r k
  · rw [bW1_eq, ← hw1]; rfl
  · rw [bB1_eq]; exact hb1 j

/-- Z's rows of the block at point t are the specification's rows 512 t + r. -/
theorem zBlk_val (hx : matOf (V c main_arg0) = I.x) (hadj : matOf (V c main_arg1) = I.adj)
    (hw0 : matOf (V c main_arg2) = I.w0) (hb0 : ∀ j, V c main_call0_v0 (ix2 0 j) = I.b0 j)
    (hw1 : matOf (V c main_arg4) = I.w1) (hb1 : ∀ j, V c main_call0_v1 (ix2 0 j) = I.b1 j)
    (hw2 : matOf (V c main_arg6) = I.w2) (hb2 : ∀ j, V c main_call0_v2 (ix2 0 j) = I.b2 j)
    (t : Fin cfg0.N) (r : Fin 512) (q : Fin 32) :
    zBlk V c t (ix2 r q) = code I (rowOf t r) q := by
  unfold zBlk
  refine (pay5_read (hBlk V c t) (bW2 V c t) (bB2 V c t) r q).trans ?_
  show _ = (∑ a : Fin 64, hid2 I (rowOf t r) a * I.w2 a q) + I.b2 q
  refine congrArg₂ (· + ·) (Finset.sum_congr rfl fun a _ => congrArg₂ (· * ·) ?_ ?_) ?_
  · exact hBlk_val V c I hx hadj hw0 hb0 hw1 hb1 t r a
  · rw [bW2_eq, ← hw2]; rfl
  · rw [bB2_eq]; exact hb2 q

end Values

section Terms
variable (c : Dev nD) (I : Inputs)

/-- The block's term of the accumulator at point t: the sum over the block's rows of Z's entry times
    G's entry, both at row 512 t + r. -/
theorem zgBlk_val (hx : matOf (V c main_arg0) = I.x) (hadj : matOf (V c main_arg1) = I.adj)
    (hw0 : matOf (V c main_arg2) = I.w0) (hb0 : ∀ j, V c main_call0_v0 (ix2 0 j) = I.b0 j)
    (hw1 : matOf (V c main_arg4) = I.w1) (hb1 : ∀ j, V c main_call0_v1 (ix2 0 j) = I.b1 j)
    (hw2 : matOf (V c main_arg6) = I.w2) (hb2 : ∀ j, V c main_call0_v2 (ix2 0 j) = I.b2 j)
    (hw3 : matOf (V c main_arg8) = I.w3) (hb3 : ∀ j, V c main_call0_v3 (ix2 0 j) = I.b3 j)
    (hw4 : matOf (V c main_arg10) = I.w4) (hb4 : ∀ j, V c main_call0_v4 (ix2 0 j) = I.b4 j)
    (hw5 : matOf (V c main_arg12) = I.w5)
    (t : Fin cfg0.N) (k : Fin 32) (cc : Fin 256) :
    zgBlk V c t (ix2 k cc) = ∑ r : Fin 512, code I (rowOf t r) k * proj I (rowOf t r) cc := by
  unfold zgBlk
  have e := pay7_read (hBlk V c t) (bW2 V c t) (bB2 V c t) (bW3 V c t) (bB3 V c t) (bW4 V c t) (bB4 V c t)
    (bW5 V c t) k cc
  refine e.trans (Finset.sum_congr rfl fun r _ => ?_)
  have hz : ∀ q, k0_pay5 (hBlk V c t) (bW2 V c t) (bB2 V c t) (ix2 r q) = code I (rowOf t r) q :=
    fun q => zBlk_val V c I hx hadj hw0 hb0 hw1 hb1 hw2 hb2 t r q
  show _ = code I (rowOf t r) k * ∑ a : Fin 128,
      leaky ((∑ b : Fin 64,
          leaky ((∑ q : Fin 32, code I (rowOf t r) q * I.w3 q b) + I.b3 b) * I.w4 b a) + I.b4 a) * I.w5 a cc
  refine congrArg₂ (· * ·) (hz k) (Finset.sum_congr rfl fun a _ => congrArg₂ (· * ·)
    (congrArg leaky (congrArg₂ (· + ·) (Finset.sum_congr rfl fun b _ => congrArg₂ (· * ·)
      (congrArg leaky (congrArg₂ (· + ·) (Finset.sum_congr rfl fun q _ => congrArg₂ (· * ·) (hz q) ?_) ?_)) ?_) ?_)) ?_)
  · rw [bW3_eq, ← hw3]; rfl
  · rw [bB3_eq]; exact hb3 b
  · rw [bW4_eq, ← hw4]; rfl
  · rw [bB4_eq]; exact hb4 a
  · rw [bW5_eq, ← hw5]; rfl

end Terms

end V0

open V0

/-- Z's array after the first kernel holds the specification's Z, when the kernel's input arrays
    hold the specification's inputs (each bias as a one-row matrix). -/
theorem zArr_value (c : Dev nD) (I : Inputs)
    (hx : matOf (V c main_arg0) = I.x) (hadj : matOf (V c main_arg1) = I.adj)
    (hw0 : matOf (V c main_arg2) = I.w0) (hb0 : ∀ j, V c main_call0_v0 (ix2 0 j) = I.b0 j)
    (hw1 : matOf (V c main_arg4) = I.w1) (hb1 : ∀ j, V c main_call0_v1 (ix2 0 j) = I.b1 j)
    (hw2 : matOf (V c main_arg6) = I.w2) (hb2 : ∀ j, V c main_call0_v2 (ix2 0 j) = I.b2 j) :
    (dat0 (F := Ideal) V c).arrAt 14 cfg0.N = arrOf (code I) :=
  zArr_of_blocks V c (code I) fun t r q => zBlk_val V c I hx hadj hw0 hb0 hw1 hb1 hw2 hb2 t r q

/-- The accumulator's array after the first kernel holds Zᵀ G. -/
theorem mArr_value (c : Dev nD) (I : Inputs)
    (hx : matOf (V c main_arg0) = I.x) (hadj : matOf (V c main_arg1) = I.adj)
    (hw0 : matOf (V c main_arg2) = I.w0) (hb0 : ∀ j, V c main_call0_v0 (ix2 0 j) = I.b0 j)
    (hw1 : matOf (V c main_arg4) = I.w1) (hb1 : ∀ j, V c main_call0_v1 (ix2 0 j) = I.b1 j)
    (hw2 : matOf (V c main_arg6) = I.w2) (hb2 : ∀ j, V c main_call0_v2 (ix2 0 j) = I.b2 j)
    (hw3 : matOf (V c main_arg8) = I.w3) (hb3 : ∀ j, V c main_call0_v3 (ix2 0 j) = I.b3 j)
    (hw4 : matOf (V c main_arg10) = I.w4) (hb4 : ∀ j, V c main_call0_v4 (ix2 0 j) = I.b4 j)
    (hw5 : matOf (V c main_arg12) = I.w5) :
    (dat0 (F := Ideal) V c).arrAt 15 cfg0.N = arrOf (gram I) := by
  -- the eight points' terms, each the sum over its block's 512 rows
  refine (mArr_of_terms V c
    (fun t k cc => ∑ r : Fin 512,
      code I ⟨512 * t.val + r.val, by have := t.isLt; have := r.isLt; omega⟩ k
        * proj I ⟨512 * t.val + r.val, by have := t.isLt; have := r.isLt; omega⟩ cc)
    fun t k cc => zgBlk_val V c I hx hadj hw0 hb0 hw1 hb1 hw2 hb2 hw3 hb3 hw4 hb4 hw5 t k cc).trans ?_
  -- and the eight blocks of 512 rows are the 4096 rows
  funext i
  exact (sum_blocks fun a => code I a (i 0) * proj I a (i 1)).symm

end Cert.KernelIdeal.Hand

end
-- ==== Proof.Hand.Value1.lean ====
/-
  What the second kernel leaves in its output array, on the extended reals: the product of the two
  matrices it reads, a bias added to every row.
-/
import proofs.«158643_g48112223650413_cont_sun_m_1297_5_alg».proof.Proof.Hand.Data
import proofs.«158643_g48112223650413_cont_sun_m_1297_5_alg».proof.Proof.Interp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

/-! # The product's operand indices, axis by axis -/

theorem lhs_zm_0 (i : S4096x256.Idx) (q : dot_S4096x32_S32x256_S4096x256_1_0_0_1_n_n.contr.Idx) :
    (dot_S4096x32_S32x256_S4096x256_1_0_0_1_n_n.lhsIdx i q 0).val = (i 0).val := by
  unfold DotDims.lhsIdx
  rw [dif_neg (show ¬(0 : Fin S4096x32.rank) ∈ dot_S4096x32_S32x256_S4096x256_1_0_0_1_n_n.lhsBatch by decide), dif_pos (show (0 : Fin S4096x32.rank) ∈ dot_S4096x32_S32x256_S4096x256_1_0_0_1_n_n.lhsNonContracting by decide)]
  rfl
theorem lhs_zm_1 (i : S4096x256.Idx) (q : dot_S4096x32_S32x256_S4096x256_1_0_0_1_n_n.contr.Idx) :
    (dot_S4096x32_S32x256_S4096x256_1_0_0_1_n_n.lhsIdx i q 1).val = (q ⟨0, by decide⟩).val :=
  dot_S4096x32_S32x256_S4096x256_1_0_0_1_n_n.lhsIdx_val_of_single rfl i q
theorem rhs_zm_0 (i : S4096x256.Idx) (q : dot_S4096x32_S32x256_S4096x256_1_0_0_1_n_n.contr.Idx) :
    (dot_S4096x32_S32x256_S4096x256_1_0_0_1_n_n.rhsIdx i q 0).val = (q ⟨0, by decide⟩).val :=
  dot_S4096x32_S32x256_S4096x256_1_0_0_1_n_n.rhsIdx_val_of_single rfl i q
theorem rhs_zm_1 (i : S4096x256.Idx) (q : dot_S4096x32_S32x256_S4096x256_1_0_0_1_n_n.contr.Idx) :
    (dot_S4096x32_S32x256_S4096x256_1_0_0_1_n_n.rhsIdx i q 1).val = (i 1).val := by
  unfold DotDims.rhsIdx
  rw [dif_neg (show ¬(1 : Fin S32x256.rank) ∈ dot_S4096x32_S32x256_S4096x256_1_0_0_1_n_n.rhsBatch by decide), dif_pos (show (1 : Fin S32x256.rank) ∈ dot_S4096x32_S32x256_S4096x256_1_0_0_1_n_n.rhsNonContracting by decide)]
  rfl

/-- The product into a zero accumulator, at (p, q): the sum over the 32 contracted coordinates. -/
theorem matmul_zm_apply (A : FVec Ideal S4096x32 .f32) (B : FVec Ideal S32x256 .f32) (p : Fin 4096) (q : Fin 256) :
    matmul dot_S4096x32_S32x256_S4096x256_1_0_0_1_n_n none A B (constant S4096x256 .f32 0x00000000#32) (ix2 p q)
      = ∑ k : Fin 32, A (ix2 p k) * B (ix2 k q) := by
  simp only [matmul]
  rw [Ideal.matmul_constant_zero_apply, ← Equiv.sum_comp (ValueIdx.contrEquiv1 dot_S4096x32_S32x256_S4096x256_1_0_0_1_n_n 32 rfl rfl).symm]
  refine Finset.sum_congr rfl fun k _ => ?_
  have hk := ValueIdx.contrEquiv1_symm_val dot_S4096x32_S32x256_S4096x256_1_0_0_1_n_n 32 rfl rfl k
  have el : dot_S4096x32_S32x256_S4096x256_1_0_0_1_n_n.lhsIdx (ix2 p q) ((ValueIdx.contrEquiv1 dot_S4096x32_S32x256_S4096x256_1_0_0_1_n_n 32 rfl rfl).symm k) = ix2 p k := funext fun a => Fin.ext (by
    match a with
    | ⟨0, _⟩ => exact lhs_zm_0 _ _
    | ⟨1, _⟩ => exact (lhs_zm_1 _ _).trans hk)
  have er : dot_S4096x32_S32x256_S4096x256_1_0_0_1_n_n.rhsIdx (ix2 p q) ((ValueIdx.contrEquiv1 dot_S4096x32_S32x256_S4096x256_1_0_0_1_n_n 32 rfl rfl).symm k) = ix2 k q := funext fun a => Fin.ext (by
    match a with
    | ⟨0, _⟩ => exact (rhs_zm_0 _ _).trans hk
    | ⟨1, _⟩ => exact rhs_zm_1 _ _)
  rw [el, er]

/-- The one-row bias spread over the rows, at (p, q): the bias at (0, q). -/
theorem bias_row_apply (v : FVec Ideal S1x256 .f32) (p : Fin 4096) (q : Fin 256) :
    broadcastTo S4096x256 v broadcasts_S1x256_S4096x256 (ix2 p q) = v (ix2 0 q) := by
  refine broadcastTo_apply v _ (ix2 p q) (ix2 0 q) fun a => ?_
  match a with
  | ⟨0, _⟩ => rfl
  | ⟨1, _⟩ => rfl

/-- What the second kernel computes from its three loaded values, at (p, q): the product plus the bias row. -/
theorem pay1_apply (v0 : Vec Ideal S4096x32 .f32) (v2 : Vec Ideal S32x256 .f32) (v5 : Vec Ideal S1x256 .f32) (p : Fin 4096) (q : Fin 256) :
    k1_pay1 v0 v2 v5 (ix2 p q) = (∑ k : Fin 32, v0 (ix2 p k) * v2 (ix2 k q)) + v5 (ix2 0 q) := by
  unfold k1_pay1
  simp only [shapeCast_self]
  rw [addf_apply, matmul_zm_apply, bias_row_apply]

variable (V : (c : Dev nD) → (b : Ref sig .tc) → Buf (Elt Ideal) ((c : Thread nD τ).loc b))

/-! # The three input blocks are their arrays, whole -/

theorem iblk1_0_eq (c : Dev nD) (t : Fin cfg1.N) : (iblk1 V c 0 t : Vec Ideal S4096x32 .f32) = V c main_v0_1 :=
  Memref.read_access_unit_zero (Elt Ideal) main_v0_1 (off := fun a => win1_0.index t a * main_v0_1.ty.shape.size a)
    (funext fun a => Nat.zero_mul _) (fun a => by rw [show win1_0.index t a = 0 from rfl, Nat.zero_mul, Nat.zero_add]) (V c main_v0_1)

theorem iblk1_1_eq (c : Dev nD) (t : Fin cfg1.N) : (iblk1 V c 1 t : Vec Ideal S32x256 .f32) = V c main_call0_v5_1 :=
  Memref.read_access_unit_zero (Elt Ideal) main_call0_v5_1 (off := fun a => win1_1.index t a * main_call0_v5_1.ty.shape.size a)
    (funext fun a => Nat.zero_mul _) (fun a => by rw [show win1_1.index t a = 0 from rfl, Nat.zero_mul, Nat.zero_add]) (V c main_call0_v5_1)

theorem iblk1_2_eq (c : Dev nD) (t : Fin cfg1.N) : (iblk1 V c 2 t : Vec Ideal S1x256 .f32) = V c main_call0_v6 :=
  Memref.read_access_unit_zero (Elt Ideal) main_call0_v6 (off := fun a => win1_2.index t a * main_call0_v6.ty.shape.size a)
    (funext fun a => Nat.zero_mul _) (fun a => by rw [show win1_2.index t a = 0 from rfl, Nat.zero_mul, Nat.zero_add]) (V c main_call0_v6)

/-- What the one point leaves for the output, at (p, q), over the three arrays. -/
theorem xoutBlk_apply (c : Dev nD) (t : Fin cfg1.N) (p : Fin 4096) (q : Fin 256) :
    xoutBlk V c t (ix2 p q)
      = (∑ k : Fin 32, matOf (V c main_v0_1) p k * matOf (V c main_call0_v5_1) k q) + matOf (V c main_call0_v6) 0 q := by
  unfold xoutBlk
  refine (pay1_apply _ _ _ p q).trans ?_
  rw [iblk1_0_eq V c t, iblk1_1_eq V c t, iblk1_2_eq V c t]
  rfl

/-! # The output array -/

/-- What the one point writes back is the whole of (Z M)(i, j) + b(j). -/
theorem xflushed_eq (c : Dev nD) (Z : Mat 4096 32) (M : Mat 32 256) (b : Fin 256 → EReal)
    (hz : matOf (V c main_v0_1) = Z) (hm : matOf (V c main_call0_v5_1) = M)
    (hb : ∀ j, V c main_call0_v6 (ix2 0 j) = b j) (t : Fin cfg1.N) :
    (dat1 (F := Ideal) V c).flushed 3 t
      = ((cfg1.win 3).blk t).view.read (Elt Ideal) (arrOf (fun i j => (∑ k : Fin 32, Z i k * M k j) + b j)) := by
  show (cfg1.win 3).cut (grid1.coords t) ((dat1 (F := Ideal) V c).after 3 t) = _
  rw [after1_3]
  refine Eq.trans ?_ (Memref.read_access_unit_zero (Elt Ideal) main_v0_0 (off := fun a => win1_3.index t a * main_v0_0.ty.shape.size a)
    (funext fun a => Nat.zero_mul _) (fun a => by rw [show win1_3.index t a = 0 from rfl, Nat.zero_mul, Nat.zero_add])
    (arrOf (fun i j => (∑ k : Fin 32, Z i k * M k j) + b j))).symm
  funext y
  obtain ⟨p, q, rfl⟩ : ∃ (p : Fin 4096) (q : Fin 256), y = ix2 p q := ⟨y 0, y 1, eq_ix2 y⟩
  refine (xoutBlk_apply V c t p q).trans ?_
  have hb' : b = fun j => matOf (V c main_call0_v6) 0 j := funext fun j => (hb j).symm
  subst hz hm hb'
  rfl

/-- The output array after the second kernel: (Z M)(i, j) + b(j), when its three input arrays hold
    Z, M and the bias as a one-row matrix. -/
theorem xArr_value (c : Dev nD) (Z : Mat 4096 32) (M : Mat 32 256) (b : Fin 256 → EReal)
    (hz : matOf (V c main_v0_1) = Z) (hm : matOf (V c main_call0_v5_1) = M)
    (hb : ∀ j, V c main_call0_v6 (ix2 0 j) = b j) :
    (dat1 (F := Ideal) V c).arrAt 3 cfg1.N = arrOf (fun i j => (∑ k : Fin 32, Z i k * M k j) + b j) :=
  (dat1 (F := Ideal) V c).arrAt_eq_of_cover 3 (arrOf (fun i j => (∑ k : Fin 32, Z i k * M k j) + b j))
    (fun t _ => xflushed_eq V c Z M b hz hm hb t) fun i =>
    ⟨t1_0, flush1_3 t1_0, by
      show i ∈ ((View.whole main_v0_0).slice (win1_3.rect t1_0)).set
      rw [View.set_slice_whole, Rect.mem_set_unit]
      intro a
      have hi : (i a : ℕ) < main_v0_0.ty.shape.size a := (i a).isLt
      show 0 * main_v0_0.ty.shape.size a ≤ (i a : ℕ) ∧ (i a : ℕ) < 0 * main_v0_0.ty.shape.size a + main_v0_0.ty.shape.size a
      omega⟩

end Cert.KernelIdeal.Hand

end
-- ==== Proof.Hand.KernelValue.lean ====
/-
  The kernel program's two results as the specification's matrices of the launch memory.

  The first kernel is entered with the arguments untouched and the biases as one-row matrices, so Z's
  array ends holding the specification's Z and the accumulator's array Zᵀ G.  The second kernel reads
  those two arrays and the last bias as a one-row matrix, so its output ends holding Z (Zᵀ G) + b₅.
-/
import proofs.«158643_g48112223650413_cont_sun_m_1297_5_alg».proof.Proof.Hand.HostVals
import proofs.«158643_g48112223650413_cont_sun_m_1297_5_alg».proof.Proof.Hand.Value0
import proofs.«158643_g48112223650413_cont_sun_m_1297_5_alg».proof.Proof.Hand.Value1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

open Idealize.ShloMosaic.ValueIdx Cert.Spec

variable (m : (ℓ : Loc nD τ sig) → Buf (Elt Ideal) ℓ)

/-- The specification's inputs read off core `c`'s launch memory. -/
abbrev Iof (c : Dev nD) : Inputs := inputsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Z's array after the first kernel holds the specification's Z. -/
theorem zArr_eq (c : Dev nD) : zArr m c = arrOf (code (Iof m c)) :=
  zArr_value (Vin0 m) c (Iof m c)
    (by rw [Vin0_of m c main_arg0 (by decide)]; rfl) (by rw [Vin0_of m c main_arg1 (by decide)]; rfl)
    (by rw [Vin0_of m c main_arg2 (by decide)]; rfl) (fun j => Vin0_v0_apply m c j)
    (by rw [Vin0_of m c main_arg4 (by decide)]; rfl) (fun j => Vin0_v1_apply m c j)
    (by rw [Vin0_of m c main_arg6 (by decide)]; rfl) (fun j => Vin0_v2_apply m c j)

/-- The accumulator's array after the first kernel holds Zᵀ G. -/
theorem mArr_eq (c : Dev nD) : mArr m c = arrOf (gram (Iof m c)) :=
  mArr_value (Vin0 m) c (Iof m c)
    (by rw [Vin0_of m c main_arg0 (by decide)]; rfl) (by rw [Vin0_of m c main_arg1 (by decide)]; rfl)
    (by rw [Vin0_of m c main_arg2 (by decide)]; rfl) (fun j => Vin0_v0_apply m c j)
    (by rw [Vin0_of m c main_arg4 (by decide)]; rfl) (fun j => Vin0_v1_apply m c j)
    (by rw [Vin0_of m c main_arg6 (by decide)]; rfl) (fun j => Vin0_v2_apply m c j)
    (by rw [Vin0_of m c main_arg8 (by decide)]; rfl) (fun j => Vin0_v3_apply m c j)
    (by rw [Vin0_of m c main_arg10 (by decide)]; rfl) (fun j => Vin0_v4_apply m c j)
    (by rw [Vin0_of m c main_arg12 (by decide)]; rfl)

/-- The first result's array after the second kernel holds Z (Zᵀ G) + b₅. -/
theorem xArr_eq (c : Dev nD) : xArr m c = arrOf (outAccum (Iof m c)) :=
  xArr_value (Vin1 m) c (code (Iof m c)) (gram (Iof m c)) (Iof m c).b5
    (by rw [Vin1_res1, zArr_eq]; rfl) (by rw [Vin1_acc, mArr_eq]; rfl) (fun j => Vin1_v6_apply m c j)

end Cert.KernelIdeal.Hand

end
-- ==== Proof.RefSide.lean ====
/-
  The reference program's two results, read as the specification's matrices.

  The reference computes, operation by operation, exactly the specification's stages: a product of
  two matrices is the sum over the contracted index of the products of entries; a bias is broadcast
  along the rows; the rectifier is a comparison with zero and a choice; the transpose swaps the two
  coordinates.  Its second result is Z and its first is (Z Zᵀ) G + b₅.
-/
import proofs.«158643_g48112223650413_cont_sun_m_1297_5_alg».proof.Proof.Gen.ReferenceIdeal.Run
import proofs.«158643_g48112223650413_cont_sun_m_1297_5_alg».proof.Proof.Gen.ReferenceIdeal.Read
import proofs.«158643_g48112223650413_cont_sun_m_1297_5_alg».proof.Proof.Interp
import Idealize.ShloMosaic.PureOps.Ideal.Laws
import Idealize.ShloMosaic.Lib.ValueIdx

noncomputable section

namespace Cert.RefSide

open Idealize.ShloMosaic Idealize.ShloMosaic.ValueIdx Cert.ReferenceIdeal Cert.ReferenceIdeal.Read Cert.Spec

/-! ### Reading one operation at an index -/

/-- Two rank-2 indices with the same coordinates are equal. -/
theorem idx2_ext {n0 n1 : ℕ} (u v : (⟨2, ![n0, n1]⟩ : Shape).Idx) (h0 : u 0 = v 0) (h1 : u 1 = v 1) : u = v := by
  funext a; match a with | ⟨0, _⟩ => exact h0 | ⟨1, _⟩ => exact h1

/-- Two rank-1 indices with the same coordinate are equal. -/
theorem idx1_ext {n : ℕ} (u v : (⟨1, ![n]⟩ : Shape).Idx) (h0 : u 0 = v 0) : u = v := by
  funext a; match a with | ⟨0, _⟩ => exact h0

/-- A sum over the contracted index of products of entries, the left factor read at (p, a) and the
    right at (a, q), is the (p, q) entry of the matrix product. -/
theorem sum_read {m k n : ℕ} (A : (⟨2, ![m, k]⟩ : Shape).Idx → EReal) (B : (⟨2, ![k, n]⟩ : Shape).Idx → EReal)
    (p : Fin m) (q : Fin n) (l : Fin k → (⟨2, ![m, k]⟩ : Shape).Idx) (r : Fin k → (⟨2, ![k, n]⟩ : Shape).Idx)
    (hl : ∀ a, l a = ix2 p a) (hr : ∀ a, r a = ix2 a q) :
    ∑ a, A (l a) * B (r a) = mm (matOf A) (matOf B) p q := by
  unfold mm matOf
  exact Finset.sum_congr rfl fun a _ => by rw [hl, hr]

/-- The comparison with zero and the choice between v and slope · v is the rectifier. -/
theorem leaky_read (v : Ideal .f32) :
    Scalar.select (FloatOps.cmpf .oge v (FloatOps.ofBits .f32 0x00000000#32)) v
      (FloatOps.mulf (FloatOps.ofBits .f32 0x3C23D70A#32) v) = leaky v := by
  show (if Ideal.cmp .oge v (Ideal.ofBits .f32 0x00000000#32) = 1 then v else Ideal.ofBits .f32 0x3C23D70A#32 * v)
      = if (0 : EReal) ≤ v then v else Cert.Spec.slope * v
  rw [Ideal.ofBits_zero_f32]
  unfold Ideal.cmp Cert.Spec.slope
  by_cases h : (0 : EReal) ≤ v <;> simp [h]

/-! ### The reference, stage by stage -/

section
variable
    (x0 : (⟨S4096x256, .f32⟩ : BufTy).Contents (Elt Ideal))
    (x1 : (⟨S4096x4096, .f32⟩ : BufTy).Contents (Elt Ideal))
    (x2 : (⟨S256x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal))
    (x6 : (⟨S64x32, .f32⟩ : BufTy).Contents (Elt Ideal))
    (x7 : (⟨S32, .f32⟩ : BufTy).Contents (Elt Ideal))
    (x8 : (⟨S32x64, .f32⟩ : BufTy).Contents (Elt Ideal))
    (x9 : (⟨S64, .f32⟩ : BufTy).Contents (Elt Ideal))
    (x10 : (⟨S64x128, .f32⟩ : BufTy).Contents (Elt Ideal))
    (x11 : (⟨S128, .f32⟩ : BufTy).Contents (Elt Ideal))
    (x12 : (⟨S128x256, .f32⟩ : BufTy).Contents (Elt Ideal))
    (x13 : (⟨S256, .f32⟩ : BufTy).Contents (Elt Ideal))

local notation "I" => inputsOf x0 x1 x2 x3 x4 x5 x6 x7 x8 x9 x10 x11 x12 x13

/-- X W₀. -/
theorem support_eq : val_main_v0 (F := Ideal) x0 x2 = arrOf (support I) := by
  funext i
  rw [val_main_v0_apply]
  exact sum_read x0 x2 (i 0) (i 1) (lidx_main_v0 i) (ridx_main_v0 i)
    (fun a => idx2_ext _ _ rfl rfl) (fun a => idx2_ext _ _ rfl rfl)

/-- A (X W₀) + b₀. -/
theorem pre1_eq : val_main_v4 (F := Ideal) x0 x1 x2 x3 = arrOf (affine (I).adj (support I) (I).b0) := by
  funext i
  rw [val_main_v4_apply, val_main_v1_apply, support_eq x0 x1 x2 x3 x4 x5 x6 x7 x8 x9 x10 x11 x12 x13,
    val_main_v3_apply, val_main_v2_apply,
    sum_read x1 (arrOf (support I)) (i 0) (i 1) (lidx_main_v1 i) (ridx_main_v1 i)
      (fun a => idx2_ext _ _ rfl rfl) (fun a => idx2_ext _ _ rfl rfl),
    show idx_main_v2 (idx_main_v3 i) = ix1 (i 1) from idx1_ext _ _ rfl]
  rfl

/-- H₁. -/
theorem hid1_eq : val_main_v9 (F := Ideal) x0 x1 x2 x3 = arrOf (hid1 I) := by
  funext i
  rw [val_main_v9_apply, val_main_v6_apply, val_main_v8_apply, val_main_v5_apply, val_main_cst_apply,
    val_main_v7_apply, val_main_cst_0_apply]
  refine (leaky_read _).trans ?_
  rw [pre1_eq x0 x1 x2 x3 x4 x5 x6 x7 x8 x9 x10 x11 x12 x13]
  rfl

/-- H₁ W₁ + b₁. -/
theorem pre2_eq : val_main_v13 (F := Ideal) x0 x1 x2 x3 x4 x5 = arrOf (affine (hid1 I) (I).w1 (I).b1) := by
  funext i
  rw [val_main_v13_apply, val_main_v10_apply, hid1_eq x0 x1 x2 x3 x4 x5 x6 x7 x8 x9 x10 x11 x12 x13,
    val_main_v12_apply, val_main_v11_apply,
    sum_read (arrOf (hid1 I)) x4 (i 0) (i 1) (lidx_main_v10 i) (ridx_main_v10 i)
      (fun a => idx2_ext _ _ rfl rfl) (fun a => idx2_ext _ _ rfl rfl),
    show idx_main_v11 (idx_main_v12 i) = ix1 (i 1) from idx1_ext _ _ rfl]
  rfl

/-- H₂. -/
theorem hid2_eq : val_main_v18 (F := Ideal) x0 x1 x2 x3 x4 x5 = arrOf (hid2 I) := by
  funext i
  rw [val_main_v18_apply, val_main_v15_apply, val_main_v17_apply, val_main_v14_apply, val_main_cst_1_apply,
    val_main_v16_apply, val_main_cst_2_apply]
  refine (leaky_read _).trans ?_
  rw [pre2_eq x0 x1 x2 x3 x4 x5 x6 x7 x8 x9 x10 x11 x12 x13]
  rfl

/-- Z = H₂ W₂ + b₂. -/
theorem code_eq : val_main_v22 (F := Ideal) x0 x1 x2 x3 x4 x5 x6 x7 = arrOf (code I) := by
  funext i
  rw [val_main_v22_apply, val_main_v19_apply, hid2_eq x0 x1 x2 x3 x4 x5 x6 x7 x8 x9 x10 x11 x12 x13,
    val_main_v21_apply, val_main_v20_apply,
    sum_read (arrOf (hid2 I)) x6 (i 0) (i 1) (lidx_main_v19 i) (ridx_main_v19 i)
      (fun a => idx2_ext _ _ rfl rfl) (fun a => idx2_ext _ _ rfl rfl),
    show idx_main_v20 (idx_main_v21 i) = ix1 (i 1) from idx1_ext _ _ rfl]
  rfl

/-- Z Zᵀ: the transpose reads Z with its coordinates swapped. -/
theorem zzt_eq : val_main_v24 (F := Ideal) x0 x1 x2 x3 x4 x5 x6 x7
    = arrOf (fun p a => ∑ k : Fin 32, code I p k * code I a k) := by
  funext i
  rw [val_main_v24_apply]
  show _ = ∑ k : Fin 32, code I (i 0) k * code I (i 1) k
  refine Finset.sum_congr rfl fun k _ => ?_
  rw [val_main_v23_apply, code_eq x0 x1 x2 x3 x4 x5 x6 x7 x8 x9 x10 x11 x12 x13]
  rfl

/-- Z W₃ + b₃. -/
theorem pre3_eq : val_main_v28 (F := Ideal) x0 x1 x2 x3 x4 x5 x6 x7 x8 x9 = arrOf (affine (code I) (I).w3 (I).b3) := by
  funext i
  rw [val_main_v28_apply, val_main_v25_apply, code_eq x0 x1 x2 x3 x4 x5 x6 x7 x8 x9 x10 x11 x12 x13,
    val_main_v27_apply, val_main_v26_apply,
    sum_read (arrOf (code I)) x8 (i 0) (i 1) (lidx_main_v25 i) (ridx_main_v25 i)
      (fun a => idx2_ext _ _ rfl rfl) (fun a => idx2_ext _ _ rfl rfl),
    show idx_main_v26 (idx_main_v27 i) = ix1 (i 1) from idx1_ext _ _ rfl]
  rfl

/-- D₁. -/
theorem dec1_eq : val_main_v33 (F := Ideal) x0 x1 x2 x3 x4 x5 x6 x7 x8 x9 = arrOf (dec1 I) := by
  funext i
  rw [val_main_v33_apply, val_main_v30_apply, val_main_v32_apply, val_main_v29_apply, val_main_cst_3_apply,
    val_main_v31_apply, val_main_cst_4_apply]
  refine (leaky_read _).trans ?_
  rw [pre3_eq x0 x1 x2 x3 x4 x5 x6 x7 x8 x9 x10 x11 x12 x13]
  rfl

/-- D₁ W₄ + b₄. -/
theorem pre4_eq : val_main_v37 (F := Ideal) x0 x1 x2 x3 x4 x5 x6 x7 x8 x9 x10 x11 = arrOf (affine (dec1 I) (I).w4 (I).b4) := by
  funext i
  rw [val_main_v37_apply, val_main_v34_apply, dec1_eq x0 x1 x2 x3 x4 x5 x6 x7 x8 x9 x10 x11 x12 x13,
    val_main_v36_apply, val_main_v35_apply,
    sum_read (arrOf (dec1 I)) x10 (i 0) (i 1) (lidx_main_v34 i) (ridx_main_v34 i)
      (fun a => idx2_ext _ _ rfl rfl) (fun a => idx2_ext _ _ rfl rfl),
    show idx_main_v35 (idx_main_v36 i) = ix1 (i 1) from idx1_ext _ _ rfl]
  rfl

/-- D₂. -/
theorem dec2_eq : val_main_v42 (F := Ideal) x0 x1 x2 x3 x4 x5 x6 x7 x8 x9 x10 x11 = arrOf (dec2 I) := by
  funext i
  rw [val_main_v42_apply, val_main_v39_apply, val_main_v41_apply, val_main_v38_apply, val_main_cst_5_apply,
    val_main_v40_apply, val_main_cst_6_apply]
  refine (leaky_read _).trans ?_
  rw [pre4_eq x0 x1 x2 x3 x4 x5 x6 x7 x8 x9 x10 x11 x12 x13]
  rfl

/-- G = D₂ W₅. -/
theorem proj_eq : val_main_v43 (F := Ideal) x0 x1 x2 x3 x4 x5 x6 x7 x8 x9 x10 x11 x12 = arrOf (proj I) := by
  funext i
  rw [val_main_v43_apply, dec2_eq x0 x1 x2 x3 x4 x5 x6 x7 x8 x9 x10 x11 x12 x13]
  exact sum_read (arrOf (dec2 I)) x12 (i 0) (i 1) (lidx_main_v43 i) (ridx_main_v43 i)
    (fun a => idx2_ext _ _ rfl rfl) (fun a => idx2_ext _ _ rfl rfl)

/-- (Z Zᵀ) G + b₅. -/
theorem out_eq : val_main_v47 (F := Ideal) x0 x1 x2 x3 x4 x5 x6 x7 x8 x9 x10 x11 x12 x13 = arrOf (outDense I) := by
  funext i
  rw [val_main_v47_apply, val_main_v44_apply, zzt_eq x0 x1 x2 x3 x4 x5 x6 x7 x8 x9 x10 x11 x12 x13, proj_eq x0 x1 x2 x3 x4 x5 x6 x7 x8 x9 x10 x11 x12 x13,
    val_main_v46_apply, val_main_v45_apply,
    show idx_main_v45 (idx_main_v46 i) = ix1 (i 1) from idx1_ext _ _ rfl]
  rfl

end

/-- The reference's second result is Z. -/
theorem ref_code
    (x0 : (⟨S4096x256, .f32⟩ : BufTy).Contents (Elt Ideal))
    (x1 : (⟨S4096x4096, .f32⟩ : BufTy).Contents (Elt Ideal))
    (x2 : (⟨S256x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal))
    (x6 : (⟨S64x32, .f32⟩ : BufTy).Contents (Elt Ideal))
    (x7 : (⟨S32, .f32⟩ : BufTy).Contents (Elt Ideal))
    (x8 : (⟨S32x64, .f32⟩ : BufTy).Contents (Elt Ideal))
    (x9 : (⟨S64, .f32⟩ : BufTy).Contents (Elt Ideal))
    (x10 : (⟨S64x128, .f32⟩ : BufTy).Contents (Elt Ideal))
    (x11 : (⟨S128, .f32⟩ : BufTy).Contents (Elt Ideal))
    (x12 : (⟨S128x256, .f32⟩ : BufTy).Contents (Elt Ideal))
    (x13 : (⟨S256, .f32⟩ : BufTy).Contents (Elt Ideal)) :
    val_main_v22 (F := Ideal) x0 x1 x2 x3 x4 x5 x6 x7 = arrOf (code (inputsOf x0 x1 x2 x3 x4 x5 x6 x7 x8 x9 x10 x11 x12 x13)) :=
  code_eq x0 x1 x2 x3 x4 x5 x6 x7 x8 x9 x10 x11 x12 x13

/-- The reference's first result is (Z Zᵀ) G + b₅. -/
theorem ref_out
    (x0 : (⟨S4096x256, .f32⟩ : BufTy).Contents (Elt Ideal))
    (x1 : (⟨S4096x4096, .f32⟩ : BufTy).Contents (Elt Ideal))
    (x2 : (⟨S256x128, .f32⟩ : BufTy).Contents (Elt Ideal))
    (x3 : (⟨S128, .f32⟩ : BufTy).Contents (Elt Ideal))
    (x4 : (⟨S128x64, .f32⟩ : BufTy).Contents (Elt Ideal))
    (x5 : (⟨S64, .f32⟩ : BufTy).Contents (Elt Ideal))
    (x6 : (⟨S64x32, .f32⟩ : BufTy).Contents (Elt Ideal))
    (x7 : (⟨S32, .f32⟩ : BufTy).Contents (Elt Ideal))
    (x8 : (⟨S32x64, .f32⟩ : BufTy).Contents (Elt Ideal))
    (x9 : (⟨S64, .f32⟩ : BufTy).Contents (Elt Ideal))
    (x10 : (⟨S64x128, .f32⟩ : BufTy).Contents (Elt Ideal))
    (x11 : (⟨S128, .f32⟩ : BufTy).Contents (Elt Ideal))
    (x12 : (⟨S128x256, .f32⟩ : BufTy).Contents (Elt Ideal))
    (x13 : (⟨S256, .f32⟩ : BufTy).Contents (Elt Ideal)) :
    val_main_v47 (F := Ideal) x0 x1 x2 x3 x4 x5 x6 x7 x8 x9 x10 x11 x12 x13 = arrOf (outDense (inputsOf x0 x1 x2 x3 x4 x5 x6 x7 x8 x9 x10 x11 x12 x13)) :=
  out_eq x0 x1 x2 x3 x4 x5 x6 x7 x8 x9 x10 x11 x12 x13

end Cert.RefSide

end
-- ==== Proof.Finite.lean ====
/-
  From the precondition to real entries.

  The precondition evaluates, for each of the fourteen argument arrays, "every entry has absolute
  value below +∞" and conjoins the fourteen answers.  On the extended reals an entry whose absolute
  value is below +∞ is neither infinity, so it is a real number.
-/
import proofs.«158643_g48112223650413_cont_sun_m_1297_5_alg».proof.Pre_finite_inputs
import proofs.«158643_g48112223650413_cont_sun_m_1297_5_alg».proof.Proof.Gen.Pre_finite_inputs
import proofs.«158643_g48112223650413_cont_sun_m_1297_5_alg».proof.Proof.Interp
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- A rank-0 shape has one index. -/
instance : Subsingleton S_.Idx := ⟨fun a b => funext fun d => d.elim0⟩

/-- One argument's answer, read back: if "every entry has absolute value below +∞" came out true for
    an array of any shape, every entry of the array is a real number. -/
theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ix0 = 1#1)
    (i : s.Idx) : ∃ r : ℝ, a i = r := by
  -- the conjunction over all entries is true, so the comparison at entry i is
  have hi := Host.reduce_andi_all _ _ hr hu ix0 e i
  apply real_of_abs_lt_top
  simp only [cmpf, Host.absf, broadcastInDim, constant] at hi
  -- the pattern 0x7F800000 (exponent all ones, fraction zero, sign clear) denotes +∞
  have htop : FloatOps.ofBits (F := Ideal) .f32 0x7F800000#32 = (⊤ : EReal) := by
    show Ideal.ofBits .f32 0x7F800000#32 = ⊤
    simp [Ideal.ofBits, Ideal.ieee]
  rw [htop, Ideal.cmpf_def, Ideal.hostAbsf_def, Ideal.absf_def] at hi
  simp only [Ideal.cmp] at hi
  by_contra hn
  rw [decide_eq_false hn] at hi
  exact absurd hi (by decide)

/-- If the precondition's function, read on the extended reals, answers "true" on fourteen arrays,
    every entry of each of them is a real number. -/
theorem inputs_real [Cert.Pre_finite_inputs.Facts]
    (a0 : FVec Ideal S4096x256 .f32) (a1 : FVec Ideal S4096x4096 .f32) (a2 : FVec Ideal S256x128 .f32)
    (a3 : FVec Ideal S128 .f32) (a4 : FVec Ideal S128x64 .f32) (a5 : FVec Ideal S64 .f32)
    (a6 : FVec Ideal S64x32 .f32) (a7 : FVec Ideal S32 .f32) (a8 : FVec Ideal S32x64 .f32)
    (a9 : FVec Ideal S64 .f32) (a10 : FVec Ideal S64x128 .f32) (a11 : FVec Ideal S128 .f32)
    (a12 : FVec Ideal S128x256 .f32) (a13 : FVec Ideal S256 .f32)
    (h : Cert.Pre_finite_inputs.fn (F := Ideal) a0 a1 a2 a3 a4 a5 a6 a7 a8 a9 a10 a11 a12 a13 = fun _ => 1#1) :
    (Cert.Spec.inputsOf a0 a1 a2 a3 a4 a5 a6 a7 a8 a9 a10 a11 a12 a13).Real := by
  -- the one entry of the rank-0 answer; unfolded, it is the conjunction of the fourteen answers
  have h0 := congrFun h ix0
  dsimp only [fn, fn_part1, fn_part2, fn_part3, fn_part4] at h0
  simp only [andi, IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨fun i j => entries_real a0 _ _ _ e0 (ix2 i j), fun i j => entries_real a1 _ _ _ e1 (ix2 i j),
    fun i j => entries_real a2 _ _ _ e2 (ix2 i j), fun j => entries_real a3 _ _ _ e3 (ix1 j),
    fun i j => entries_real a4 _ _ _ e4 (ix2 i j), fun j => entries_real a5 _ _ _ e5 (ix1 j),
    fun i j => entries_real a6 _ _ _ e6 (ix2 i j), fun j => entries_real a7 _ _ _ e7 (ix1 j),
    fun i j => entries_real a8 _ _ _ e8 (ix2 i j), fun j => entries_real a9 _ _ _ e9 (ix1 j),
    fun i j => entries_real a10 _ _ _ e10 (ix2 i j), fun j => entries_real a11 _ _ _ e11 (ix1 j),
    fun i j => entries_real a12 _ _ _ e12 (ix2 i j), fun j => entries_real a13 _ _ _ e13 (ix1 j)⟩

end Cert.Finite

end
-- ==== Proof.Assembly.lean ====
/-
  The claims about the two idealized programs.

  Both idealized programs run to the end and leave their arguments as they found them: the kernel
  program by its run through its four items, the reference by its run as a list of host operations.
  On memories that agree on the arguments the two programs' results are equal: the second result is Z
  on both sides; the first is Z (Zᵀ G) + b₅ on the kernel side and (Z Zᵀ) G + b₅ on the reference
  side, equal because the precondition makes every input entry a real number, hence every entry of Z
  and G, and on real entries the matrix product is associative.
-/
import proofs.«158643_g48112223650413_cont_sun_m_1297_5_alg».proof.Defs
import proofs.«158643_g48112223650413_cont_sun_m_1297_5_alg».proof.Proof.Gen.KernelIdeal
import proofs.«158643_g48112223650413_cont_sun_m_1297_5_alg».proof.Proof.Gen.ReferenceIdeal
import proofs.«158643_g48112223650413_cont_sun_m_1297_5_alg».proof.Proof.Gen.Pre_finite_inputs
import proofs.«158643_g48112223650413_cont_sun_m_1297_5_alg».proof.Proof.Gen.ReferenceIdeal.Run
import proofs.«158643_g48112223650413_cont_sun_m_1297_5_alg».proof.Proof.Gen.ReferenceIdeal.Read
import proofs.«158643_g48112223650413_cont_sun_m_1297_5_alg».proof.Proof.Hand.Main
import proofs.«158643_g48112223650413_cont_sun_m_1297_5_alg».proof.Proof.Hand.KernelValue
import proofs.«158643_g48112223650413_cont_sun_m_1297_5_alg».proof.Proof.RefSide
import proofs.«158643_g48112223650413_cont_sun_m_1297_5_alg».proof.Proof.Finite
import proofs.«158643_g48112223650413_cont_sun_m_1297_5_alg».proof.Proof.SpecLaws

noncomputable section

namespace Cert.Proof.Ideal

open Idealize.ShloMosaic Idealize.ShloMosaic.TcCoe Idealize.SL.Sem Cert.Spec

/-- The idealized kernel program runs and leaves its arguments unchanged. -/
theorem frame_ki : Cert.frame_KernelIdeal := fun m ρ _ =>
  (θ_run Cert.KernelIdeal.defs _ _).mono (fun _ h c => (h c).2.2) (Cert.KernelIdeal.Hand.run_all (F := Ideal) m ρ)

/-- The idealized reference runs and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- On memories agreeing on the arguments, both idealized programs run, with equal results. -/
theorem algebraic : Cert.algebraic_KernelIdeal_ReferenceIdeal := by
  intro m ρ m' ρ' hpre hagree
  refine ⟨fun c => Cert.KernelIdeal.Hand.xArr m c, fun c => Cert.KernelIdeal.Hand.zArr m c,
    Cert.KernelIdeal.Hand.run_all (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the first result: (Z Zᵀ) G + b₅ of the reference's arguments, which are the kernel's, is Z (Zᵀ G) + b₅
    rw [Cert.ReferenceIdeal.Read.val_main_v47_eq, Cert.RefSide.ref_out,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact ((Cert.KernelIdeal.Hand.xArr_eq m c).trans (congrArg arrOf
      (outAccum_eq_outDense _ (Cert.Finite.inputs_real _ _ _ _ _ _ _ _ _ _ _ _ _ _ (hpre c))))).symm
  · -- the second result: Z on both sides
    rw [Cert.ReferenceIdeal.Read.val_main_v22_eq,
      Cert.RefSide.ref_code _ _ _ _ _ _ _ _
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13)),
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KernelIdeal.Hand.zArr_eq m c).symm

end Cert.Proof.Ideal

end
-- ==== Proof.HandK.Data.lean ====
/-
  What the two kernels' windows hold, point by point.

  The first kernel walks the adjacency's eight row blocks of 512 rows.  At the first block it forms
  the support matrix X W₀ once and keeps it in a scratch buffer for all later blocks, and it sets the
  32 × 256 accumulator to zero.  At every block it forms that block's rows of Z (from the block's two
  column halves of the adjacency against the two row halves of the support matrix), writes them out,
  forms the block's rows of G, and adds (block of Z)ᵀ (block of G) to the accumulator.  The
  accumulator's block index never moves, so it is written out once, after the last block.

  The second kernel has one point: it reads Z, the accumulator and the last bias whole, and writes
  Z · accumulator + bias.

  Both are stated here over the contents `V` of the core's buffers when the kernel is entered.
-/
import proofs.«158643_g48112223650413_cont_sun_m_1297_5_alg».proof.Proof.Gen.Kernel.Launch
import proofs.«158643_g48112223650413_cont_sun_m_1297_5_alg».proof.Proof.Gen.Kernel.Skeleton
import proofs.«158643_g48112223650413_cont_sun_m_1297_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a kernel is entered
variable (V : (c : Dev nD) → (b : Ref sig .tc) → Buf (Elt F) ((c : Thread nD τ).loc b))

/-! # The first kernel (eight points) -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks by name, at their literal shapes: the features, the adjacency block's left and right
    column halves, and the six layers' weights and biases. -/
abbrev bX (c : Dev nD) (t : Fin cfg0.N) : Vec F S4096x256 .f32 := iblk0 V c 0 t
abbrev bAL (c : Dev nD) (t : Fin cfg0.N) : Vec F S512x2048 .f32 := iblk0 V c 1 t
abbrev bAR (c : Dev nD) (t : Fin cfg0.N) : Vec F S512x2048 .f32 := iblk0 V c 2 t
abbrev bW0 (c : Dev nD) (t : Fin cfg0.N) : Vec F S256x128 .f32 := iblk0 V c 3 t
abbrev bB0 (c : Dev nD) (t : Fin cfg0.N) : Vec F S1x128 .f32 := iblk0 V c 4 t
abbrev bW1 (c : Dev nD) (t : Fin cfg0.N) : Vec F S128x64 .f32 := iblk0 V c 5 t
abbrev bB1 (c : Dev nD) (t : Fin cfg0.N) : Vec F S1x64 .f32 := iblk0 V c 6 t
abbrev bW2 (c : Dev nD) (t : Fin cfg0.N) : Vec F S64x32 .f32 := iblk0 V c 7 t
abbrev bB2 (c : Dev nD) (t : Fin cfg0.N) : Vec F S1x32 .f32 := iblk0 V c 8 t
abbrev bW3 (c : Dev nD) (t : Fin cfg0.N) : Vec F S32x64 .f32 := iblk0 V c 9 t
abbrev bB3 (c : Dev nD) (t : Fin cfg0.N) : Vec F S1x64 .f32 := iblk0 V c 10 t
abbrev bW4 (c : Dev nD) (t : Fin cfg0.N) : Vec F S64x128 .f32 := iblk0 V c 11 t
abbrev bB4 (c : Dev nD) (t : Fin cfg0.N) : Vec F S1x128 .f32 := iblk0 V c 12 t
abbrev bW5 (c : Dev nD) (t : Fin cfg0.N) : Vec F S128x256 .f32 := iblk0 V c 13 t

/-- The scratch buffer that keeps the support matrix between points. -/
abbrev scM : Memref sig .tc .vmem S4096x128 .bf16 := Memref.whole cc0_scratch0
/-- Its first 2048 rows and its last 2048 rows. -/
abbrev rLo : Rect S4096x128 := Rect.unit (s := S4096x128) ![0, 0] S2048x128.size Facts₀.inb_S4096x128_S2048x128_0_0
abbrev rHi : Rect S4096x128 := Rect.unit (s := S4096x128) ![2048, 0] S2048x128.size Facts₀.inb_S4096x128_S2048x128_2048_0

/-- The support matrix X W₀, formed at the first point from the features and the first weight. -/
def supp (c : Dev nD) : FVec F S4096x128 .bf16 := k0_pay2 (bX V c t0_0) (bW0 V c t0_0)

/-- H₂'s rows of the block at point `t`. -/
def hBlk (c : Dev nD) (t : Fin cfg0.N) : FVec F S512x64 .f32 :=
  k0_pay4 (bB0 V c t) (bAL V c t) (View.ld (supp V c) rLo) (bAR V c t) (View.ld (supp V c) rHi) (bW1 V c t) (bB1 V c t)

/-- Z's rows of the block at point `t`: what the kernel writes out there. -/
def zBlk (c : Dev nD) (t : Fin cfg0.N) : FVec F S512x32 .f32 := k0_pay5 (hBlk V c t) (bW2 V c t) (bB2 V c t)

/-- (block of Z)ᵀ (block of G) at point `t`. -/
def zgBlk (c : Dev nD) (t : Fin cfg0.N) : FVec F S32x256 .f32 :=
  k0_pay7 (hBlk V c t) (bW2 V c t) (bB2 V c t) (bW3 V c t) (bB3 V c t) (bW4 V c t) (bB4 V c t) (bW5 V c t)

/-- The accumulator after point `n`: zero plus the first block's term, then one more term a point. -/
def mAcc (c : Dev nD) : (n : ℕ) → n < cfg0.N → FVec F S32x256 .f32
  | 0, h => k0_pay1 (k0_pay6 k0_pay3) (zgBlk V c ⟨0, h⟩)
  | n + 1, h => k0_pay1 (k0_pay6 (mAcc c n (Nat.lt_of_succ_lt h))) (zgBlk V c ⟨n + 1, h⟩)

theorem mAcc_zero (c : Dev nD) (h : 0 < cfg0.N) : mAcc V c 0 h = k0_pay1 (k0_pay6 k0_pay3) (zgBlk V c ⟨0, h⟩) := rfl
theorem mAcc_succ (c : Dev nD) (n : ℕ) (h : n + 1 < cfg0.N) :
    mAcc V c (n + 1) h = k0_pay1 (k0_pay6 (mAcc V c n (Nat.lt_of_succ_lt h))) (zgBlk V c ⟨n + 1, h⟩) := rfl

/-- The second kernel's four staging buffers, which the first kernel never touches: each holds anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- The kernel's invariant before point `n`: before the first point the scratch holds anything;
    afterwards it holds the support matrix.  The second kernel's staging buffers and the generator
    register ride along. -/
def PhiS (c : Dev nD) : (n : ℕ) → n ≤ cfg0.N → sProp 𝕄
  | 0, _ => Pipeline.ΦA spec0 c
  | _ + 1, _ => iprop((owns (c : Thread nD τ) scM fullShare (supp V c) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_pos (c : Dev nD) (n : ℕ) (h : n ≤ cfg0.N) (hz : n ≠ 0) :
    PhiS V c n h = iprop((owns (c : Thread nD τ) scM fullShare (supp V c) ∗ rest0 c) ∗ (∃ r, prngReg c r)) := by
  cases n with
  | zero => exact absurd rfl hz
  | succ n => rfl

/-- The first kernel's proof data on core `c`.  The adjacency is handed to the kernel twice (its
    left and its right column halves are separate windows on the one array), so those two windows
    each hold half of the array's share; every other input holds its array outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => zBlk V c t
    | ⟨15, _⟩ => mAcc V c t.val t.isLt
    | ⟨_ + 16, h⟩ => absurd h (Nat.not_lt.2 (Nat.le_add_left _ _))
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS V c t.val (Nat.le_of_lt t.isLt) := by
  dsimp only [dat0]; simp only [Fin.coe_castSucc]

theorem after0_14 (c : Dev nD) (t : Fin cfg0.N) : (dat0 V c).after 14 t = zBlk V c t := by dsimp only [dat0]
theorem after0_15 (c : Dev nD) (t : Fin cfg0.N) : (dat0 V c).after 15 t = mAcc V c t.val t.isLt := by dsimp only [dat0]

/-! # The second kernel (one point) -/

/-- Window `w`'s block at the one point, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Z · accumulator + bias, from the three arrays read whole. -/
def xoutBlk (c : Dev nD) (t : Fin cfg1.N) : FVec F S4096x256 .f32 :=
  k1_pay1 (iblk1 V c 0 t : Vec F S4096x32 .f32) (iblk1 V c 1 t : Vec F S32x256 .f32) (iblk1 V c 2 t : Vec F S1x256 .f32)

/-- The second kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => xoutBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = xoutBlk V c t := by dsimp only [dat1]

end Cert.Kernel.Hand

end
-- ==== Proof.HandK.RunCond.lean ====
/-
  The whole program's run, with its two results named.

  The program is four items in a row: a stretch of reshapes of the biases, the first kernel, one more
  reshape, the second kernel.  Between two items the core's buffers hold known contents: the launch
  memory, then the reshapes' results, then whatever the first kernel leaves in its two output
  arrays, and so on.  Given each kernel's record of obligations, the items chain, the program
  terminates, and the final memory is read off the last item's contents: the arguments untouched, the
  two results at what the kernels left in them.
-/
import proofs.«158643_g48112223650413_cont_sun_m_1297_5_alg».proof.Proof.Gen.Kernel.Regions

set_option maxRecDepth 2560

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (outs : Outs (F := F))

/-- After the last item the first result's buffer holds what the second kernel left in it. -/
theorem V4_res0 (c : Dev nD) : V4 m outs c main_v0_0 = outs 4 main_v0_0 c := by
  simp only [V4, Function.update_self]

/-- After the last item the second result's buffer holds what the first kernel left in it: neither
    the later reshape nor the second kernel writes it. -/
theorem V4_res1 (c : Dev nD) : V4 m outs c main_v0_1 = outs 2 main_v0_1 c :=
  (V4_of m outs c main_v0_1 (by decide)).trans <| (V3_of m outs c main_v0_1 (by decide)).trans <| by
    simp only [V2, Function.update_of_ne (StableHlo.devRef_ne_of_ne (by decide) : (Proc.devRef .tc main_v0_1 : DevRef τ sig) ≠ Proc.devRef .tc main_call0_v5_1), Function.update_self]

set_option backward.isDefEq.respectTransparency.types false in
/-- THE RUN WITH ITS RESULTS NAMED.  Given, per kernel, a segment record entered from the buffers' contents
    before it and left at the contents after it, every weakly fair execution of the program from memory `m`
    terminates; the first result's buffer ends at what the second kernel leaves in it, the second result's at
    what the first kernel leaves in it, and every argument's buffer ends as it began. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v0_0) = outs 4 main_v0_0 c
      ∧ r.2.mem ((c.tc : Thread nD τ).loc main_v0_1) = outs 2 main_v0_1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v0_0) = outs 4 main_v0_0 c ∧ s.mem ((c.tc : Thread nD τ).loc main_v0_1) = outs 2 main_v0_1 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- at launch every buffer outside a kernel's scope holds the launch memory; what else the launch deals makes
    -- the state that rides beside the buffers, on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the final memory agrees with the contents after the last item: the two results at what the
    -- kernels left, each argument at the launch memory, since no item writes an argument
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v0_0) (Finset.mem_filter.mpr ⟨StableHlo.devRef_mem_tcRefs main_v0_0, by decide⟩)).trans (V4_res0 m outs c),
        (h (Proc.devRef .tc main_v0_1) (Finset.mem_filter.mpr ⟨StableHlo.devRef_mem_tcRefs main_v0_1, by decide⟩)).trans (V4_res1 m outs c),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_arg7) (Finset.mem_filter.mpr ⟨StableHlo.devRef_mem_tcRefs main_arg7, by decide⟩)).trans (V4_main_arg7 m outs c),
        (h (Proc.devRef .tc main_arg8) (Finset.mem_filter.mpr ⟨StableHlo.devRef_mem_tcRefs main_arg8, by decide⟩)).trans (V4_main_arg8 m outs c),
        (h (Proc.devRef .tc main_arg9) (Finset.mem_filter.mpr ⟨StableHlo.devRef_mem_tcRefs main_arg9, by decide⟩)).trans (V4_main_arg9 m outs c),
        (h (Proc.devRef .tc main_arg10) (Finset.mem_filter.mpr ⟨StableHlo.devRef_mem_tcRefs main_arg10, by decide⟩)).trans (V4_main_arg10 m outs c),
        (h (Proc.devRef .tc main_arg11) (Finset.mem_filter.mpr ⟨StableHlo.devRef_mem_tcRefs main_arg11, by decide⟩)).trans (V4_main_arg11 m outs c),
        (h (Proc.devRef .tc main_arg12) (Finset.mem_filter.mpr ⟨StableHlo.devRef_mem_tcRefs main_arg12, by decide⟩)).trans (V4_main_arg12 m outs c),
        (h (Proc.devRef .tc main_arg13) (Finset.mem_filter.mpr ⟨StableHlo.devRef_mem_tcRefs main_arg13, by decide⟩)).trans (V4_main_arg13 m outs c)⟩
    · iexact HSI

end Cert.Kernel.Hand

end
-- ==== Proof.HandK.Regs.lean ====
/-
  The two kernels' proof data, placed in the program.

  The first kernel is entered after the biases' reshapes; what it leaves in its two output arrays
  (Z and the accumulator) is named here, as is what the second kernel, entered after one more
  reshape, leaves in its output array.  These are the contents the program's later items, and its
  end, find in those arrays.
-/
import proofs.«158643_g48112223650413_cont_sun_m_1297_5_alg».proof.Proof.HandK.Data
import proofs.«158643_g48112223650413_cont_sun_m_1297_5_alg».proof.Proof.HandK.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0

/-- The core's buffers when the first kernel is entered: the launch memory after the biases' reshapes. -/
abbrev Vin0 (c : Dev nD) (b : Ref sig .tc) : Buf (Elt F) ((c : Thread nD τ).loc b) := V1 m c b

/-- What the first kernel leaves in Z's array: its eight row blocks written out one by one. -/
def zArr (c : Dev nD) : Buf (Elt F) ((c : Thread nD τ).loc main_v0_1) := (dat0 (Vin0 m) c).arrAt 14 cfg0.N
/-- What it leaves in the accumulator's array: the accumulator after the last point, written out once. -/
def mArr (c : Dev nD) : Buf (Elt F) ((c : Thread nD τ).loc main_call0_v5_1) := (dat0 (Vin0 m) c).arrAt 15 cfg0.N

/-- The arrays the first kernel writes, at what it leaves in them (any other buffer: as launched). -/
def outsA : Outs (F := F) := fun _ r c =>
  if h : r = main_v0_1 then h ▸ zArr m c
  else if h' : r = main_call0_v5_1 then h' ▸ mArr m c
  else m ((c : Thread nD τ).loc r)

/-- The core's buffers when the second kernel is entered: after the first kernel and the last bias's reshape. -/
abbrev Vin1 (c : Dev nD) (b : Ref sig .tc) : Buf (Elt F) ((c : Thread nD τ).loc b) := V3 m (outsA m) c b

/-- What the second kernel leaves in the first result's array. -/
def xArr (c : Dev nD) : Buf (Elt F) ((c : Thread nD τ).loc main_v0_0) := (dat1 (Vin1 m) c).arrAt 3 cfg1.N

/-- Every array a kernel writes, at what the kernel leaves in it. -/
def outs : Outs (F := F) := fun J r c =>
  if h : r = main_v0_0 then h ▸ xArr m c else outsA m J r c

theorem outs_res1 (c : Dev nD) : outs m 2 main_v0_1 c = zArr m c := by
  unfold outs outsA; rw [dif_neg (by decide), dif_pos rfl]
theorem outs_acc (c : Dev nD) : outs m 2 main_call0_v5_1 c = mArr m c := by
  unfold outs outsA; rw [dif_neg (by decide), dif_neg (by decide), dif_pos rfl]
theorem outs_res0 (c : Dev nD) : outs m 4 main_v0_0 c = xArr m c := by
  unfold outs; rw [dif_pos rfl]
theorem outsA_res1 (c : Dev nD) : outsA m 2 main_v0_1 c = zArr m c := by
  unfold outsA; rw [dif_pos rfl]
theorem outsA_acc (c : Dev nD) : outsA m 2 main_call0_v5_1 c = mArr m c := by
  unfold outsA; rw [dif_neg (by decide), dif_pos rfl]

/-- The buffers after the first kernel do not depend on what the second kernel leaves. -/
theorem V2_outs (c : Dev nD) : V2 m (outs m) c = V2 m (outsA m) c := by
  simp only [V2, outs_res1, outs_acc, outsA_res1, outsA_acc]
theorem V3_outs (c : Dev nD) : V3 m (outs m) c = V3 m (outsA m) c :=
  congrArg (StableHlo.after hostOps1) (V2_outs m c)

/-- Each kernel's proof data at the contents it is entered from: a literal match on the kernel. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- What rides beside the buffers through every item: the generator register at some state, and the
    core owing nothing. -/
abbrev E (_ : Fin 3) (c : Dev nD) : sProp 𝕄 :=
  iprop((∃ r, prngReg c r) ∗ ∃ W, owes (c : Thread nD τ) (0 : CellTallies nD τ sig Unit) W)

end Cert.Kernel.Hand

end
-- ==== Proof.HandK.Body0Run.lean ====
/-
  The first kernel's body, run once over whole buffers.

  The body branches once, on whether the grid coordinate is zero.  Where it is, the body first stores
  the support matrix (from the features and the first weight) into the scratch and zero into the
  accumulator's buffer.  In either case it then reads the scratch's two row halves against the
  adjacency block's two column halves, forms the block's rows of H₂ and of Z, stores Z's rows, forms
  (block of Z)ᵀ (block of G), and stores the accumulator plus that term.  Every store goes through a
  buffer's whole rectangle, so what a buffer reads afterwards is the last payload stored into it; every
  load of an input reads the input's block as it stands.  The two statements below say this for the
  first point and for a later one, over arbitrary whole buffers and arbitrary block values.
-/
import proofs.«158643_g48112223650413_cont_sun_m_1297_5_alg».proof.Proof.HandK.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a matrix's whole rectangle are zero. -/
theorem zeroOff0 : (![0, 0] : Fin 2 → ℕ) = fun _ => 0 := funext fun a => by fin_cases a <;> rfl

/-- A whole buffer, after one store through its whole rectangle at zero offsets, reads the stored payload,
    whatever it held before. -/
theorem read_store_whole0 {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-- The condition of the body's one branch, from the grid coordinate: the body's scalar chain. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-- The block's rows of H₂ from the input blocks and the scratch's contents `s`. -/
abbrev hOf (s : Vec F S4096x128 .bf16) (x1 x2 : Vec F S512x2048 .f32) (x4 : Vec F S1x128 .f32) (x5 : Vec F S128x64 .f32) (x6 : Vec F S1x64 .f32) : FVec F S512x64 .f32 :=
  k0_pay4 x4 x1 (View.ld s rLo) x2 (View.ld s rHi) x5 x6

/-- The same after a later store through the whole rectangle, whatever was stored before it. -/
theorem read_store_whole_cons0 {κ : Kind} {sp : Space} {S : Shape} {e : EltTy} (v : View sig κ sp S e)
    (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero h inb y⟩).trans
    (View.canon_cons_unit_zero h inb w L)

/-- A load through any rectangle, after one store through the whole rectangle, reads the stored payload at
    the rectangle's indices. -/
theorem readCov_whole_ld0 {κ : Kind} {sp : Space} {S : Shape} {e : EltTy} {v : View sig κ sp S e}
    {off : Fin S.rank → ℕ} (h : off = fun _ => 0) (inb : ∀ a, off a + S.size a ≤ S.size a)
    (w : S.Idx → Elt F e) (r : Rect S) :
    v.readCov [(⟨Rect.unit off S.size inb, w⟩ : View.Piece (Elt F) S e)] r.toLoadRect = View.ld w r :=
  (View.readCov_eq_canon_ld v _ r fun y => ⟨_, List.mem_singleton_self _, View.mem_set_unit_zero h inb y⟩).trans
    (by rw [View.canon_unit_zero h inb w])

set_option maxHeartbeats 4000000 in
/-- The body at the first point, on whole memrefs: the inputs' at their blocks, Z's buffer, the accumulator's
    and the scratch at anything.  It hands the inputs back as they were, the scratch at the support matrix
    formed from the features and the first weight, Z's buffer at the block's rows of Z formed from that, and
    the accumulator's at zero plus the block's term. -/
theorem run0_first (c : Dev nD) (E : Set ℕ) (i : grid0.Coords) (hc : cond0 i)
    (arg1 : Memref sig .tc .vmem S4096x256 .f32) (harg1 : arg1.IsWhole)
    (arg2 : Memref sig .tc .vmem S512x2048 .f32) (harg2 : arg2.IsWhole)
    (arg3 : Memref sig .tc .vmem S512x2048 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x64 .f32) (harg6 : arg6.IsWhole)
    (arg7 : Memref sig .tc .vmem S1x64 .f32) (harg7 : arg7.IsWhole)
    (arg8 : Memref sig .tc .vmem S64x32 .f32) (harg8 : arg8.IsWhole)
    (arg9 : Memref sig .tc .vmem S1x32 .f32) (harg9 : arg9.IsWhole)
    (arg10 : Memref sig .tc .vmem S32x64 .f32) (harg10 : arg10.IsWhole)
    (arg11 : Memref sig .tc .vmem S1x64 .f32) (harg11 : arg11.IsWhole)
    (arg12 : Memref sig .tc .vmem S64x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S512x32 .f32) (harg15 : arg15.IsWhole)
    (arg16 : Memref sig .tc .vmem S32x256 .f32) (harg16 : arg16.IsWhole)
    (arg17 : Memref sig .tc .vmem S4096x128 .bf16) (harg17 : arg17.IsWhole)
    (x0 : Vec F S4096x256 .f32) (x1 : Vec F S512x2048 .f32) (x2 : Vec F S512x2048 .f32) (x3 : Vec F S256x128 .f32) (x4 : Vec F S1x128 .f32) (x5 : Vec F S128x64 .f32) (x6 : Vec F S1x64 .f32) (x7 : Vec F S64x32 .f32) (x8 : Vec F S1x32 .f32) (x9 : Vec F S32x64 .f32) (x10 : Vec F S1x64 .f32) (x11 : Vec F S64x128 .f32) (x12 : Vec F S1x128 .f32) (x13 : Vec F S128x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (k0_pay5 (hOf (k0_pay2 x0 x3) x1 x2 x4 x5 x6) x7 x8)
            ∗ owns (c : Thread nD τ) arg16 fullShare (k0_pay1 (k0_pay6 k0_pay3) (k0_pay7 (hOf (k0_pay2 x0 x3) x1 x2 x4 x5 x6) x7 x8 x9 x10 x11 x12 x13))
            ∗ owns (c : Thread nD τ) arg17 fullShare (k0_pay2 x0 x3)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  isplitl [H15]
  · iexists _; isplitr
    swap; · iexact H15
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  · iexists _; isplitr
    swap; · iexact H16
    ipureintro
    refine (read_store_whole_cons0 _ _ zeroOff0 _ _ _).trans ?_
    sl_unfold_run_names
    simp only [View.readAt_eq_ld, hf0, hf1, hf2, hf3, hf4, hf5, hf6, hf7, hf8, hf9, hf10, hf11, hf12, hf13, readCov_whole_ld0 (S := S4096x128) zeroOff0, readCov_whole_ld0 (S := S32x256) zeroOff0, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]

set_option maxHeartbeats 4000000 in
/-- The body at a later point, on whole memrefs: the inputs' at their blocks, Z's buffer at anything, the
    accumulator's at `m0`, the scratch at `s`.  It hands the inputs and the scratch back as they were, Z's
    buffer at the block's rows of Z formed from `s`, and the accumulator's at `m0` plus the block's term. -/
theorem run0_later (c : Dev nD) (E : Set ℕ) (i : grid0.Coords) (hc : ¬ cond0 i)
    (arg1 : Memref sig .tc .vmem S4096x256 .f32) (harg1 : arg1.IsWhole)
    (arg2 : Memref sig .tc .vmem S512x2048 .f32) (harg2 : arg2.IsWhole)
    (arg3 : Memref sig .tc .vmem S512x2048 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S128x64 .f32) (harg6 : arg6.IsWhole)
    (arg7 : Memref sig .tc .vmem S1x64 .f32) (harg7 : arg7.IsWhole)
    (arg8 : Memref sig .tc .vmem S64x32 .f32) (harg8 : arg8.IsWhole)
    (arg9 : Memref sig .tc .vmem S1x32 .f32) (harg9 : arg9.IsWhole)
    (arg10 : Memref sig .tc .vmem S32x64 .f32) (harg10 : arg10.IsWhole)
    (arg11 : Memref sig .tc .vmem S1x64 .f32) (harg11 : arg11.IsWhole)
    (arg12 : Memref sig .tc .vmem S64x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S512x32 .f32) (harg15 : arg15.IsWhole)
    (arg16 : Memref sig .tc .vmem S32x256 .f32) (harg16 : arg16.IsWhole)
    (arg17 : Memref sig .tc .vmem S4096x128 .bf16) (harg17 : arg17.IsWhole)
    (x0 : Vec F S4096x256 .f32) (x1 : Vec F S512x2048 .f32) (x2 : Vec F S512x2048 .f32) (x3 : Vec F S256x128 .f32) (x4 : Vec F S1x128 .f32) (x5 : Vec F S128x64 .f32) (x6 : Vec F S1x64 .f32) (x7 : Vec F S64x32 .f32) (x8 : Vec F S1x32 .f32) (x9 : Vec F S32x64 .f32) (x10 : Vec F S1x64 .f32) (x11 : Vec F S64x128 .f32) (x12 : Vec F S1x128 .f32) (x13 : Vec F S128x256 .f32)
    (m0 : Vec F S32x256 .f32) (s : Vec F S4096x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ owns (c : Thread nD τ) arg16 fullShare m0 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (k0_pay5 (hOf s x1 x2 x4 x5 x6) x7 x8)
            ∗ owns (c : Thread nD τ) arg16 fullShare (k0_pay1 (k0_pay6 m0) (k0_pay7 (hOf s x1 x2 x4 x5 x6) x7 x8 x9 x10 x11 x12 x13))
            ∗ owns (c : Thread nD τ) arg17 fullShare s) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (read_store_whole0 _ _ zeroOff0 _ _).trans ?_
    sl_unfold_run_names
    simp only [View.readAt_eq_ld, hf0, hf1, hf2, hf3, hf4, hf5, hf6, hf7, hf8, hf9, hf10, hf11, hf12, hf13, hf15, hf16, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  isplitl [H15]
  · iexists _; isplitr
    swap; · iexact H15
    ipureintro
    refine (read_store_whole0 _ _ zeroOff0 _ _).trans ?_
    sl_unfold_run_names
    simp only [View.readAt_eq_ld, hf0, hf1, hf2, hf3, hf4, hf5, hf6, hf7, hf8, hf9, hf10, hf11, hf12, hf13, hf15, hf16, View.ld_unit_zero (S := S4096x256) zeroOff0, View.ld_unit_zero (S := S512x2048) zeroOff0, View.ld_unit_zero (S := S256x128) zeroOff0, View.ld_unit_zero (S := S1x128) zeroOff0, View.ld_unit_zero (S := S128x64) zeroOff0, View.ld_unit_zero (S := S1x64) zeroOff0, View.ld_unit_zero (S := S64x32) zeroOff0, View.ld_unit_zero (S := S1x32) zeroOff0, View.ld_unit_zero (S := S32x64) zeroOff0, View.ld_unit_zero (S := S64x128) zeroOff0, View.ld_unit_zero (S := S128x256) zeroOff0, View.ld_unit_zero (S := S32x256) zeroOff0, View.ld_unit_zero (S := S512x32) zeroOff0, View.ld_unit_zero (S := S4096x128) zeroOff0]
  iexists _; isplitr; · ipureintro; exact hf16
  iexact H16

end Cert.Kernel.Hand

end
-- ==== Proof.HandK.Body0.lean ====
/-
  The first kernel's body, run at each of its eight points.

  At the first point the body finds anything in the scratch and in the accumulator's buffer: it
  stores the support matrix into the scratch and zero into the accumulator before it reads either.
  At a later point it finds the support matrix in the scratch and, in the accumulator's buffer, what
  the point before left there (that buffer is not written out between points).  At every point it
  leaves the block's rows of Z in Z's buffer, the accumulator plus the block's term in the
  accumulator's buffer, the support matrix in the scratch, and every input buffer as it found it.
-/
import proofs.«158643_g48112223650413_cont_sun_m_1297_5_alg».proof.Proof.HandK.Body0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each buffer -/

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem after0_6 (c : Dev nD) (t : Fin cfg0.N) : (dat0 V c).after 6 t = iblk0 V c 6 t := by dsimp only [dat0]
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem after0_7 (c : Dev nD) (t : Fin cfg0.N) : (dat0 V c).after 7 t = iblk0 V c 7 t := by dsimp only [dat0]
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)
theorem after0_8 (c : Dev nD) (t : Fin cfg0.N) : (dat0 V c).after 8 t = iblk0 V c 8 t := by dsimp only [dat0]
theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)
theorem after0_9 (c : Dev nD) (t : Fin cfg0.N) : (dat0 V c).after 9 t = iblk0 V c 9 t := by dsimp only [dat0]
theorem before0_9 (c : Dev nD) (t : Fin cfg0.N) (d) : (dat0 V c).before 9 t d = iblk0 V c 9 t :=
  ((dat0 V c).before_in_eq_fetched 9 rfl (fun _ => rfl) (fun _ _ _ => rfl)
      (fun t => by rw [after0_9]; unfold Dat.blockOf iblk0; rw [A_eq0]; try rfl) t d).trans
    (by unfold Dat.fetched Dat.blockOf iblk0; rw [A_eq0]; try rfl)
theorem after0_10 (c : Dev nD) (t : Fin cfg0.N) : (dat0 V c).after 10 t = iblk0 V c 10 t := by dsimp only [dat0]
theorem before0_10 (c : Dev nD) (t : Fin cfg0.N) (d) : (dat0 V c).before 10 t d = iblk0 V c 10 t :=
  ((dat0 V c).before_in_eq_fetched 10 rfl (fun _ => rfl) (fun _ _ _ => rfl)
      (fun t => by rw [after0_10]; unfold Dat.blockOf iblk0; rw [A_eq0]; try rfl) t d).trans
    (by unfold Dat.fetched Dat.blockOf iblk0; rw [A_eq0]; try rfl)
theorem after0_11 (c : Dev nD) (t : Fin cfg0.N) : (dat0 V c).after 11 t = iblk0 V c 11 t := by dsimp only [dat0]
theorem before0_11 (c : Dev nD) (t : Fin cfg0.N) (d) : (dat0 V c).before 11 t d = iblk0 V c 11 t :=
  ((dat0 V c).before_in_eq_fetched 11 rfl (fun _ => rfl) (fun _ _ _ => rfl)
      (fun t => by rw [after0_11]; unfold Dat.blockOf iblk0; rw [A_eq0]; try rfl) t d).trans
    (by unfold Dat.fetched Dat.blockOf iblk0; rw [A_eq0]; try rfl)
theorem after0_12 (c : Dev nD) (t : Fin cfg0.N) : (dat0 V c).after 12 t = iblk0 V c 12 t := by dsimp only [dat0]
theorem before0_12 (c : Dev nD) (t : Fin cfg0.N) (d) : (dat0 V c).before 12 t d = iblk0 V c 12 t :=
  ((dat0 V c).before_in_eq_fetched 12 rfl (fun _ => rfl) (fun _ _ _ => rfl)
      (fun t => by rw [after0_12]; unfold Dat.blockOf iblk0; rw [A_eq0]; try rfl) t d).trans
    (by unfold Dat.fetched Dat.blockOf iblk0; rw [A_eq0]; try rfl)
theorem after0_13 (c : Dev nD) (t : Fin cfg0.N) : (dat0 V c).after 13 t = iblk0 V c 13 t := by dsimp only [dat0]
theorem before0_13 (c : Dev nD) (t : Fin cfg0.N) (d) : (dat0 V c).before 13 t d = iblk0 V c 13 t :=
  ((dat0 V c).before_in_eq_fetched 13 rfl (fun _ => rfl) (fun _ _ _ => rfl)
      (fun t => by rw [after0_13]; unfold Dat.blockOf iblk0; rw [A_eq0]; try rfl) t d).trans
    (by unfold Dat.fetched Dat.blockOf iblk0; rw [A_eq0]; try rfl)

/-- The accumulator's window is not written out at any point before the last. -/
theorem noFlush0_15 (t : Fin cfg0.N) (hz : t.val ≠ 0) :
    (cfg0.win 15).flush ⟨t.val - 1, Nat.lt_of_le_of_lt (Nat.sub_le _ _) t.isLt⟩ = false := by
  have hN : t.val < 8 := lt_of_lt_of_eq t.isLt (show cfg0.N = 8 from N_0)
  have h := flush0_15 ⟨t.val - 1, Nat.lt_of_le_of_lt (Nat.sub_le _ _) t.isLt⟩
  rw [Bool.eq_false_iff]
  intro hf
  have h7 := h.mp hf
  dsimp only at h7
  omega

/-- So at a later point its buffer holds what the point before left there: the accumulator so far. -/
theorem before0_15_later (c : Dev nD) (t : Fin cfg0.N) (hz : t.val ≠ 0) (d) :
    (dat0 V c).before 15 t d = mAcc V c (t.val - 1) (Nat.lt_of_le_of_lt (Nat.sub_le _ _) t.isLt) := by
  rw [(dat0 V c).before_out_kept 15 rfl t hz (noFlush0_15 t hz) (fun _ => rfl) (fun _ _ => rfl) d, after0_15]

/-! ## The proof data's blocks in the run's spelling -/

theorem zBlk_eq (c : Dev nD) (t : Fin cfg0.N) :
    zBlk V c t = k0_pay5 (hOf (supp V c) (bAL V c t) (bAR V c t) (bB0 V c t) (bW1 V c t) (bB1 V c t)) (bW2 V c t) (bB2 V c t) := rfl

theorem zgBlk_eq (c : Dev nD) (t : Fin cfg0.N) :
    zgBlk V c t = k0_pay7 (hOf (supp V c) (bAL V c t) (bAR V c t) (bB0 V c t) (bW1 V c t) (bB1 V c t)) (bW2 V c t) (bB2 V c t)
      (bW3 V c t) (bB3 V c t) (bW4 V c t) (bB4 V c t) (bW5 V c t) := rfl

/-- At the first point the support matrix is formed from that point's blocks. -/
theorem supp_first (c : Dev nD) (t : Fin cfg0.N) (hz : t.val = 0) : supp V c = k0_pay2 (bX V c t) (bW0 V c t) := by
  have ht : t = t0_0 := Fin.ext hz
  subst ht; rfl

/-- The accumulator after the first point: zero plus the first block's term. -/
theorem mAcc_first (c : Dev nD) (t : Fin cfg0.N) (hz : t.val = 0) :
    mAcc V c t.val t.isLt = k0_pay1 (k0_pay6 k0_pay3) (zgBlk V c t) := by
  obtain ⟨n, hn⟩ := t
  cases n with
  | zero => rfl
  | succ n => exact absurd hz (Nat.succ_ne_zero n)

/-- The accumulator after a later point: what the point before left plus the block's term. -/
theorem mAcc_later (c : Dev nD) (t : Fin cfg0.N) (hz : t.val ≠ 0) :
    mAcc V c t.val t.isLt
      = k0_pay1 (k0_pay6 (mAcc V c (t.val - 1) (Nat.lt_of_le_of_lt (Nat.sub_le _ _) t.isLt))) (zgBlk V c t) := by
  obtain ⟨n, hn⟩ := t
  cases n with
  | zero => exact absurd rfl hz
  | succ n => rfl

/-- Before the first point the invariant is the scratch at anything, the second kernel's staging buffers at
    anything and the generator register. -/
theorem PhiA0_eq (c : Dev nD) :
    (Pipeline.ΦA spec0 c : sProp 𝕄)
      = iprop(((∃ d, owns (c : Thread nD τ) scM fullShare d) ∗ rest0 c) ∗ (∃ r, prngReg c r)) := by
  unfold Pipeline.ΦA rest0; rw [scopedRest0_eq]; simp only [scM, owns_whole]; try rfl

/-! ## The body obligation at a point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point.  Each input's buffer holds its block.  At the first point the scratch and the two
    outputs' buffers hold anything, and the body leaves the support matrix, the block's rows of Z and zero plus
    the block's term.  At a later point the scratch holds the support matrix and the accumulator's buffer what
    the point before left, and the body leaves the scratch as it was, the block's rows of Z and the accumulator
    plus the block's term.  Nothing is owed before or after. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).owesAt () t.succ = (dat0 V c).owesAt () t.castSucc from rfl]
  rw [after0_0, after0_1, after0_2, after0_3, after0_4, after0_5, after0_6, after0_7, after0_8, after0_9, after0_10, after0_11, after0_12, after0_13, after0_14, after0_15]
  rw [Phi0_castSucc V c t, show (dat0 V c).Φ t.succ = PhiS V c (t.val + 1) t.isLt from rfl,
    PhiS_pos V c (t.val + 1) _ (Nat.succ_ne_zero _)]
  by_cases hz : t.val = 0
  · rw [PhiS_zero V c _ _ hz, PhiA0_eq, mAcc_first V c t hz, zBlk_eq V c t, zgBlk_eq V c t, supp_first V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run0_first c Set.univ (grid0.coords t) ((hcond0 t).mpr hz) _ _ _ _ _ _ _ _ _ _ _ _ _ _ _ _ _ _ _ _ _ _ _ _ _ _ _ _ _ _ _ _ _ _
      (bX V c t) (bAL V c t) (bAR V c t) (bW0 V c t) (bB0 V c t) (bW1 V c t) (bB1 V c t) (bW2 V c t) (bB2 V c t) (bW3 V c t) (bB3 V c t) (bW4 V c t) (bB4 V c t) (bW5 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [PhiS_pos V c _ _ hz, mAcc_later V c t hz, zBlk_eq V c t, zgBlk_eq V c t]
    simp only [before0_15_later V c t hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run0_later c Set.univ (grid0.coords t) (fun h => hz ((hcond0 t).mp h)) _ _ _ _ _ _ _ _ _ _ _ _ _ _ _ _ _ _ _ _ _ _ _ _ _ _ _ _ _ _ _ _ _ _
      (bX V c t) (bAL V c t) (bAR V c t) (bW0 V c t) (bB0 V c t) (bW1 V c t) (bB1 V c t) (bW2 V c t) (bB2 V c t) (bW3 V c t) (bB3 V c t) (bW4 V c t) (bB4 V c t) (bW5 V c t) (mAcc V c (t.val - 1) (Nat.lt_of_le_of_lt (Nat.sub_le _ _) t.isLt)) (supp V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [HS]; · iexact HS
    iintro ⟨H0, H1, H2, H3, H4, H5, H6, H7, H8, H9, H10, H11, H12, H13, H14, H15, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body obligation of the first kernel, at every point: from the invariant before the point and
    every window's current buffer at what it holds then, the body runs to the invariant after the
    point and every buffer at what the proof data say it holds after the body. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.HandK.Reg0.lean ====
/-
  The first kernel as an item of the program.

  It is entered holding every buffer outside a kernel's scope at the contents after the biases'
  reshapes.  Its windows' arrays are taken out of those buffers: the adjacency's buffer, which two
  windows read, is split into two halves of its share, one for each; every other array goes whole to
  its one window.  The generator register goes into the kernel's invariant and comes back.  At the
  exit the arrays are put back: the two halves of the adjacency's share rejoin (both windows end
  holding the contents they began with), the inputs are as they were, and the two output arrays hold
  what the kernel's write-backs left.
-/
import proofs.«158643_g48112223650413_cont_sun_m_1297_5_alg».proof.Proof.HandK.Regs
import proofs.«158643_g48112223650413_cont_sun_m_1297_5_alg».proof.Proof.HandK.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The windows' arrays and the buffers behind them -/

section Arrays

-- the contents of a core's buffers when the kernel is entered
variable (V : (c : Dev nD) → (b : Ref sig .tc) → Buf (Elt F) ((c : Thread nD τ).loc b))

/-- The fifteen distinct buffers behind the first kernel's sixteen windows, in window order. -/
abbrev arrL0 : List (Ref sig .tc) :=
  [main_arg0, main_arg1, main_arg2, main_call0_v0, main_arg4, main_call0_v1, main_arg6, main_call0_v2, main_arg8,
   main_call0_v3, main_arg10, main_call0_v4, main_arg12, main_v0_1, main_call0_v5_1]

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = Idealize.SL.BI.bigSepL arrL0 fun b => (((c : Thread nD τ).loc b) ↦{fullShare} W b : sProp 𝕄) := by
  unfold Pipeline.arrBufs
  exact bigSep_eq_bigSepL_of_eq arrL0 (by decide) (by decide) _

/-- A window's array is a whole buffer: held over all its elements. -/
theorem win_pt0 (c : Dev nD) (w : Fin cfg0.W) (q : PosShare TreeShare)
    (f : Buf (Elt F) ((cfg0.win w).arr.view.loc (c : Thread nD τ)))
    (g : Buf (Elt F) ((c : Thread nD τ).loc (Pipeline.arrRef spec0 w))) (h : f = g) :
    ((cfg0.win w).arr.view.loc (c : Thread nD τ) ↦[(cfg0.win w).arr.view.set]{q} f : sProp 𝕄)
      = (((c : Thread nD τ).loc (Pipeline.arrRef spec0 w)) ↦{q} g) := by
  subst h
  rw [show (cfg0.win w).arr.view.set = Finset.univ from (arr_whole0 w).set_eq_univ]

/-- The sixteen windows' arrays, at contents read off one valuation of the buffers, are the fifteen buffers behind
    them whole at that valuation: the adjacency's buffer is its two windows' halves of the share put together
    (both at the same contents), every other buffer is its one window's. -/
theorem arrays_eq0 (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (dat0 V c).arrays G = (Pipeline.arrBufs (Ix := Unit) (Name := ℕ) (U := UR sig nD τ) (Lvl := ℕ) spec0 c W : sProp 𝕄) := by
  have hs : (((c : Thread nD τ).loc main_arg1) ↦{fullShare} W main_arg1 : sProp 𝕄)
      ⊣⊢ iprop((((c : Thread nD τ).loc main_arg1) ↦{fullShare.left} W main_arg1) ∗ ((c : Thread nD τ).loc main_arg1) ↦{fullShare.right} W main_arg1) :=
    pointsTo_share (PosShare.mem_left_op_right fullShare)
  have h1 : (((c : Thread nD τ).loc main_arg1) ↦{fullShare} W main_arg1 : sProp 𝕄)
      = iprop((((c : Thread nD τ).loc main_arg1) ↦{fullShare.left} W main_arg1) ∗ ((c : Thread nD τ).loc main_arg1) ↦{fullShare.right} W main_arg1) :=
    BI.equiv_iff.mp ⟨hs.1, hs.2⟩
  have hassoc : ∀ a b d : sProp 𝕄, iprop((a ∗ b) ∗ d) = iprop(a ∗ b ∗ d) := fun a b d =>
    (Idealize.SL.BI.sep_assoc (P := a) (Q := b) (R := d)).antisymm Idealize.SL.BI.sep_assoc'
  let Φ : Ref sig .tc → sProp 𝕄 := fun b => (((c : Thread nD τ).loc b) ↦{fullShare} W b : sProp 𝕄)
  let tl : List (Ref sig .tc) := [main_arg2, main_call0_v0, main_arg4, main_call0_v1, main_arg6, main_call0_v2, main_arg8,
    main_call0_v3, main_arg10, main_call0_v4, main_arg12, main_v0_1, main_call0_v5_1]
  have e : iprop(Φ main_arg0 ∗ Φ main_arg1 ∗ Idealize.SL.BI.bigSepL tl Φ)
      = iprop(Φ main_arg0 ∗ (((c : Thread nD τ).loc main_arg1) ↦{fullShare.left} W main_arg1)
          ∗ (((c : Thread nD τ).loc main_arg1) ↦{fullShare.right} W main_arg1) ∗ Idealize.SL.BI.bigSepL tl Φ) :=
    congrArg (fun x => iprop(Φ main_arg0 ∗ x)) ((congrArg (fun x => iprop(x ∗ Idealize.SL.BI.bigSepL tl Φ)) h1).trans (hassoc _ _ _))
  unfold Dat.arrays
  refine (bigSep_congr fun w _ => win_pt0 c w _ _ _ (hG w)).trans ?_
  refine (bigSep_W0 _).trans ?_
  refine Eq.trans ?_ (arrBufs0_eq c W).symm
  exact Eq.trans rfl e.symm

end Arrays

/-- A core's unscoped buffers are the buffers behind the first kernel's windows and the rest. -/
theorem held_split0 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W]
  exact Pipeline.unscopedBufs_split₀ cfgs 0 winFacts₀0.arr_unscoped c _

/-! ## The buffers after the first kernel -/
/-- An input window's array ends as it began, and the first kernel changes no input's buffer. -/
theorem arrAt_in0 (c : Dev nD) (w : Fin cfg0.W) (hin : (cfg0.win w).isOut = false)
    (hw : Pipeline.arrRef spec0 w ∉ ([main_v0_1, main_call0_v5_1] : List (Ref sig .tc))) :
    (dat0 (Vin0 m) c).arrAt w cfg0.N = V2 m (outs m) c (Pipeline.arrRef spec0 w) :=
  (Pipeline.Dat.arrAt_in (dat0 (Vin0 m) c) w hin _).trans (V2_of m (outs m) c _ hw).symm

/-- Every window's array at the exit holds what the buffers hold after the first kernel. -/
theorem arrAt_exit0 (c : Dev nD) : ∀ w : Fin cfg0.W, (dat0 (Vin0 m) c).arrAt w cfg0.N = V2 m (outs m) c (Pipeline.arrRef spec0 w)
  | 0 => arrAt_in0 m c 0 rfl (by decide)
  | 1 => arrAt_in0 m c 1 rfl (by decide)
  | 2 => arrAt_in0 m c 2 rfl (by decide)
  | 3 => arrAt_in0 m c 3 rfl (by decide)
  | 4 => arrAt_in0 m c 4 rfl (by decide)
  | 5 => arrAt_in0 m c 5 rfl (by decide)
  | 6 => arrAt_in0 m c 6 rfl (by decide)
  | 7 => arrAt_in0 m c 7 rfl (by decide)
  | 8 => arrAt_in0 m c 8 rfl (by decide)
  | 9 => arrAt_in0 m c 9 rfl (by decide)
  | 10 => arrAt_in0 m c 10 rfl (by decide)
  | 11 => arrAt_in0 m c 11 rfl (by decide)
  | 12 => arrAt_in0 m c 12 rfl (by decide)
  | 13 => arrAt_in0 m c 13 rfl (by decide)
  | 14 => by
    show zArr m c = V2 m (outs m) c main_v0_1
    rw [← outs_res1]
    simp only [V2]
    rw [Function.update_of_ne (by decide), Function.update_self]
  | 15 => by
    show mArr m c = V2 m (outs m) c main_call0_v5_1
    rw [← outs_acc]
    simp only [V2]
    rw [Function.update_self]
  | ⟨_ + 16, h⟩ => absurd h (Nat.not_lt.2 (Nat.le_add_left _ _))

theorem img14 : main_v0_1 ∈ Finset.univ.image (Pipeline.arrRef spec0) :=
  Finset.mem_image.mpr ⟨14, Finset.mem_univ _, rfl⟩
theorem img15 : main_call0_v5_1 ∈ Finset.univ.image (Pipeline.arrRef spec0) :=
  Finset.mem_image.mpr ⟨15, Finset.mem_univ _, rfl⟩

/-- A buffer that is no window's array is neither of the two the first kernel writes. -/
theorem V2_rest0 (c : Dev nD) (b : Ref sig .tc) (hb : b ∉ Finset.univ.image (Pipeline.arrRef spec0)) :
    V2 m (outs m) c b = V1 m c b :=
  V2_of m (outs m) c b fun h => hb (by
    rcases List.mem_cons.mp h with rfl | h
    · exact img14
    · rcases List.mem_cons.mp h with rfl | h
      · exact img15
      · exact absurd h List.not_mem_nil)

/-- The first kernel changes no buffer outside its windows' arrays. -/
theorem unscopedRest_exit0 (c : Dev nD) :
    (Pipeline.unscopedRest (Ix := Unit) (Name := ℕ) (U := UR sig nD τ) (Lvl := ℕ) spec0 c (Vin0 m c) : sProp 𝕄)
      = Pipeline.unscopedRest (Ix := Unit) (Name := ℕ) (U := UR sig nD τ) (Lvl := ℕ) spec0 c (fun b => V2 m (outs m) c b) := by
  unfold Pipeline.unscopedRest
  exact bigSep_congr fun b hb =>
    congrArg (fun f => (((c : Thread nD τ).loc b) ↦{fullShare} f : sProp 𝕄)) (V2_rest0 m c b (Finset.mem_sdiff.mp hb).2).symm

set_option backward.isDefEq.respectTransparency.types false in
/-- The first kernel's segment record. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none, held_split0,
      show (pdats m 0 c).arrays ((pdats m 0 c).arrAt · 0) = _ from
        arrays_eq0 (Vin0 m) c (fun b => V1 m c b) ((dat0 (Vin0 m) c).arrAt · 0) fun _ => rfl]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none,
      show (pdats m 0 c).Φ (Fin.last _) = PhiS (Vin0 m) c (Fin.last cfg0.N).val (Nat.le_of_lt_succ (Fin.last cfg0.N).isLt) from rfl,
      PhiS_pos (Vin0 m) c _ _ (by rw [Fin.val_last, show cfg0.N = 8 from N_0]; decide),
      show Pipeline.scopedRest (Pipeline.pin pcfgs adm 0).spec c = _ from scopedRest0_eq c]
    unfold rest0
    rw [owns_whole]
    iintro ⟨⟨Hs, H0, H1, H2, H3⟩, Hp⟩
    isplitl [Hp]; · iexact Hp
    isplitr; · iempintro
    isplitl [Hs]; · iexists _; iexact Hs
    isplitl [H0]; · iexact H0
    isplitl [H1]; · iexact H1
    isplitl [H2]; · iexact H2
    iexact H3
  hexit c := by
    rw [held_split0, unscopedRest_exit0,
      show (pdats m 0 c).arrays ((pdats m 0 c).arrAt · (Pipeline.pin pcfgs adm 0).N) = _ from
        arrays_eq0 (Vin0 m) c (fun b => V2 m (outs m) c b) ((dat0 (Vin0 m) c).arrAt · cfg0.N) (arrAt_exit0 m c)]
    iintro ⟨Ha, HO, HY, Hrest⟩
    imodintro
    isplitl [Ha Hrest]
    · isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.HandK.Body1.lean ====
/-
  The second kernel's body at its one point: it reads Z, the accumulator and the bias whole and
  leaves Z · accumulator + bias in the output's buffer, the three inputs' buffers as it found them.
-/
import proofs.«158643_g48112223650413_cont_sun_m_1297_5_alg».proof.Proof.HandK.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The run of the body over whole memrefs -/

/-- The offsets of a whole rectangle of a matrix are zero. -/
theorem zeroOff1 : (![0, 0] : Fin 2 → ℕ) = fun _ => 0 := funext fun a => by fin_cases a <;> rfl

/-- The output's whole rectangle, as the one store of the body spells it. -/
abbrev rOut1 : Rect S4096x256 := Rect.unit (s := S4096x256) ![0, 0] S4096x256.size Facts₀.inb_S4096x256_S4096x256_0_0

/-- The one store covers the output's buffer. -/
theorem coverOut1 (p : Vec F S4096x256 .f32) (y : S4096x256.Idx) :
    ∃ pc ∈ ([⟨rOut1, p⟩] : List (View.Piece (Elt F) S4096x256 .f32)), y ∈ pc.1.set :=
  ⟨_, List.mem_singleton_self _, View.mem_set_unit_zero (S := S4096x256) zeroOff1 Facts₀.inb_S4096x256_S4096x256_0_0 y⟩

set_option maxHeartbeats 1000000 in
/-- On whole memrefs holding `x0`, `x1`, `x2` and anything in the fourth, the body hands the first three
    back as they were and the fourth at `k1_pay1 x0 x1 x2`. -/
theorem sound_kernel1 (c : Dev nD) (E : Set ℕ)
    (arg0 : Memref sig .tc .vmem S4096x32 .f32) (harg0 : arg0.IsWhole)
    (arg1 : Memref sig .tc .vmem S32x256 .f32) (harg1 : arg1.IsWhole)
    (arg2 : Memref sig .tc .vmem S1x256 .f32) (harg2 : arg2.IsWhole)
    (arg3 : Memref sig .tc .vmem S4096x256 .f32) (harg3 : arg3.IsWhole)
    (x0 : Vec F S4096x32 .f32) (x1 : Vec F S32x256 .f32) (x2 : Vec F S1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (k1_pay1 x0 x1 x2)) -∗ K ⟨⟩))
      ⊢ wp frame (wpE (defs₀ (F := F)) Variants.none c none) E (cc1__decode_kernel arg0 harg0 arg1 harg1 arg2 harg2 arg3 harg3) K := by
  simp only [cc1__decode_kernel_eq_skeleton]; unfold cc1__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store's one piece covers, so the buffer reads the payload; each whole load read its buffer
  rw [View.read_writes_eq_canon _ _ _ (coverOut1 _), View.canon_unit_zero (S := S4096x256) zeroOff1]
  simp only [View.readAt_eq_ld, View.ld_unit_zero (S := S4096x32) zeroOff1, View.ld_unit_zero (S := S32x256) zeroOff1,
    View.ld_unit_zero (S := S1x256) zeroOff1]

/-! ## What the body finds in the inputs' buffers -/

/-- The first input's buffer holds Z whole: the window is fetched at the one point and never idle. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]
  · unfold Dat.fetched Dat.blockOf iblk1; rw [A_eq1]; rfl

/-- The second's holds the accumulator whole. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]
  · unfold Dat.fetched Dat.blockOf iblk1; rw [A_eq1]; rfl

/-- The third's holds the bias whole. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]
  · unfold Dat.fetched Dat.blockOf iblk1; rw [A_eq1]; rfl

/-! ## The body obligation -/

/-- What the body is called with at the point: the invariant, what the core owes, and the four windows' buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at the point: the inputs' buffers hold their blocks, so the run lemma applies at those blocks; the
    invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second kernel. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.HandK.Reg1.lean ====
/-
  The second kernel as an item of the program.

  It is entered holding every buffer outside a kernel's scope at the contents after the first kernel
  and the last bias's reshape.  Its four windows' arrays are four different buffers, each taken whole;
  the generator register goes into the kernel's invariant and comes back.  At the exit the three
  inputs are as they were and the output array holds what the one write-back left.
-/
import proofs.«158643_g48112223650413_cont_sun_m_1297_5_alg».proof.Proof.HandK.Regs
import proofs.«158643_g48112223650413_cont_sun_m_1297_5_alg».proof.Proof.HandK.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the second kernel's exit, array by array -/

/-- An input's array ends as it was entered, and the buffers after the kernel agree there with those before
    it: the kernel writes the first result's buffer only. -/
theorem arr1_in (c : Dev nD) (w : Fin cfg1.W) (hw : (cfg1.win w).isOut = false)
    (hne : Pipeline.arrRef spec1 w ∉ ([main_v0_0] : List (Ref sig .tc))) :
    (dat1 (Vin1 m) c).arrAt w cfg1.N = V4 m (outs m) c (Pipeline.arrRef spec1 w) :=
  ((dat1 (Vin1 m) c).arrAt_in w hw _).trans <| (A_eq1 (Vin1 m) c w).trans <|
    ((V4_of m (outs m) c _ hne).trans (congrFun (V3_outs m c) _)).symm

/-- The output's array ends at what the one write-back left: the first result's buffer after the kernel. -/
theorem arr1_out (c : Dev nD) : (dat1 (Vin1 m) c).arrAt 3 cfg1.N = V4 m (outs m) c (Pipeline.arrRef spec1 3) :=
  ((V4_res0 m (outs m) c).trans (outs_res0 m c)).symm

/-- Every array of the second kernel ends at the buffers' contents after it. -/
theorem hF1 (c : Dev nD) : ∀ w : Fin cfg1.W, (dat1 (Vin1 m) c).arrAt w cfg1.N = V4 m (outs m) c (Pipeline.arrRef spec1 w)
  | ⟨0, _⟩ => arr1_in m c 0 rfl (by decide)
  | ⟨1, _⟩ => arr1_in m c 1 rfl (by decide)
  | ⟨2, _⟩ => arr1_in m c 2 rfl (by decide)
  | ⟨3, _⟩ => arr1_out m c

/-- A buffer that is no array of the second kernel is not the first result's, so the kernel leaves it alone. -/
theorem hrest1 (c : Dev nD) (b : Ref sig .tc) (hb : b ∉ Finset.univ.image (Pipeline.arrRef spec1)) :
    V4 m (outs m) c b = Vin1 m c b := by
  have hne : b ∉ ([main_v0_0] : List (Ref sig .tc)) := fun h =>
    hb (Finset.mem_image.mpr ⟨3, Finset.mem_univ _, (List.mem_singleton.mp h).symm⟩)
  exact (V4_of m (outs m) c b hne).trans (congrFun (V3_outs m c) _)

/-! ## The buffers at the kernel's two ends -/

/-- ENTRY.  The buffers outside a kernel's scope, at the contents the second kernel is entered from, are
    its four arrays at those contents beside the remaining such buffers. -/
theorem bufs_entry1 (c : Dev nD) :
    (StableHlo.held (c : Thread nD τ) (Pipeline.ucRefs τ sig) (V3 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (Vin1 m c)) := by
  rw [V3_outs, ← Pipeline.unscopedBufs_held]
  exact Pipeline.arrays_of_unscopedBufs (p := 1) (pcfgs (F := F)) adm (pdats m) launch1.win launch1.arr_whole c
    ((pdats m 1 c).share_full fun _ => rfl) (Vin1 m c) fun _ => rfl

/-- EXIT.  The four arrays at what the kernel leaves in them, beside the remaining buffers as entered, are
    the buffers outside a kernel's scope at the contents after the kernel. -/
theorem bufs_exit1 (c : Dev nD) :
    iprop((pdats m 1 c).arrays ((pdats m 1 c).arrAt · cfg1.N)
        ∗ Pipeline.unscopedRest (Ix := Unit) (Name := ℕ) (U := UR sig nD τ) (Lvl := ℕ) spec1 c (Vin1 m c))
      ⊢ (StableHlo.held (c : Thread nD τ) (Pipeline.ucRefs τ sig) (V4 m (outs m) c) : sProp 𝕄) := by
  rw [← Pipeline.unscopedBufs_held]
  exact Pipeline.unscopedBufs_of_arrays (p := 1) (pcfgs (F := F)) adm launch1.win launch1.arr_whole c (pdats m)
    ((pdats m 1 c).share_full fun _ => rfl) (Vin1 m c) (fun b => V4 m (outs m) c b) ((pdats m 1 c).arrAt · cfg1.N)
    (hF1 m c) (hrest1 m c)

/-- A core that owes nothing owes nothing within the kernel's first bound, -/
theorem owes_entry1 (c : Dev nD) :
    (iprop(∃ W, owes (c : Thread nD τ) (0 : CellTallies nD τ sig Unit) W) : sProp 𝕄) ⊢ (pdats m 1 c).owesAt () 0 := by
  unfold Pipeline.Dat.owesAt Pipeline.owesWithin
  iintro ⟨%W, HO⟩
  iexists W; isplitr
  · ipureintro; exact fun _ _ => Or.inl trivial
  iexact HO

/-- and after the last point it still owes nothing. -/
theorem owes_exit1 (c : Dev nD) :
    (pdats m 1 c).owesAt () (Fin.last cfg1.N) ⊢ (iprop(∃ W, owes (c : Thread nD τ) (0 : CellTallies nD τ sig Unit) W) : sProp 𝕄) := by
  unfold Pipeline.Dat.owesAt Pipeline.owesWithin
  iintro ⟨%W, -, HO⟩
  iexists W; iexact HO

/-- The second kernel has no prefetched table: holding its tables is holding nothing. -/
theorem pref1 (c : Dev nD) :
    (Pipeline.prefHeld (Ix := Unit) (Name := ℕ) (U := UR sig nD τ) (Lvl := ℕ) (pcfgs (F := F) 1).pre c (fun _ => fullShare) (adm (F := F) 1).1 : sProp 𝕄) = BI.emp := by
  unfold Pipeline.prefHeld; rw [show (Finset.univ : Finset (Fin 0)) = ∅ from rfl, BI.bigSep_empty]

set_option backward.isDefEq.respectTransparency.types false in
/-- The second kernel's segment record. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, pref1]
    iintro ⟨⟨Hb, Hg, Hw⟩, -, -⟩
    ihave Hb := bufs_entry1 m c $$ Hb
    icases Hb with ⟨Ha, Hz⟩
    ihave Hw := owes_entry1 m c $$ Hw
    imodintro
    isplitl [Ha]; · iexact Ha
    isplitr; · iempintro
    isplitl [Hw]; · iexact Hw
    isplitl [Hg]; · iexact Hg
    iexact Hz
  hin c := by
    rw [pref1, show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    iintro ⟨Ha, Hw, Hg, Hz⟩
    ihave Hb := bufs_exit1 m c $$ [Ha Hz]
    · isplitl [Ha]; · iexact Ha
      iexact Hz
    ihave Hw := owes_exit1 m c $$ Hw
    imodintro
    isplitl [Hb]; · iexact Hb
    isplitl [Hg]; · iexact Hg
    iexact Hw

end Cert.Kernel.Hand

end
-- ==== Proof.HandK.Main.lean ====
/-
  The kernel program's run: it terminates; its first result is what the second kernel
  leaves in its output array, its second result what the first kernel leaves in Z's array; its
  arguments end as they began.

  The program's four items chain: each is entered from exactly the buffer contents the one before
  it leaves.  Nothing is owed between cores at launch or at the end, and no kernel has a semaphore of
  its own.
-/
import proofs.«158643_g48112223650413_cont_sun_m_1297_5_alg».proof.Proof.HandK.Reg0
import proofs.«158643_g48112223650413_cont_sun_m_1297_5_alg».proof.Proof.HandK.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- Every weakly fair execution of the program from memory `m` terminates, with the two results at
    what the kernels leave in their arrays and every argument unchanged. -/
theorem run_all : θ_run defs (onTc (τ := τ) (main (F := F))) ⟨m, fun _ => 0, ρ⟩ (fun r => ∀ c : Dev nD,
      r.2.mem ((c.tc : Thread nD τ).loc main_v0_0) = xArr m c
      ∧ r.2.mem ((c.tc : Thread nD τ).loc main_v0_1) = zArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have h := run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl) (reg1 m) (fun _ => .rfl) (fun _ => .rfl)
  simpa only [outs_res0, outs_res1] using h

end Cert.Kernel.Hand

end
-- ==== Proof.lean ====
/-
  The certificate: a graph autoencoder's forward pass as a pair of accelerator kernels against its
  plain reference.

  The kernel program never forms the 4096 × 4096 product Z Zᵀ: its first kernel walks the adjacency's
  eight row blocks, keeps the support matrix X W₀ in a scratch buffer from the first block on, writes
  each block's rows of Z and accumulates Zᵀ G; its second kernel returns Z (Zᵀ G) + b₅.  The reference
  computes (Z Zᵀ) G + b₅.  Three facts are claimed of each program as printed (it runs to the end,
  faults nowhere, and leaves its fourteen arguments as it found them) and one of the pair of
  idealized programs: from memories agreeing on the arguments they end with equal results as
  extended reals, under the precondition that every input is finite.  The finiteness is used exactly
  once: associativity of the matrix product needs distributivity, which fails at the infinities.
  The ideal pass rewrote nothing, so the printed kernel and its idealization are one text read at two
  instances, and one proof, generic in the instance, gives both their frames.
-/
import proofs.«158643_g48112223650413_cont_sun_m_1297_5_alg».proof.Proof.Assembly
import proofs.«158643_g48112223650413_cont_sun_m_1297_5_alg».proof.Proof.Gen.Kernel
import proofs.«158643_g48112223650413_cont_sun_m_1297_5_alg».proof.Proof.HandK.Main

noncomputable section

namespace Cert.Proof

open Idealize.ShloMosaic Idealize.SL.Sem

/-- The kernel program as printed, at the word level, runs and leaves its arguments unchanged. -/
theorem frame_k : Cert.frame_Kernel := fun m ρ _ =>
  (θ_run Cert.Kernel.defs _ _).mono (fun _ h c => (h c).2.2) (Cert.Kernel.Hand.run_all (F := Bits) m ρ)

theorem claim : Cert.Claim :=
  ⟨Cert.Kernel.Gen.facts, Cert.KernelIdeal.Gen.facts, Cert.ReferenceIdeal.Gen.facts, Cert.Pre_finite_inputs.Gen.facts,
    frame_k, Cert.Proof.Ideal.frame_ki, Cert.Proof.Ideal.frame_ri, Cert.Proof.Ideal.preserves, Cert.Proof.Ideal.algebraic⟩

end Cert.Proof

end
